-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2x262144 : Shape := ⟨2, ![2, 262144]⟩
abbrev S262144x64 : Shape := ⟨2, ![262144, 64]⟩
abbrev S256x256 : Shape := ⟨2, ![256, 256]⟩
abbrev S256 : Shape := ⟨1, ![256]⟩
abbrev S64x256 : Shape := ⟨2, ![64, 256]⟩
abbrev S768x256 : Shape := ⟨2, ![768, 256]⟩
abbrev S256x8 : Shape := ⟨2, ![256, 8]⟩
abbrev S8 : Shape := ⟨1, ![8]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S768x256 : S_.BroadcastsInDim S768x256 (![] : Fin 0 → Fin S768x256.rank)
  reducesTo_S768x256_S_d0_1 : S768x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_
  bcast_S_S2x262144 : S_.BroadcastsInDim S2x262144 (![] : Fin 0 → Fin S2x262144.rank)
  reducesTo_S2x262144_S_d0_1 : S2x262144.ReducesTo [0, 1] S_

variable [Facts]

def fn_part5 {F : FTy → Type} [FloatOps F] (main_arg1 : IVec S2x262144 32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_c_34 : IVec S_ 32 := constantI S_ 32 4294950912#32
  let main_v89 : IVec S2x262144 32 := broadcastInDim S2x262144 ![] bcast_S_S2x262144 main_c_34
  let main_v90 : IVec S2x262144 1 := cmpi .sge main_arg1 main_v89
  let main_c_35 : IVec S_ 32 := constantI S_ 32 16384#32
  let main_v91 : IVec S2x262144 32 := broadcastInDim S2x262144 ![] bcast_S_S2x262144 main_c_35
  let main_v92 : IVec S2x262144 1 := cmpi .slt main_arg1 main_v91
  let main_v93 : IVec S2x262144 1 := andi main_v90 main_v92
  let main_c_36 : IVec S_ 1 := constantI S_ 1 1#1
  let main_v94 : IVec S_ 1 := (fun x v => Host.reduce IntOp.andi x v reducesTo_S2x262144_S_d0_1 h_S_) main_v93 main_c_36
  let main_v95 : IVec S_ 1 := andi main_v88 main_v94
  main_v95

def fn_part4 {F : FTy → Type} [FloatOps F] (main_arg1 : IVec S2x262144 32) (main_arg15 : FVec F S256x8 .f32) (main_arg16 : FVec F S8 .f32) (main_arg17 : FVec F S256 .f32) (main_arg18 : FVec F S256 .f32) (main_v63 : IVec S_ 1) (main_v67 : IVec S_ 1) : IVec S_ 1 :=
  let main_v68 : IVec S_ 1 := andi main_v63 main_v67
  let main_v69 : FVec F S256x8 .f32 := Host.absf main_arg15
  let main_cst_26 : FVec F S_ .f32 := constant S_ .f32 0x7F800000#32
  let main_v70 : FVec F S256x8 .f32 := broadcastInDim S256x8 ![] bcast_S_S256x8 main_cst_26
  let main_v71 : IVec S256x8 1 := cmpf .olt main_v69 main_v70
  let main_c_27 : IVec S_ 1 := constantI S_ 1 1#1
  let main_v72 : IVec S_ 1 := (fun x v => Host.reduce IntOp.andi x v reducesTo_S256x8_S_d0_1 h_S_) main_v71 main_c_27
  let main_v73 : IVec S_ 1 := andi main_v68 main_v72
  let main_v74 : FVec F S8 .f32 := Host.absf main_arg16
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x262144 32) (main_arg12 : FVec F S256 .f32) (main_arg13 : FVec F S768x256 .f32) (main_arg14 : FVec F S256 .f32) (main_arg15 : FVec F S256x8 .f32) (main_arg16 : FVec F S8 .f32) (main_arg17 : FVec F S256 .f32) (main_arg18 : FVec F S256 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S768x256 .f32 := Host.absf main_arg13
  let main_cst_22 : FVec F S_ .f32 := constant S_ .f32 0x7F800000#32
  let main_v60 : FVec F S768x256 .f32 := broadcastInDim S768x256 ![] bcast_S_S768x256 main_cst_22
  let main_v61 : IVec S768x256 1 := cmpf .olt main_v59 main_v60
  let main_c_23 : IVec S_ 1 := constantI S_ 1 1#1
  let main_v62 : IVec S_ 1 := (fun x v => Host.reduce IntOp.andi x v reducesTo_S768x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg15 main_arg16 main_arg17 main_arg18 main_v63 main_v67

def fn_part2 {F : FTy → Type} [FloatOps F] (main_arg1 : IVec S2x262144 32) (main_arg8 : FVec F S256 .f32) (main_arg9 : FVec F S256x256 .f32) (main_arg10 : FVec F S256 .f32) (main_arg11 : FVec F S64x256 .f32) (main_arg12 : FVec F S256 .f32) (main_arg13 : FVec F S768x256 .f32) (main_arg14 : FVec F S256 .f32) (main_arg15 : FVec F S256x8 .f32) (main_arg16 : FVec F S8 .f32) (main_arg17 : FVec F S256 .f32) (main_arg18 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x256 .f32 := Host.absf main_arg11
  let main_cst_18 : FVec F S_ .f32 := constant S_ .f32 0x7F800000#32
  let main_v50 : FVec F S64x256 .f32 := broadcastInDim S64x256 ![] bcast_S_S64x256 main_cst_18
  fn_part3 (F := F) main_arg1 main_arg12 main_arg13 main_arg14 main_arg15 main_arg16 main_arg17 main_arg18 main_v48 main_v49 main_v50

def fn_part1 {F : FTy → Type} [FloatOps F] (main_arg1 : IVec S2x262144 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S64x256 .f32) (main_arg12 : FVec F S256 .f32) (main_arg13 : FVec F S768x256 .f32) (main_arg14 : FVec F S256 .f32) (main_arg15 : FVec F S256x8 .f32) (main_arg16 : FVec F S8 .f32) (main_arg17 : FVec F S256 .f32) (main_arg18 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S16384x256 .f32) (main_arg1 : IVec S2x262144 32) (main_arg2 : FVec F S262144x64 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S64x256 .f32) (main_arg12 : FVec F S256 .f32) (main_arg13 : FVec F S768x256 .f32) (main_arg14 : FVec F S256 .f32) (main_arg15 : FVec F S256x8 .f32) (main_arg16 : FVec F S8 .f32) (main_arg17 : FVec F S256 .f32) (main_arg18 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S262144x64 .f32 := Host.absf main_arg2
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S16384x256 : Shape := ⟨2, ![16384, 256]⟩
abbrev S2x262144 : Shape := ⟨2, ![2, 262144]⟩
abbrev S262144x64 : Shape := ⟨2, ![262144, 64]⟩
abbrev S256x256 : Shape := ⟨2, ![256, 256]⟩
abbrev S256 : Shape := ⟨1, ![256]⟩
abbrev S64x256 : Shape := ⟨2, ![64, 256]⟩
abbrev S768x256 : Shape := ⟨2, ![768, 256]⟩
abbrev S256x8 : Shape := ⟨2, ![256, 8]⟩
abbrev S8 : Shape := ⟨1, ![8]⟩
abbrev S256x1024 : Shape := ⟨2, ![256, 1024]⟩
abbrev S1024 : Shape := ⟨1, ![1024]⟩
abbrev S1x1024 : Shape := ⟨2, ![1, 1024]⟩
abbrev S16384x1024 : Shape := ⟨2, ![16384, 1024]⟩
abbrev S2048x256 : Shape := ⟨2, ![2048, 256]⟩
abbrev S2048x1024 : Shape := ⟨2, ![2048, 1024]⟩
abbrev S1x256 : Shape := ⟨2, ![1, 256]⟩
abbrev S262144x256 : Shape := ⟨2, ![262144, 256]⟩
abbrev S4096x64 : Shape := ⟨2, ![4096, 64]⟩
abbrev S4096x256 : Shape := ⟨2, ![4096, 256]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S1x8 : Shape := ⟨2, ![1, 8]⟩
abbrev S262144x8 : Shape := ⟨2, ![262144, 8]⟩
abbrev S4096x8 : Shape := ⟨2, ![4096, 8]⟩
abbrev S2048 : Shape := ⟨1, ![2048]⟩
abbrev S2048x1 : Shape := ⟨2, ![2048, 1]⟩

abbrev nBuf : Space → Nat
  | .hbm => 146
  | .vmem => 34
  | .smem => 0
  | _ => 0

abbrev hbmTy0_0 (i : Nat) : BufTy := match i % 128 with
  | 0 => ⟨S16384x256, .f32⟩
  | 1 => ⟨S2x262144, .i32⟩
  | 2 => ⟨S262144x64, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S64x256, .f32⟩
  | 12 => ⟨S256, .f32⟩
  | 13 => ⟨S768x256, .f32⟩
  | 14 => ⟨S256, .f32⟩
  | 15 => ⟨S256x8, .f32⟩
  | 16 => ⟨S8, .f32⟩
  | 17 => ⟨S256, .f32⟩
  | 18 => ⟨S256, .f32⟩
  | 19 => ⟨S256x1024, .f32⟩
  | 20 => ⟨S1024, .f32⟩
  | 21 => ⟨S1x1024, .f32⟩
  | 22 => ⟨S16384x1024, .f32⟩
  | 23 => ⟨S16384x256, .f32⟩
  | 24 => ⟨S16384x256, .f32⟩
  | 25 => ⟨S16384x256, .f32⟩
  | 26 => ⟨S16384x256, .f32⟩
  | 27 => ⟨S1x256, .f32⟩
  | 28 => ⟨S262144x256, .f32⟩
  | 29 => ⟨S1x262144, .i32⟩
  | 30 => ⟨S262144, .i32⟩
  | 31 => ⟨S1x262144, .i32⟩
  | 32 => ⟨S262144, .i32⟩
  | 33 => ⟨S_, .i32⟩
  | 34 => ⟨S262144, .i32⟩
  | 35 => ⟨S262144, .i1⟩
  | 36 => ⟨S_, .i32⟩
  | 37 => ⟨S262144, .i32⟩
  | 38 => ⟨S262144, .i32⟩
  | 39 => ⟨S262144, .i32⟩
  | 40 => ⟨S262144x1, .i32⟩
  | 41 => ⟨S1, .i32⟩
  | 42 => ⟨S_, .i32⟩
  | 43 => ⟨S262144x1, .i32⟩
  | 44 => ⟨S262144x1, .i1⟩
  | 45 => ⟨S1x1, .i32⟩
  | 46 => ⟨S262144x1, .i32⟩
  | 47 => ⟨S262144x1, .i1⟩
  | 48 => ⟨S262144x1, .i1⟩
  | 49 => ⟨S_, .i1⟩
  | 50 => ⟨S262144, .i1⟩
  | 51 => ⟨S262144x256, .f32⟩
  | 52 => ⟨S262144x256, .i1⟩
  | 53 => ⟨S_, .f32⟩
  | 54 => ⟨S262144x256, .f32⟩
  | 55 => ⟨S262144x256, .f32⟩
  | 56 => ⟨S262144x256, .bf16⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S1, .i32⟩
  | 66 => ⟨S_, .i32⟩
  | 67 => ⟨S262144x1, .i32⟩
  | 68 => ⟨S262144x1, .i1⟩
  | 69 => ⟨S1x1, .i32⟩
  | 70 => ⟨S262144x1, .i32⟩
  | 71 => ⟨S262144x1, .i1⟩
  | 72 => ⟨S262144x1, .i1⟩
  | 73 => ⟨S_, .i1⟩
  | 74 => ⟨S262144, .i1⟩
  | 75 => ⟨S262144x256, .f32⟩
  | 76 => ⟨S262144x256, .i1⟩
  | 77 => ⟨S_, .f32⟩
  | 78 => ⟨S262144x256, .f32⟩
  | 79 => ⟨S262144x256, .f32⟩
  | 80 => ⟨S262144x256, .bf16⟩
  | 81 => ⟨S262144x256, .bf16⟩
  | 82 => ⟨S256x256, .f32⟩
  | 83 => ⟨S256x256, .f32⟩
  | 84 => ⟨S256x256, .f32⟩
  | 85 => ⟨S1x256, .f32⟩
  | 86 => ⟨S1x8, .f32⟩
  | 87 => ⟨S262144x8, .f32⟩
  | 88 => ⟨S_, .f32⟩
  | 89 => ⟨S262144, .f32⟩
  | 90 => ⟨S_, .f32⟩
  | 91 => ⟨S262144, .f32⟩
  | 92 => ⟨S262144, .f32⟩
  | 93 => ⟨S_, .f32⟩
  | 94 => ⟨S_, .f32⟩
  | 95 => ⟨S_, .f32⟩
  | 96 => ⟨S_, .f32⟩
  | 97 => ⟨S1, .f32⟩
  | 98 => ⟨S262144, .f32⟩
  | 99 => ⟨S262144, .f32⟩
  | 100 => ⟨S262144, .f32⟩
  | 101 => ⟨S_, .f32⟩
  | 102 => ⟨S_, .f32⟩
  | 103 => ⟨S1, .f32⟩
  | 104 => ⟨S262144, .f32⟩
  | 105 => ⟨S262144, .f32⟩
  | 106 => ⟨S_, .i32⟩
  | 107 => ⟨S262144, .i32⟩
  | 108 => ⟨S262144, .i1⟩
  | 109 => ⟨S_, .i32⟩
  | 110 => ⟨S262144, .i32⟩
  | 111 => ⟨S262144, .i32⟩
  | 112 => ⟨S262144, .i32⟩
  | 113 => ⟨S262144x1, .i32⟩
  | 114 => ⟨S1, .i32⟩
  | 115 => ⟨S_, .i32⟩
  | 116 => ⟨S262144x1, .i32⟩
  | 117 => ⟨S262144x1, .i1⟩
  | 118 => ⟨S1x1, .i32⟩
  | 119 => ⟨S262144x1, .i32⟩
  | 120 => ⟨S262144x1, .i1⟩
  | 121 => ⟨S262144x1, .i1⟩
  | 122 => ⟨S_, .i1⟩
  | 123 => ⟨S262144, .i1⟩
  | 124 => ⟨S262144x256, .f32⟩
  | 125 => ⟨S262144x256, .i1⟩
  | 126 => ⟨S_, .f32⟩
  | 127 => ⟨S262144x256, .f32⟩
  | _ => ⟨S16384x256, .f32⟩

abbrev hbmTy0_1 (i : Nat) : BufTy := match i % 128 with
  | 0 => ⟨S262144x256, .f32⟩
  | 1 => ⟨S262144x1, .f32⟩
  | 2 => ⟨S262144x256, .f32⟩
  | 3 => ⟨S262144x256, .f32⟩
  | 4 => ⟨S_, .f32⟩
  | 5 => ⟨S16384x256, .f32⟩
  | 6 => ⟨S_, .i32⟩
  | 7 => ⟨S262144, .i32⟩
  | 8 => ⟨S262144, .i1⟩
  | 9 => ⟨S_, .i32⟩
  | 10 => ⟨S262144, .i32⟩
  | 11 => ⟨S262144, .i32⟩
  | 12 => ⟨S262144, .i32⟩
  | 13 => ⟨S262144x1, .i32⟩
  | 14 => ⟨S16384x256, .f32⟩
  | 15 => ⟨S1x256, .f32⟩
  | 16 => ⟨S1x256, .f32⟩
  | 17 => ⟨S16384x256, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | .local _ .vmem, ⟨6, _⟩ => ⟨S4096x64, .f32⟩
  | .local _ .vmem, ⟨7, _⟩ => ⟨S4096x64, .f32⟩
  | .local _ .vmem, ⟨8, _⟩ => ⟨S64x256, .f32⟩
  | .local _ .vmem, ⟨9, _⟩ => ⟨S1x256, .f32⟩
  | .local _ .vmem, ⟨10, _⟩ => ⟨S4096x256, .f32⟩
  | .local _ .vmem, ⟨11, _⟩ => ⟨S4096x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S1x256, .f32⟩
  | .local _ .vmem, ⟨22, _⟩ => ⟨S256x8, .f32⟩
  | .local _ .vmem, ⟨23, _⟩ => ⟨S1x8, .f32⟩
  | .local _ .vmem, ⟨24, _⟩ => ⟨S4096x8, .f32⟩
  | .local _ .vmem, ⟨25, _⟩ => ⟨S4096x8, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S1x256, .f32⟩
  | .local _ .vmem, ⟨31, _⟩ => ⟨S1x256, .f32⟩
  | .local _ .vmem, ⟨32, _⟩ => ⟨S2048x256, .f32⟩
  | .local _ .vmem, ⟨33, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v14 : Ref sig .tc := ⟨.hbm, 55, rfl⟩
abbrev main_v15 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_cst : Ref sig .tc := ⟨.hbm, 88, rfl⟩
abbrev main_v25 : Ref sig .tc := ⟨.hbm, 89, rfl⟩
abbrev main_cst_0 : Ref sig .tc := ⟨.hbm, 90, rfl⟩
abbrev main_v26 : Ref sig .tc := ⟨.hbm, 91, rfl⟩
abbrev main_v27 : Ref sig .tc := ⟨.hbm, 92, rfl⟩
abbrev main_cst_1 : Ref sig .tc := ⟨.hbm, 93, rfl⟩
abbrev main_v28 : Ref sig .tc := ⟨.hbm, 94, rfl⟩
abbrev main_cst_2 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_cst_3 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_call2_c : Ref sig .tc := ⟨.hbm, 106, rfl⟩
abbrev main_call2_v0 : Ref sig .tc := ⟨.hbm, 107, rfl⟩
abbrev main_call2_v1 : Ref sig .tc := ⟨.hbm, 108, rfl⟩
abbrev main_call2_c_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_c_1 : Ref sig .tc := ⟨.hbm, 114, rfl⟩
abbrev main_call2_c_2 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_c_3 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_call2_cst : Ref sig .tc := ⟨.hbm, 126, rfl⟩
abbrev main_call2_v15 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_cst_4 : Ref sig .tc := ⟨.hbm, 132, rfl⟩
abbrev main_v42 : Ref sig .tc := ⟨.hbm, 133, rfl⟩
abbrev main_c : Ref sig .tc := ⟨.hbm, 134, rfl⟩
abbrev main_v43 : Ref sig .tc := ⟨.hbm, 135, rfl⟩
abbrev main_v44 : Ref sig .tc := ⟨.hbm, 136, rfl⟩
abbrev main_c_5 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg9_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x8 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4096x8 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  concatenates_S256x256_S256x256_S256x256_S256x256_S256x1024_d1 : Shape.Concatenates [S256x256, S256x256, S256x256, S256x256] S256x1024 1
  concatenates_S256_S256_S256_S256_S1024_d0 : Shape.Concatenates [S256, S256, S256, S256] S1024 0
  shapeCasts_S1024_S1x1024 : S1024.ShapeCasts S1x1024
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  shapeCasts_S256_S1x256 : S256.ShapeCasts S1x256
  inb_S4096x64_S4096x64_0_0 : ∀ a, (![0, 0] : Fin 2 → Nat) a + S4096x64.size a ≤ S4096x64.size a
  h_S4096x64 : 0 < S4096x64.numel
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x256_0 : S262144.BroadcastsInDim S262144x256 (![0] : Fin 1 → Fin S262144x256.rank)
  bcast_S_S262144x256 : S_.BroadcastsInDim S262144x256 (![] : Fin 0 → Fin S262144x256.rank)
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S8_S1x8 : S8.ShapeCasts S1x8
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  inb_S4096x8_S4096x8_0_0 : ∀ a, (![0, 0] : Fin 2 → Nat) a + S4096x8.size a ≤ S4096x8.size a
  h_S4096x8 : 0 < S4096x8.numel
  reducesTo_S262144x8_S262144_d1 : S262144x8.ReducesTo [1] S262144
  reducesTo_S262144_S_d0 : S262144.ReducesTo [0] S_
  bcast_S_S1 : S_.BroadcastsInDim S1 (![] : Fin 0 → Fin S1.rank)
  bcast_S1_S262144_0 : S1.BroadcastsInDim S262144 (![0] : Fin 1 → Fin S262144.rank)
  bcast_S262144x1_S262144x256_0_1 : S262144x1.BroadcastsInDim S262144x256 (![0, 1] : Fin 2 → Fin S262144x256.rank)
  bcast_S_S16384x256 : S_.BroadcastsInDim S16384x256 (![] : Fin 0 → Fin S16384x256.rank)
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  broadcasts_S1x256_S2048x256 : S1x256.Broadcasts S2048x256
  dot_S2048x256_S256x1024_S2048x1024_1_0_0_1_n_n_wf : DotDims.WF S2048x256 S256x1024 S2048x1024 [1] [0] [0] [1] [] []
  dot_S4096x64_S64x256_S4096x256_1_0_0_1_n_n_wf : DotDims.WF S4096x64 S64x256 S4096x256 [1] [0] [0] [1] [] []
  gather_S16384x256_S262144x1_S262144x256_1_0_n_n_0_1_1256_wf : GatherDims.WF S16384x256 S262144x1 S262144x256 [1] [0] [] [0] [] 1 ![1, 256]
  dot_S4096x256_S256x256_S4096x256_1_0_0_1_n_n_wf : DotDims.WF S4096x256 S256x256 S4096x256 [1] [0] [0] [1] [] []
  dot_S4096x256_S256x8_S4096x8_1_0_0_1_n_n_wf : DotDims.WF S4096x256 S256x8 S4096x8 [1] [0] [0] [1] [] []
  scatter_S16384x256_S262144x1_S262144x256_1_0_0_1_wf : ScatterDims.WF S16384x256 S262144x1 S262144x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x1024.size a
  hwx0_3 : ∀ i : grid0.Coords, EltTy.bits .f32 = 32 ∨ (Rect.block (s := S16384x1024) S2048x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S262144x64.size a
  hwx1_0 : ∀ i : grid1.Coords, EltTy.bits .f32 = 32 ∨ (Rect.block (s := S262144x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S262144x256.size a
  hwx1_3 : ∀ i : grid1.Coords, EltTy.bits .f32 = 32 ∨ (Rect.block (s := S262144x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S262144x256.size a
  hwx2_0 : ∀ i : grid2.Coords, EltTy.bits .bf16 = 32 ∨ (Rect.block (s := S262144x256) S4096x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S262144x256.size a
  hwx2_1 : ∀ i : grid2.Coords, EltTy.bits .bf16 = 32 ∨ (Rect.block (s := S262144x256) S4096x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S262144x256.size a
  hwx2_2 : ∀ i : grid2.Coords, EltTy.bits .bf16 = 32 ∨ (Rect.block (s := S262144x256) S4096x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x8.size a ≤ S256x8.size a
  hwx2_7 : ∀ i : grid2.Coords, EltTy.bits .f32 = 32 ∨ (Rect.block (s := S256x8) S256x8.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x8.size a ≤ S1x8.size a
  hwx2_8 : ∀ i : grid2.Coords, EltTy.bits .f32 = 32 ∨ (Rect.block (s := S1x8) S1x8.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4096x8.size a ≤ S262144x8.size a
  hwx2_9 : ∀ i : grid2.Coords, EltTy.bits .f32 = 32 ∨ (Rect.block (s := S262144x8) S4096x8.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S16384x256.size a
  hwx3_0 : ∀ i : grid3.Coords, EltTy.bits .f32 = 32 ∨ (Rect.block (s := S16384x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S16384x256.size a
  hwx3_1 : ∀ i : grid3.Coords, EltTy.bits .f32 = 32 ∨ (Rect.block (s := S16384x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x256.size a ≤ S16384x256.size a
  hwx3_4 : ∀ i : grid3.Coords, EltTy.bits .f32 = 32 ∨ (Rect.block (s := S16384x256) S2048x256.size (cc3_transform_4 i) (hinb3_4 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x8_S4096x8_1_0_0_1_n_n : DotDims S4096x256 S256x8 S4096x8 where
  lhsContracting := [1]
  rhsContracting := [0]
  lhsNonContracting := [0]
  rhsNonContracting := [1]
  lhsBatch := []
  rhsBatch := []
  wf := dot_S4096x256_S256x8_S4096x8_1_0_0_1_n_n_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S4096x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S256x8.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v23) S1x8.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v24) S4096x8.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v4) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S2048x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S16384x256 : Shape := ⟨2, ![16384, 256]⟩
abbrev S2x262144 : Shape := ⟨2, ![2, 262144]⟩
abbrev S262144x64 : Shape := ⟨2, ![262144, 64]⟩
abbrev S256x256 : Shape := ⟨2, ![256, 256]⟩
abbrev S256 : Shape := ⟨1, ![256]⟩
abbrev S64x256 : Shape := ⟨2, ![64, 256]⟩
abbrev S768x256 : Shape := ⟨2, ![768, 256]⟩
abbrev S256x8 : Shape := ⟨2, ![256, 8]⟩
abbrev S8 : Shape := ⟨1, ![8]⟩
abbrev S1x256 : Shape := ⟨2, ![1, 256]⟩
abbrev S262144x256 : Shape := ⟨2, ![262144, 256]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x768 : Shape := ⟨2, ![262144, 768]⟩
abbrev S262144x8 : Shape := ⟨2, ![262144, 8]⟩
abbrev S1x8 : Shape := ⟨2, ![1, 8]⟩
abbrev S1 : Shape := ⟨1, ![1]⟩
abbrev S16384 : Shape := ⟨1, ![16384]⟩
abbrev S16384x1 : Shape := ⟨2, ![16384, 1]⟩

abbrev nBuf : Space → Nat
  | .hbm => 155
  | .vmem => 0
  | .smem => 0
  | _ => 0

abbrev hbmTy0_0 (i : Nat) : BufTy := match i % 128 with
  | 0 => ⟨S16384x256, .f32⟩
  | 1 => ⟨S2x262144, .i32⟩
  | 2 => ⟨S262144x64, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S64x256, .f32⟩
  | 12 => ⟨S256, .f32⟩
  | 13 => ⟨S768x256, .f32⟩
  | 14 => ⟨S256, .f32⟩
  | 15 => ⟨S256x8, .f32⟩
  | 16 => ⟨S8, .f32⟩
  | 17 => ⟨S256, .f32⟩
  | 18 => ⟨S256, .f32⟩
  | 19 => ⟨S16384x256, .f32⟩
  | 20 => ⟨S1x256, .f32⟩
  | 21 => ⟨S16384x256, .f32⟩
  | 22 => ⟨S16384x256, .f32⟩
  | 23 => ⟨S16384x256, .f32⟩
  | 24 => ⟨S1x256, .f32⟩
  | 25 => ⟨S16384x256, .f32⟩
  | 26 => ⟨S16384x256, .f32⟩
  | 27 => ⟨S16384x256, .f32⟩
  | 28 => ⟨S1x256, .f32⟩
  | 29 => ⟨S16384x256, .f32⟩
  | 30 => ⟨S16384x256, .f32⟩
  | 31 => ⟨S16384x256, .f32⟩
  | 32 => ⟨S1x256, .f32⟩
  | 33 => ⟨S16384x256, .f32⟩
  | 34 => ⟨S16384x256, .f32⟩
  | 35 => ⟨S262144x256, .f32⟩
  | 36 => ⟨S1x256, .f32⟩
  | 37 => ⟨S262144x256, .f32⟩
  | 38 => ⟨S262144x256, .f32⟩
  | 39 => ⟨S1x262144, .i32⟩
  | 40 => ⟨S262144, .i32⟩
  | 41 => ⟨S1x262144, .i32⟩
  | 42 => ⟨S262144, .i32⟩
  | 43 => ⟨S_, .i32⟩
  | 44 => ⟨S262144, .i32⟩
  | 45 => ⟨S262144, .i1⟩
  | 46 => ⟨S_, .i32⟩
  | 47 => ⟨S262144, .i32⟩
  | 48 => ⟨S262144, .i32⟩
  | 49 => ⟨S262144, .i32⟩
  | 50 => ⟨S262144x1, .i32⟩
  | 51 => ⟨S262144x256, .f32⟩
  | 52 => ⟨S_, .i32⟩
  | 53 => ⟨S262144, .i32⟩
  | 54 => ⟨S262144, .i1⟩
  | 55 => ⟨S_, .i32⟩
  | 56 => ⟨S262144, .i32⟩
  | 57 => ⟨S262144, .i32⟩
  | 58 => ⟨S262144, .i32⟩
  | 59 => ⟨S262144x1, .i32⟩
  | 60 => ⟨S262144x256, .f32⟩
  | 61 => ⟨S262144x768, .f32⟩
  | 62 => ⟨S262144x256, .f32⟩
  | 63 => ⟨S1x256, .f32⟩
  | 64 => ⟨S262144x256, .f32⟩
  | 65 => ⟨S262144x256, .f32⟩
  | 66 => ⟨S_, .f32⟩
  | 67 => ⟨S262144x256, .f32⟩
  | 68 => ⟨S262144x256, .i1⟩
  | 69 => ⟨S_, .f32⟩
  | 70 => ⟨S262144x256, .f32⟩
  | 71 => ⟨S262144x256, .f32⟩
  | 72 => ⟨S262144x256, .f32⟩
  | 73 => ⟨S262144x8, .f32⟩
  | 74 => ⟨S1x8, .f32⟩
  | 75 => ⟨S262144x8, .f32⟩
  | 76 => ⟨S262144x8, .f32⟩
  | 77 => ⟨S_, .f32⟩
  | 78 => ⟨S262144x8, .f32⟩
  | 79 => ⟨S262144x8, .i1⟩
  | 80 => ⟨S_, .f32⟩
  | 81 => ⟨S262144x8, .f32⟩
  | 82 => ⟨S262144x8, .f32⟩
  | 83 => ⟨S262144x8, .f32⟩
  | 84 => ⟨S_, .f32⟩
  | 85 => ⟨S262144, .f32⟩
  | 86 => ⟨S_, .f32⟩
  | 87 => ⟨S262144, .f32⟩
  | 88 => ⟨S262144, .f32⟩
  | 89 => ⟨S_, .f32⟩
  | 90 => ⟨S_, .f32⟩
  | 91 => ⟨S_, .f32⟩
  | 92 => ⟨S_, .f32⟩
  | 93 => ⟨S1, .f32⟩
  | 94 => ⟨S262144, .f32⟩
  | 95 => ⟨S262144, .f32⟩
  | 96 => ⟨S262144, .f32⟩
  | 97 => ⟨S_, .f32⟩
  | 98 => ⟨S_, .f32⟩
  | 99 => ⟨S1, .f32⟩
  | 100 => ⟨S262144, .f32⟩
  | 101 => ⟨S262144, .f32⟩
  | 102 => ⟨S_, .f32⟩
  | 103 => ⟨S16384x256, .f32⟩
  | 104 => ⟨S262144x1, .f32⟩
  | 105 => ⟨S_, .i32⟩
  | 106 => ⟨S262144, .i32⟩
  | 107 => ⟨S262144, .i1⟩
  | 108 => ⟨S_, .i32⟩
  | 109 => ⟨S262144, .i32⟩
  | 110 => ⟨S262144, .i32⟩
  | 111 => ⟨S262144, .i32⟩
  | 112 => ⟨S262144x1, .i32⟩
  | 113 => ⟨S262144x256, .f32⟩
  | 114 => ⟨S262144x256, .f32⟩
  | 115 => ⟨S262144x256, .f32⟩
  | 116 => ⟨S_, .i32⟩
  | 117 => ⟨S262144, .i32⟩
  | 118 => ⟨S262144, .i1⟩
  | 119 => ⟨S_, .i32⟩
  | 120 => ⟨S262144, .i32⟩
  | 121 => ⟨S262144, .i32⟩
  | 122 => ⟨S262144, .i32⟩
  | 123 => ⟨S262144x1, .i32⟩
  | 124 => ⟨S16384x256, .f32⟩
  | 125 => ⟨S16384x256, .f32⟩
  | 126 => ⟨S_, .f32⟩
  | 127 => ⟨S16384, .f32⟩
  | _ => ⟨S16384x256, .f32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x256, .f32⟩
  | 5 => ⟨S16384x256, .f32⟩
  | 6 => ⟨S16384x256, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S16384x256, .f32⟩
  | 14 => ⟨S16384x256, .f32⟩
  | 15 => ⟨S_, .f32⟩
  | 16 => ⟨S16384x1, .f32⟩
  | 17 => ⟨S16384x1, .f32⟩
  | 18 => ⟨S16384x1, .f32⟩
  | 19 => ⟨S16384x256, .f32⟩
  | 20 => ⟨S16384x256, .f32⟩
  | 21 => ⟨S1x256, .f32⟩
  | 22 => ⟨S16384x256, .f32⟩
  | 23 => ⟨S16384x256, .f32⟩
  | 24 => ⟨S1x256, .f32⟩
  | 25 => ⟨S16384x256, .f32⟩
  | 26 => ⟨S16384x256, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_1 : Ref sig .tc := ⟨.hbm, 52, rfl⟩
abbrev main_v31 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_cst_5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_cst_7 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_c_12 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_14 : Ref sig .tc := ⟨.hbm, 116, rfl⟩
abbrev main_v81 : Ref sig .tc := ⟨.hbm, 117, rfl⟩
abbrev main_v82 : Ref sig .tc := ⟨.hbm, 118, rfl⟩
abbrev main_c_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_20 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S1x256_S262144x256_0_1 : S1x256.BroadcastsInDim S262144x256 (![0, 1] : Fin 2 → Fin S262144x256.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S262144x256_S262144x768_d1 : Shape.Concatenates [S262144x256, S262144x256, S262144x256] S262144x768 1
  bcast_S_S262144x256 : S_.BroadcastsInDim S262144x256 (![] : Fin 0 → Fin S262144x256.rank)
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  bcast_S_S262144x8 : S_.BroadcastsInDim S262144x8 (![] : Fin 0 → Fin S262144x8.rank)
  reducesTo_S262144x8_S262144_d1 : S262144x8.ReducesTo [1] S262144
  h_S_ : 0 < S_.numel
  reducesTo_S262144_S_d0 : S262144.ReducesTo [0] S_
  bcast_S_S1 : S_.BroadcastsInDim S1 (![] : Fin 0 → Fin S1.rank)
  bcast_S1_S262144_0 : S1.BroadcastsInDim S262144 (![0] : Fin 1 → Fin S262144.rank)
  bcast_S_S16384x256 : S_.BroadcastsInDim S16384x256 (![] : Fin 0 → Fin S16384x256.rank)
  bcast_S262144x1_S262144x256_0_1 : S262144x1.BroadcastsInDim S262144x256 (![0, 1] : Fin 2 → Fin S262144x256.rank)
  reducesTo_S16384x256_S16384_d1 : S16384x256.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  dot_S16384x256_S256x256_S16384x256_1_0_0_1_n_n_wf : DotDims.WF S16384x256 S256x256 S16384x256 [1] [0] [0] [1] [] []
  dot_S262144x64_S64x256_S262144x256_1_0_0_1_n_n_wf : DotDims.WF S262144x64 S64x256 S262144x256 [1] [0] [0] [1] [] []
  gather_S16384x256_S262144x1_S262144x256_1_0_n_n_0_1_1256_wf : GatherDims.WF S16384x256 S262144x1 S262144x256 [1] [0] [] [0] [] 1 ![1, 256]
  dot_S262144x768_S768x256_S262144x256_1_0_0_1_n_n_wf : DotDims.WF S262144x768 S768x256 S262144x256 [1] [0] [0] [1] [] []
  dot_S262144x256_S256x8_S262144x8_1_0_0_1_n_n_wf : DotDims.WF S262144x256 S256x8 S262144x8 [1] [0] [0] [1] [] []
  scatter_S16384x256_S262144x1_S262144x256_1_0_0_1_wf : ScatterDims.WF S16384x256 S262144x1 S262144x256 [1] [0] [0] 1

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def dot_S262144x768_S768x256_S262144x256_1_0_0_1_n_n : DotDims S262144x768 S768x256 S262144x256 where
  lhsContracting := [1]
  rhsContracting := [0]
  lhsNonContracting := [0]
  rhsNonContracting := [1]
  lhsBatch := []
  rhsBatch := []
  wf := dot_S262144x768_S768x256_S262144x256_1_0_0_1_n_n_wf
def dot_S262144x256_S256x8_S262144x8_1_0_0_1_n_n : DotDims S262144x256 S256x8 S262144x8 where
  lhsContracting := [1]
  rhsContracting := [0]
  lhsNonContracting := [0]
  rhsNonContracting := [1]
  lhsBatch := []
  rhsBatch := []
  wf := dot_S262144x256_S256x8_S262144x8_1_0_0_1_n_n_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf

class Facts : Prop extends Facts₀ where

variable [Facts]
-- ==== Proof.K.R0.lean ====
/-
  Region 0 of the kernel program (the fused node projection): one grid point of the pipeline, for any float
  instance. Window 0 is a 2048-row block of the node features, windows 1 and 2 are the whole concatenated weight
  matrix and the whole concatenated bias row (the same block at every point), window 3 is the 2048-row block of
  the result. The body reads the three input blocks whole, and overwrites the output block whole with ONE value:
  the product of the feature block with the weights plus the bias row broadcast down the rows (`k0_pay1`).
  So after the body each input buffer still holds its block and the output buffer holds that value of the three
  input blocks (`out0_3`); this is the proof data of the pipeline (`dat0`) and its body obligation.
-/
import proofs.«408511_j55722905699140_1_alg».proof.Proof.Gen.Kernel.Launch
import proofs.«408511_j55722905699140_1_alg».proof.Proof.Gen.Kernel.Skeleton
import proofs.«408511_j55722905699140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or kept
    it from the point before (the block index did not move then): window 0, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- window 1, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 2048×1024 output buffer, the one rectangle the body stores through. -/
abbrev r0_out : Rect S2048x1024 := Rect.unit (s := S2048x1024) ![0, 0] S2048x1024.size inb_S2048x1024_S2048x1024_0_0

/-- The whole rectangles the body loads its three inputs through. -/
abbrev r0_in0 : Rect S2048x256 := Rect.unit (s := S2048x256) ![0, 0] S2048x256.size inb_S2048x256_S2048x256_0_0
abbrev r0_in1 : Rect S256x1024 := Rect.unit (s := S256x1024) ![0, 0] S256x1024.size inb_S256x1024_S256x1024_0_0
abbrev r0_in2 : Rect S1x1024 := Rect.unit (s := S1x1024) ![0, 0] S1x1024.size inb_S1x1024_S1x1024_0_0

/-- What the body leaves in the output buffer, from the three input blocks (each as loaded through its rectangle). -/
def out0_3 (x0 : Vec F S2048x256 .f32) (x1 : Vec F S256x1024 .f32) (x2 : Vec F S1x1024 .f32) : Vec F S2048x1024 .f32 :=
  View.canon [⟨r0_out, k0_pay1 (View.ld x0 r0_in0) (View.ld x1 r0_in1) (View.ld x2 r0_in2)⟩]

/-- The one store covers the buffer. -/
theorem cover0_3 (p0 : Vec F S2048x1024 .f32) (y : S2048x1024.Idx) :
    ∃ pc ∈ ([⟨r0_out, p0⟩] : List (View.Piece (Elt F) S2048x1024 .f32)), y ∈ pc.1.set :=
  View.cover_of_tiled [⟨r0_out, p0⟩] S2048x1024.size (by rfl) y

set_option maxHeartbeats 1000000 in
/-- The body on whole buffers: the inputs at known contents and the output at anything; it ends with the inputs
    as they were and the output at `out0_3` of the inputs. -/
theorem sound_kernel0 (c : Dev nD) (E : Set ℕ) (i : grid0.Coords)
    (arg1 : Memref sig .tc .vmem S2048x256 .f32) (harg1 : arg1.IsWhole) (arg2 : Memref sig .tc .vmem S256x1024 .f32) (harg2 : arg2.IsWhole)
    (arg3 : Memref sig .tc .vmem S1x1024 .f32) (harg3 : arg3.IsWhole) (arg4 : Memref sig .tc .vmem S2048x1024 .f32) (harg4 : arg4.IsWhole)
    (x0 : Vec F S2048x256 .f32) (x1 : Vec F S256x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 (F := F) _)

/-- The pipeline's proof data on core `c`: the arrays as the region finds them; after the body at point `t` each
    input buffer at its block and the output buffer at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of the kernel program (the edge projection): one grid point of the pipeline, for any float instance.
  Window 0 is a 4096-row block of the edge features, windows 1 and 2 are the whole weight matrix and the whole
  bias row (the same block at every point), window 3 is the 4096-row block of the result. The body reads the
  three input blocks whole, and overwrites the output block whole with ONE value: the product of the feature
  block with the weights plus the bias row broadcast down the rows (`k1_pay1`). So after the body each input
  buffer still holds its block and the output buffer holds that value of the three input blocks (`out1_3`);
  this is the proof data of the pipeline (`dat1`) and its body obligation.
-/
import proofs.«408511_j55722905699140_1_alg».proof.Proof.Gen.Kernel.Launch
import proofs.«408511_j55722905699140_1_alg».proof.Proof.Gen.Kernel.Skeleton
import proofs.«408511_j55722905699140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the pipeline fetched it there or kept
    it from the point before (the block index did not move then): window 0, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- window 1, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 4096×256 output buffer, the one rectangle the body stores through. -/
abbrev r1_out : Rect S4096x256 := Rect.unit (s := S4096x256) ![0, 0] S4096x256.size inb_S4096x256_S4096x256_0_0

/-- The whole rectangles the body loads its three inputs through. -/
abbrev r1_in0 : Rect S4096x64 := Rect.unit (s := S4096x64) ![0, 0] S4096x64.size inb_S4096x64_S4096x64_0_0
abbrev r1_in1 : Rect S64x256 := Rect.unit (s := S64x256) ![0, 0] S64x256.size inb_S64x256_S64x256_0_0
abbrev r1_in2 : Rect S1x256 := Rect.unit (s := S1x256) ![0, 0] S1x256.size inb_S1x256_S1x256_0_0

/-- What the body leaves in the output buffer, from the three input blocks (each as loaded through its rectangle). -/
def out1_3 (x0 : Vec F S4096x64 .f32) (x1 : Vec F S64x256 .f32) (x2 : Vec F S1x256 .f32) : Vec F S4096x256 .f32 :=
  View.canon [⟨r1_out, k1_pay1 (View.ld x0 r1_in0) (View.ld x1 r1_in1) (View.ld x2 r1_in2)⟩]

/-- The one store covers the buffer. -/
theorem cover1_3 (p0 : Vec F S4096x256 .f32) (y : S4096x256.Idx) :
    ∃ pc ∈ ([⟨r1_out, p0⟩] : List (View.Piece (Elt F) S4096x256 .f32)), y ∈ pc.1.set :=
  View.cover_of_tiled [⟨r1_out, p0⟩] S4096x256.size (by rfl) y

set_option maxHeartbeats 1000000 in
/-- The body on whole buffers: the inputs at known contents and the output at anything; it ends with the inputs
    as they were and the output at `out1_3` of the inputs. -/
theorem sound_kernel1 (c : Dev nD) (E : Set ℕ) (i : grid1.Coords)
    (arg1 : Memref sig .tc .vmem S4096x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__edge_proj_kernel i arg1 harg1 arg2 harg2 arg3 harg3 arg4 harg4) K := by
  simp only [cc1__edge_proj_kernel_eq_skeleton]; unfold cc1__edge_proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 (F := F) _)

/-- The pipeline's proof data on core `c`: the arrays as the region finds them; after the body at point `t` each
    input buffer at its block and the output buffer at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2 of the kernel program (the edge attention scores): one grid point of the pipeline, for any float
  instance. Windows 0, 1 and 2 are 4096-row blocks of the three edge-indexed feature arrays (source queries, target
  keys, edge features); windows 3, 4 and 5 are the three thirds of the first layer's weight matrix, window 6 its
  bias row, window 7 the second layer's weight matrix and window 8 its bias row (each the same whole block at every
  point); window 9 is the 4096-row block of the scores. The body reads the nine input blocks whole, reads the output
  block, and overwrites the output block whole with ONE value: the rectified second layer (k2_pay1) of the first
  layer's rectified sum of three products plus bias (k2_pay2) and of the second bias row (k2_pay3).
  So after the body each input buffer still holds its block and the output buffer holds that value of the nine
  input blocks (out2_9); this is the proof data of the pipeline (dat2) and its body obligation.
-/
import proofs.«408511_j55722905699140_1_alg».proof.Proof.Gen.Kernel.Launch
import proofs.«408511_j55722905699140_1_alg».proof.Proof.Gen.Kernel.Skeleton
import proofs.«408511_j55722905699140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether the pipeline fetched it there or kept
    it from the point before (the block index did not move then): window 0, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- window 1, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- window 2, -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- window 3, -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- window 4, -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- window 5, -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- window 6, -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- window 7, -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- window 8. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The whole 4096×8 output buffer, the one rectangle the body stores through. -/
abbrev r2_out : Rect S4096x8 := Rect.unit (s := S4096x8) ![0, 0] S4096x8.size inb_S4096x8_S4096x8_0_0

/-- The whole rectangles the body loads its nine inputs through: an edge block, -/
abbrev r2_edge : Rect S4096x256 := Rect.unit (s := S4096x256) ![0, 0] S4096x256.size inb_S4096x256_S4096x256_0_0
/-- a third of the first weight matrix, -/
abbrev r2_w1 : Rect S256x256 := Rect.unit (s := S256x256) ![0, 0] S256x256.size inb_S256x256_S256x256_0_0
/-- the first bias row, -/
abbrev r2_b1 : Rect S1x256 := Rect.unit (s := S1x256) ![0, 0] S1x256.size inb_S1x256_S1x256_0_0
/-- the second weight matrix, -/
abbrev r2_w2 : Rect S256x8 := Rect.unit (s := S256x8) ![0, 0] S256x8.size inb_S256x8_S256x8_0_0
/-- the second bias row. -/
abbrev r2_b2 : Rect S1x8 := Rect.unit (s := S1x8) ![0, 0] S1x8.size inb_S1x8_S1x8_0_0

/-- What the body leaves in the output buffer, from the nine input blocks (each as loaded through its rectangle). -/
def out2_9 (x0 x1 x2 : Vec F S4096x256 .bf16) (x3 x4 x5 : Vec F S256x256 .f32) (x6 : Vec F S1x256 .f32)
    (x7 : Vec F S256x8 .f32) (x8 : Vec F S1x8 .f32) : Vec F S4096x8 .f32 :=
  View.canon [⟨r2_out, k2_pay1
    (k2_pay2 (View.ld x0 r2_edge) (View.ld x1 r2_edge) (View.ld x2 r2_edge) (View.ld x3 r2_w1) (View.ld x4 r2_w1) (View.ld x5 r2_w1)
      (View.ld x6 r2_b1) (View.ld x7 r2_w2))
    (k2_pay3 (View.ld x8 r2_b2))⟩]

/-- The one store covers the buffer. -/
theorem cover2_9 (p0 : Vec F S4096x8 .f32) (y : S4096x8.Idx) :
    ∃ pc ∈ ([⟨r2_out, p0⟩] : List (View.Piece (Elt F) S4096x8 .f32)), y ∈ pc.1.set :=
  View.cover_of_tiled [⟨r2_out, p0⟩] S4096x8.size (by rfl) y

set_option maxHeartbeats 1000000 in
/-- The body on whole buffers: the inputs at known contents and the output at anything; it ends with the inputs
    as they were and the output at out2_9 of the inputs. -/
theorem sound_kernel2 (c : Dev nD) (E : Set ℕ) (i : grid2.Coords)
    (arg1 : Memref sig .tc .vmem S4096x256 .bf16) (harg1 : arg1.IsWhole) (arg2 : Memref sig .tc .vmem S4096x256 .bf16) (harg2 : arg2.IsWhole)
    (arg3 : Memref sig .tc .vmem S4096x256 .bf16) (harg3 : arg3.IsWhole) (arg4 : Memref sig .tc .vmem S256x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S1x256 .f32) (harg7 : arg7.IsWhole) (arg8 : Memref sig .tc .vmem S256x8 .f32) (harg8 : arg8.IsWhole)
    (arg9 : Memref sig .tc .vmem S1x8 .f32) (harg9 : arg9.IsWhole) (arg10 : Memref sig .tc .vmem S4096x8 .f32) (harg10 : arg10.IsWhole)
    (x0 x1 x2 : Vec F S4096x256 .bf16) (x3 x4 x5 : Vec F S256x256 .f32) (x6 : Vec F S1x256 .f32)
    (x7 : Vec F S256x8 .f32) (x8 : Vec F S1x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E
          (cc2__attn_mlp_kernel i arg1 harg1 arg2 harg2 arg3 harg3 arg4 harg4 arg5 harg5 arg6 harg6 arg7 harg7 arg8 harg8 arg9 harg9 arg10 harg10) K := by
  simp only [cc2__attn_mlp_kernel_eq_skeleton]; unfold cc2__attn_mlp_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_9 (F := F) _)

/-- The pipeline's proof data on core c: the arrays as the region finds them; after the body at point t each
    input buffer at its block and the output buffer at out2_9 of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t)
        (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t)
      (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _
    (iblk2 V c 0 t) (iblk2 V c 1 t) (iblk2 V c 2 t) (iblk2 V c 3 t) (iblk2 V c 4 t) (iblk2 V c 5 t)
    (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/-
  Region 3 of the kernel program (the residual sum and its row-wise normalisation): one grid point of the pipeline,
  for any float instance. Windows 0 and 1 are 2048-row blocks of the two summands (the node features and the
  aggregated messages), windows 2 and 3 are the whole gain row and the whole shift row (the same block at every
  point), window 4 is the 2048-row block of the result. The body reads the four input blocks whole, and overwrites
  the output block whole with ONE value: the sum of the two summand blocks, each row with its mean taken off and
  scaled by the reciprocal square root of its mean squared deviation plus epsilon, times the gain row and plus the
  shift row, both broadcast down the rows (`k3_pay1`). So after the body each input buffer still holds its block and
  the output buffer holds that value of the four input blocks (`out3_4`); this is the proof data of the pipeline
  (`dat3`) and its body obligation.
-/
import proofs.«408511_j55722905699140_1_alg».proof.Proof.Gen.Kernel.Launch
import proofs.«408511_j55722905699140_1_alg».proof.Proof.Gen.Kernel.Skeleton
import proofs.«408511_j55722905699140_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, whether the pipeline fetched it there or kept
    it from the point before (the block index did not move then): window 0, -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- window 1, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- window 2, -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- window 3. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole 2048×256 output buffer, the one rectangle the body stores through. -/
abbrev r3_out : Rect S2048x256 := Rect.unit (s := S2048x256) ![0, 0] S2048x256.size inb_S2048x256_S2048x256_0_0

/-- The whole rectangles the body loads its four inputs through. -/
abbrev r3_in0 : Rect S2048x256 := Rect.unit (s := S2048x256) ![0, 0] S2048x256.size inb_S2048x256_S2048x256_0_0
abbrev r3_in1 : Rect S2048x256 := Rect.unit (s := S2048x256) ![0, 0] S2048x256.size inb_S2048x256_S2048x256_0_0
abbrev r3_in2 : Rect S1x256 := Rect.unit (s := S1x256) ![0, 0] S1x256.size inb_S1x256_S1x256_0_0
abbrev r3_in3 : Rect S1x256 := Rect.unit (s := S1x256) ![0, 0] S1x256.size inb_S1x256_S1x256_0_0

/-- What the body leaves in the output buffer, from the four input blocks (each as loaded through its rectangle). -/
def out3_4 (x0 x1 : Vec F S2048x256 .f32) (x2 x3 : Vec F S1x256 .f32) : Vec F S2048x256 .f32 :=
  View.canon [⟨r3_out, k3_pay1 (View.ld x0 r3_in0) (View.ld x1 r3_in1) (View.ld x2 r3_in2) (View.ld x3 r3_in3)⟩]

/-- The one store covers the buffer. -/
theorem cover3_4 (p0 : Vec F S2048x256 .f32) (y : S2048x256.Idx) :
    ∃ pc ∈ ([⟨r3_out, p0⟩] : List (View.Piece (Elt F) S2048x256 .f32)), y ∈ pc.1.set :=
  View.cover_of_tiled [⟨r3_out, p0⟩] S2048x256.size (by rfl) y

set_option maxHeartbeats 1000000 in
/-- The body on whole buffers: the inputs at known contents and the output at anything; it ends with the inputs
    as they were and the output at `out3_4` of the inputs. -/
theorem sound_kernel3 (c : Dev nD) (E : Set ℕ) (i : grid3.Coords)
    (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S2048x256 .f32) (harg5 : arg5.IsWhole)
    (x0 x1 : Vec F S2048x256 .f32) (x2 x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__ln_kernel i arg1 harg1 arg2 harg2 arg3 harg3 arg4 harg4 arg5 harg5) K := by
  simp only [cc3__ln_kernel_eq_skeleton]; unfold cc3__ln_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_4 (F := F) _)

/-- The pipeline's proof data on core `c`: the arrays as the region finds them; after the body at point `t` each
    input buffer at its block and the output buffer at `out3_4` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole run of the kernel program, for any float instance: @main is fourteen items — host stretches around four
  pipelines. Between two items every unscoped buffer holds a known content: after a host stretch, the stretch's
  operations applied to what it found (`StableHlo.after`); after a pipeline, the same contents with the pipeline's
  output array replaced by the fold of the write-backs of its grid points (`Dat.arrAt … N`). `U1 … U14` are these
  contents in order. Each pipeline is a segment of the run: it takes its arrays out of the unscoped buffers at the
  contents before it, runs its grid (the one-point halves of the four region modules), and puts the arrays back at
  the contents after it. The generated conditional frame then gives: every execution ends, nothing faults, and the
  argument arrays end as launched.
-/
import proofs.«408511_j55722905699140_1_alg».proof.Proof.K.R0
import proofs.«408511_j55722905699140_1_alg».proof.Proof.K.R1
import proofs.«408511_j55722905699140_1_alg».proof.Proof.K.R2
import proofs.«408511_j55722905699140_1_alg».proof.Proof.K.R3
import proofs.«408511_j55722905699140_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core-indexed valuation read at the TensorCore's references: the contents a pipeline's proof data take. -/
abbrev atTc (W : Dev nD → Valuation τ sig (Elt F)) : (c : Dev nD) → (b : Ref sig .tc) → Buf (Elt F) ((c : Thread nD τ).loc b) :=
  fun c b => W c b

/-! ## The buffers' contents between items -/

def U1 (c : Dev nD) : Valuation τ sig (Elt F) := StableHlo.after hostOps0 (V0 m c)
def U2 (c : Dev nD) : Valuation τ sig (Elt F) := Function.update (U1 m c) main_v3 ((dat0 (atTc (U1 m)) c).arrAt 3 cfg0.N)
def U3 (c : Dev nD) : Valuation τ sig (Elt F) := StableHlo.after hostOps1 (U2 m c)
def U4 (c : Dev nD) : Valuation τ sig (Elt F) := Function.update (U3 m c) main_v9 ((dat1 (atTc (U3 m)) c).arrAt 3 cfg1.N)
def U5 (c : Dev nD) : Valuation τ sig (Elt F) := StableHlo.after hostOps2 (U4 m c)
def U6 (c : Dev nD) : Valuation τ sig (Elt F) := StableHlo.after hostOps2_1 (U5 m c)
def U7 (c : Dev nD) : Valuation τ sig (Elt F) := StableHlo.after hostOps2_2 (U6 m c)
def U8 (c : Dev nD) : Valuation τ sig (Elt F) := StableHlo.after hostOps2_3 (U7 m c)
def U9 (c : Dev nD) : Valuation τ sig (Elt F) := StableHlo.after hostOps2_4 (U8 m c)
def U10 (c : Dev nD) : Valuation τ sig (Elt F) := Function.update (U9 m c) main_v24 ((dat2 (atTc (U9 m)) c).arrAt 9 cfg2.N)
def U11 (c : Dev nD) : Valuation τ sig (Elt F) := StableHlo.after hostOps3 (U10 m c)
def U12 (c : Dev nD) : Valuation τ sig (Elt F) := StableHlo.after hostOps3_1 (U11 m c)
def U13 (c : Dev nD) : Valuation τ sig (Elt F) := StableHlo.after hostOps3_2 (U12 m c)
def U14 (c : Dev nD) : Valuation τ sig (Elt F) := Function.update (U13 m c) main_v52 ((dat3 (atTc (U13 m)) c).arrAt 4 cfg3.N)

/-- What the pipelines leave, as the generated conditional frame reads it: the contents after item J − 1. -/
def outs : Outs (F := F) := fun J r c => match J with
  | 2 => U2 m c r
  | 4 => U4 m c r
  | 10 => U10 m c r
  | 14 => U14 m c r
  | _ => U1 m c r

/-! The generated frame's contents are these. -/

theorem V1_eq (c : Dev nD) : V1 m c = U1 m c := rfl
theorem V2_eq (c : Dev nD) : V2 m (outs m) c = U2 m c := by
  show Function.update (V1 m c) main_v3 (U2 m c main_v3) = U2 m c
  unfold U2; rw [Function.update_self]; rfl
theorem V3_eq (c : Dev nD) : V3 m (outs m) c = U3 m c := by
  show StableHlo.after hostOps1 (V2 m (outs m) c) = _; rw [V2_eq]; rfl
theorem V4_eq (c : Dev nD) : V4 m (outs m) c = U4 m c := by
  show Function.update (V3 m (outs m) c) main_v9 (U4 m c main_v9) = U4 m c
  rw [V3_eq]; unfold U4; rw [Function.update_self]
theorem V5_eq (c : Dev nD) : V5 m (outs m) c = U5 m c := by
  show StableHlo.after hostOps2 (V4 m (outs m) c) = _; rw [V4_eq]; rfl
theorem V6_eq (c : Dev nD) : V6 m (outs m) c = U6 m c := by
  show StableHlo.after hostOps2_1 (V5 m (outs m) c) = _; rw [V5_eq]; rfl
theorem V7_eq (c : Dev nD) : V7 m (outs m) c = U7 m c := by
  show StableHlo.after hostOps2_2 (V6 m (outs m) c) = _; rw [V6_eq]; rfl
theorem V8_eq (c : Dev nD) : V8 m (outs m) c = U8 m c := by
  show StableHlo.after hostOps2_3 (V7 m (outs m) c) = _; rw [V7_eq]; rfl
theorem V9_eq (c : Dev nD) : V9 m (outs m) c = U9 m c := by
  show StableHlo.after hostOps2_4 (V8 m (outs m) c) = _; rw [V8_eq]; rfl
theorem V10_eq (c : Dev nD) : V10 m (outs m) c = U10 m c := by
  show Function.update (V9 m (outs m) c) main_v24 (U10 m c main_v24) = U10 m c
  rw [V9_eq]; unfold U10; rw [Function.update_self]
theorem V11_eq (c : Dev nD) : V11 m (outs m) c = U11 m c := by
  show StableHlo.after hostOps3 (V10 m (outs m) c) = _; rw [V10_eq]; rfl
theorem V12_eq (c : Dev nD) : V12 m (outs m) c = U12 m c := by
  show StableHlo.after hostOps3_1 (V11 m (outs m) c) = _; rw [V11_eq]; rfl
theorem V13_eq (c : Dev nD) : V13 m (outs m) c = U13 m c := by
  show StableHlo.after hostOps3_2 (V12 m (outs m) c) = _; rw [V12_eq]; rfl
theorem V14_eq (c : Dev nD) : V14 m (outs m) c = U14 m c := by
  show Function.update (V13 m (outs m) c) main_v52 (U14 m c main_v52) = U14 m c
  rw [V13_eq]; unfold U14; rw [Function.update_self]

/-! ## Reading the contents between items

An item that does not write a buffer leaves it as it was, and a pipeline's output buffer holds the fold of its
write-backs. -/

theorem U1_of (c : Dev nD) (r : Ref sig .tc) (h : r ∉ hostOps0_W) : U1 m c r = V0 m c r := V1_of m c r h
theorem U2_of (c : Dev nD) (r : Ref sig .tc) (h : r ∉ ([main_v3] : List (Ref sig .tc))) : U2 m c r = U1 m c r := by
  rw [← V2_eq, ← V1_eq]; exact V2_of m (outs m) c r h
theorem U3_of (c : Dev nD) (r : Ref sig .tc) (h : r ∉ hostOps1_W) : U3 m c r = U2 m c r := by
  rw [← V3_eq, ← V2_eq]; exact V3_of m (outs m) c r h
theorem U4_of (c : Dev nD) (r : Ref sig .tc) (h : r ∉ ([main_v9] : List (Ref sig .tc))) : U4 m c r = U3 m c r := by
  rw [← V4_eq, ← V3_eq]; exact V4_of m (outs m) c r h
theorem U5_of (c : Dev nD) (r : Ref sig .tc) (h : r ∉ hostOps2_W) : U5 m c r = U4 m c r := by
  rw [← V5_eq, ← V4_eq]; exact V5_of m (outs m) c r h
theorem U6_of (c : Dev nD) (r : Ref sig .tc) (h : r ∉ hostOps2_1_W) : U6 m c r = U5 m c r := by
  rw [← V6_eq, ← V5_eq]; exact V6_of m (outs m) c r h
theorem U7_of (c : Dev nD) (r : Ref sig .tc) (h : r ∉ hostOps2_2_W) : U7 m c r = U6 m c r := by
  rw [← V7_eq, ← V6_eq]; exact V7_of m (outs m) c r h
theorem U8_of (c : Dev nD) (r : Ref sig .tc) (h : r ∉ hostOps2_3_W) : U8 m c r = U7 m c r := by
  rw [← V8_eq, ← V7_eq]; exact V8_of m (outs m) c r h
theorem U9_of (c : Dev nD) (r : Ref sig .tc) (h : r ∉ hostOps2_4_W) : U9 m c r = U8 m c r := by
  rw [← V9_eq, ← V8_eq]; exact V9_of m (outs m) c r h
theorem U10_of (c : Dev nD) (r : Ref sig .tc) (h : r ∉ ([main_v24] : List (Ref sig .tc))) : U10 m c r = U9 m c r := by
  rw [← V10_eq, ← V9_eq]; exact V10_of m (outs m) c r h
theorem U11_of (c : Dev nD) (r : Ref sig .tc) (h : r ∉ hostOps3_W) : U11 m c r = U10 m c r := by
  rw [← V11_eq, ← V10_eq]; exact V11_of m (outs m) c r h
theorem U12_of (c : Dev nD) (r : Ref sig .tc) (h : r ∉ hostOps3_1_W) : U12 m c r = U11 m c r := by
  rw [← V12_eq, ← V11_eq]; exact V12_of m (outs m) c r h
theorem U13_of (c : Dev nD) (r : Ref sig .tc) (h : r ∉ hostOps3_2_W) : U13 m c r = U12 m c r := by
  rw [← V13_eq, ← V12_eq]; exact V13_of m (outs m) c r h
theorem U14_of (c : Dev nD) (r : Ref sig .tc) (h : r ∉ ([main_v52] : List (Ref sig .tc))) : U14 m c r = U13 m c r := by
  rw [← V14_eq, ← V13_eq]; exact V14_of m (outs m) c r h
theorem U1_def (c : Dev nD) : U1 m c = StableHlo.after hostOps0 (V0 m c) := rfl
theorem U3_def (c : Dev nD) : U3 m c = StableHlo.after hostOps1 (U2 m c) := rfl
theorem U5_def (c : Dev nD) : U5 m c = StableHlo.after hostOps2 (U4 m c) := rfl
theorem U6_def (c : Dev nD) : U6 m c = StableHlo.after hostOps2_1 (U5 m c) := rfl
theorem U7_def (c : Dev nD) : U7 m c = StableHlo.after hostOps2_2 (U6 m c) := rfl
theorem U8_def (c : Dev nD) : U8 m c = StableHlo.after hostOps2_3 (U7 m c) := rfl
theorem U9_def (c : Dev nD) : U9 m c = StableHlo.after hostOps2_4 (U8 m c) := rfl
theorem U11_def (c : Dev nD) : U11 m c = StableHlo.after hostOps3 (U10 m c) := rfl
theorem U12_def (c : Dev nD) : U12 m c = StableHlo.after hostOps3_1 (U11 m c) := rfl
theorem U13_def (c : Dev nD) : U13 m c = StableHlo.after hostOps3_2 (U12 m c) := rfl
theorem U2_out (c : Dev nD) : U2 m c main_v3 = (dat0 (atTc (U1 m)) c).arrAt 3 cfg0.N := by
  unfold U2; exact Function.update_self _ _ _
theorem U4_out (c : Dev nD) : U4 m c main_v9 = (dat1 (atTc (U3 m)) c).arrAt 3 cfg1.N := by
  unfold U4; exact Function.update_self _ _ _
theorem U10_out (c : Dev nD) : U10 m c main_v24 = (dat2 (atTc (U9 m)) c).arrAt 9 cfg2.N := by
  unfold U10; exact Function.update_self _ _ _
theorem U14_out (c : Dev nD) : U14 m c main_v52 = (dat3 (atTc (U13 m)) c).arrAt 4 cfg3.N := by
  unfold U14; exact Function.update_self _ _ _

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U9 m)) c
  | ⟨3, _⟩ => fun c => dat3 (atTc (U13 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

set_option maxHeartbeats 1000000 in
/-- At region 0's exit each of its arrays holds what the pipeline leaves — an input window's array as entered, the
    output window's the fold of its write-backs —, -/
theorem hF0 (c : Dev nD) (w : Fin cfg0.W) : (dat0 (atTc (U1 m)) c).arrAt w cfg0.N = atTc (U2 m) c (Pipeline.arrRef spec0 w) := by
  match w with
  | ⟨0, _⟩ => exact (((dat0 (atTc (U1 m)) c).arrAt_in 0 rfl _).trans (A_eq0 (atTc (U1 m)) c 0)).trans (U2_of m c _ (by decide)).symm
  | ⟨1, _⟩ => exact (((dat0 (atTc (U1 m)) c).arrAt_in 1 rfl _).trans (A_eq0 (atTc (U1 m)) c 1)).trans (U2_of m c _ (by decide)).symm
  | ⟨2, _⟩ => exact (((dat0 (atTc (U1 m)) c).arrAt_in 2 rfl _).trans (A_eq0 (atTc (U1 m)) c 2)).trans (U2_of m c _ (by decide)).symm
  | ⟨3, _⟩ => exact (U2_out m c).symm
/-- and every other buffer what it held at entry. -/
theorem hrest0 (c : Dev nD) : ∀ b, b ∉ Finset.univ.image (Pipeline.arrRef spec0) → atTc (U2 m) c b = atTc (U1 m) c b :=
  fun b hb => U2_of m c b fun hmem => hb (Finset.mem_image.mpr ⟨3, Finset.mem_univ _, (List.mem_singleton.mp hmem).symm⟩)

set_option backward.isDefEq.respectTransparency.types false in
/-- REGION 0 over the thread state "every unscoped buffer at the boundary's contents, the generator register at some
    state, nothing owed": its arrays split out of the unscoped buffers at entry and put back at the exit contents. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
/-- At region 1's exit each of its arrays holds what the pipeline leaves — an input window's array as entered, the
    output window's the fold of its write-backs —, -/
theorem hF1 (c : Dev nD) (w : Fin cfg1.W) : (dat1 (atTc (U3 m)) c).arrAt w cfg1.N = atTc (U4 m) c (Pipeline.arrRef spec1 w) := by
  match w with
  | ⟨0, _⟩ => exact (((dat1 (atTc (U3 m)) c).arrAt_in 0 rfl _).trans (A_eq1 (atTc (U3 m)) c 0)).trans (U4_of m c _ (by decide)).symm
  | ⟨1, _⟩ => exact (((dat1 (atTc (U3 m)) c).arrAt_in 1 rfl _).trans (A_eq1 (atTc (U3 m)) c 1)).trans (U4_of m c _ (by decide)).symm
  | ⟨2, _⟩ => exact (((dat1 (atTc (U3 m)) c).arrAt_in 2 rfl _).trans (A_eq1 (atTc (U3 m)) c 2)).trans (U4_of m c _ (by decide)).symm
  | ⟨3, _⟩ => exact (U4_out m c).symm
/-- and every other buffer what it held at entry. -/
theorem hrest1 (c : Dev nD) : ∀ b, b ∉ Finset.univ.image (Pipeline.arrRef spec1) → atTc (U4 m) c b = atTc (U3 m) c b :=
  fun b hb => U4_of m c b fun hmem => hb (Finset.mem_image.mpr ⟨3, Finset.mem_univ _, (List.mem_singleton.mp hmem).symm⟩)

set_option backward.isDefEq.respectTransparency.types false in
/-- REGION 1 over the thread state "every unscoped buffer at the boundary's contents, the generator register at some
    state, nothing owed": its arrays split out of the unscoped buffers at entry and put back at the exit contents. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
/-- At region 2's exit each of its arrays holds what the pipeline leaves — an input window's array as entered, the
    output window's the fold of its write-backs —, -/
theorem hF2 (c : Dev nD) (w : Fin cfg2.W) : (dat2 (atTc (U9 m)) c).arrAt w cfg2.N = atTc (U10 m) c (Pipeline.arrRef spec2 w) := by
  match w with
  | ⟨0, _⟩ => exact (((dat2 (atTc (U9 m)) c).arrAt_in 0 rfl _).trans (A_eq2 (atTc (U9 m)) c 0)).trans (U10_of m c _ (by decide)).symm
  | ⟨1, _⟩ => exact (((dat2 (atTc (U9 m)) c).arrAt_in 1 rfl _).trans (A_eq2 (atTc (U9 m)) c 1)).trans (U10_of m c _ (by decide)).symm
  | ⟨2, _⟩ => exact (((dat2 (atTc (U9 m)) c).arrAt_in 2 rfl _).trans (A_eq2 (atTc (U9 m)) c 2)).trans (U10_of m c _ (by decide)).symm
  | ⟨3, _⟩ => exact (((dat2 (atTc (U9 m)) c).arrAt_in 3 rfl _).trans (A_eq2 (atTc (U9 m)) c 3)).trans (U10_of m c _ (by decide)).symm
  | ⟨4, _⟩ => exact (((dat2 (atTc (U9 m)) c).arrAt_in 4 rfl _).trans (A_eq2 (atTc (U9 m)) c 4)).trans (U10_of m c _ (by decide)).symm
  | ⟨5, _⟩ => exact (((dat2 (atTc (U9 m)) c).arrAt_in 5 rfl _).trans (A_eq2 (atTc (U9 m)) c 5)).trans (U10_of m c _ (by decide)).symm
  | ⟨6, _⟩ => exact (((dat2 (atTc (U9 m)) c).arrAt_in 6 rfl _).trans (A_eq2 (atTc (U9 m)) c 6)).trans (U10_of m c _ (by decide)).symm
  | ⟨7, _⟩ => exact (((dat2 (atTc (U9 m)) c).arrAt_in 7 rfl _).trans (A_eq2 (atTc (U9 m)) c 7)).trans (U10_of m c _ (by decide)).symm
  | ⟨8, _⟩ => exact (((dat2 (atTc (U9 m)) c).arrAt_in 8 rfl _).trans (A_eq2 (atTc (U9 m)) c 8)).trans (U10_of m c _ (by decide)).symm
  | ⟨9, _⟩ => exact (U10_out m c).symm
/-- and every other buffer what it held at entry. -/
theorem hrest2 (c : Dev nD) : ∀ b, b ∉ Finset.univ.image (Pipeline.arrRef spec2) → atTc (U10 m) c b = atTc (U9 m) c b :=
  fun b hb => U10_of m c b fun hmem => hb (Finset.mem_image.mpr ⟨9, Finset.mem_univ _, (List.mem_singleton.mp hmem).symm⟩)

set_option backward.isDefEq.respectTransparency.types false in
/-- REGION 2 over the thread state "every unscoped buffer at the boundary's contents, the generator register at some
    state, nothing owed": its arrays split out of the unscoped buffers at entry and put back at the exit contents. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U9 m)) c).loose
  hwaits := Pipeline.hwaits_of_owed_zero _ _ _ _ L lv 2 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec2 c (atTc (U9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U9 m) c) (atTc (U10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
/-- At region 3's exit each of its arrays holds what the pipeline leaves — an input window's array as entered, the
    output window's the fold of its write-backs —, -/
theorem hF3 (c : Dev nD) (w : Fin cfg3.W) : (dat3 (atTc (U13 m)) c).arrAt w cfg3.N = atTc (U14 m) c (Pipeline.arrRef spec3 w) := by
  match w with
  | ⟨0, _⟩ => exact (((dat3 (atTc (U13 m)) c).arrAt_in 0 rfl _).trans (A_eq3 (atTc (U13 m)) c 0)).trans (U14_of m c _ (by decide)).symm
  | ⟨1, _⟩ => exact (((dat3 (atTc (U13 m)) c).arrAt_in 1 rfl _).trans (A_eq3 (atTc (U13 m)) c 1)).trans (U14_of m c _ (by decide)).symm
  | ⟨2, _⟩ => exact (((dat3 (atTc (U13 m)) c).arrAt_in 2 rfl _).trans (A_eq3 (atTc (U13 m)) c 2)).trans (U14_of m c _ (by decide)).symm
  | ⟨3, _⟩ => exact (((dat3 (atTc (U13 m)) c).arrAt_in 3 rfl _).trans (A_eq3 (atTc (U13 m)) c 3)).trans (U14_of m c _ (by decide)).symm
  | ⟨4, _⟩ => exact (U14_out m c).symm
/-- and every other buffer what it held at entry. -/
theorem hrest3 (c : Dev nD) : ∀ b, b ∉ Finset.univ.image (Pipeline.arrRef spec3) → atTc (U14 m) c b = atTc (U13 m) c b :=
  fun b hb => U14_of m c b fun hmem => hb (Finset.mem_image.mpr ⟨4, Finset.mem_univ _, (List.mem_singleton.mp hmem).symm⟩)

set_option backward.isDefEq.respectTransparency.types false in
/-- REGION 3 over the thread state "every unscoped buffer at the boundary's contents, the generator register at some
    state, nothing owed": its arrays split out of the unscoped buffers at entry and put back at the exit contents. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U13 m)) c).loose
  hwaits := Pipeline.hwaits_of_owed_zero _ _ _ _ L lv 3 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec3 c (atTc (U13 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U13 m) c) (atTc (U14 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost state: the pipeline library's element at every pipeline's staging cells, nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first thread state's rest: the generator register, nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : R (F := F) c ⊢ (iprop(∃ W, owes (c : Thread nD τ) (0 : CellTallies nD τ sig Unit) W) : sProp 𝕄) := by
  iintro ⟨-, HO⟩; iexact HO

/-- THE FRAME of the kernel program at any float instance: from any memory with zero counters every weakly fair
    execution of @main terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_cond m emb₁ () 𝒱₀ L lv (fun _ _ => rfl) ρ (outs m) (pdats m) 0 (fun _ => iprop(emp))
    (initOf (Pipeline.cells cfgs cellOf_inj) (Pipeline.launchToks cfgs cellOf_inj)) (hu₀ (F := F))
    (fun _ c => R c) (hE0 ρ) hE4
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V9_eq]; exact .rfl) (fun c => by rw [V10_eq]; exact .rfl)
    (reg3 m) (fun c => by rw [V13_eq]; exact .rfl) (fun c => by rw [V14_eq]; exact .rfl)

end Cert.Kernel.Hand

end
-- ==== Proof.KI.R0.lean ====
/-
  Region 0 of the kernel program (the fused node projection): one grid point of the pipeline, for any float
  instance. Window 0 is a 2048-row block of the node features, windows 1 and 2 are the whole concatenated weight
  matrix and the whole concatenated bias row (the same block at every point), window 3 is the 2048-row block of
  the result. The body reads the three input blocks whole, and overwrites the output block whole with ONE value:
  the product of the feature block with the weights plus the bias row broadcast down the rows (`k0_pay1`).
  So after the body each input buffer still holds its block and the output buffer holds that value of the three
  input blocks (`out0_3`); this is the proof data of the pipeline (`dat0`) and its body obligation.
-/
import proofs.«408511_j55722905699140_1_alg».proof.Proof.Gen.KernelIdeal.Launch
import proofs.«408511_j55722905699140_1_alg».proof.Proof.Gen.KernelIdeal.Skeleton
import proofs.«408511_j55722905699140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or kept
    it from the point before (the block index did not move then): window 0, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- window 1, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 2048×1024 output buffer, the one rectangle the body stores through. -/
abbrev r0_out : Rect S2048x1024 := Rect.unit (s := S2048x1024) ![0, 0] S2048x1024.size inb_S2048x1024_S2048x1024_0_0

/-- The whole rectangles the body loads its three inputs through. -/
abbrev r0_in0 : Rect S2048x256 := Rect.unit (s := S2048x256) ![0, 0] S2048x256.size inb_S2048x256_S2048x256_0_0
abbrev r0_in1 : Rect S256x1024 := Rect.unit (s := S256x1024) ![0, 0] S256x1024.size inb_S256x1024_S256x1024_0_0
abbrev r0_in2 : Rect S1x1024 := Rect.unit (s := S1x1024) ![0, 0] S1x1024.size inb_S1x1024_S1x1024_0_0

/-- What the body leaves in the output buffer, from the three input blocks (each as loaded through its rectangle). -/
def out0_3 (x0 : Vec F S2048x256 .f32) (x1 : Vec F S256x1024 .f32) (x2 : Vec F S1x1024 .f32) : Vec F S2048x1024 .f32 :=
  View.canon [⟨r0_out, k0_pay1 (View.ld x0 r0_in0) (View.ld x1 r0_in1) (View.ld x2 r0_in2)⟩]

/-- The one store covers the buffer. -/
theorem cover0_3 (p0 : Vec F S2048x1024 .f32) (y : S2048x1024.Idx) :
    ∃ pc ∈ ([⟨r0_out, p0⟩] : List (View.Piece (Elt F) S2048x1024 .f32)), y ∈ pc.1.set :=
  View.cover_of_tiled [⟨r0_out, p0⟩] S2048x1024.size (by rfl) y

set_option maxHeartbeats 1000000 in
/-- The body on whole buffers: the inputs at known contents and the output at anything; it ends with the inputs
    as they were and the output at `out0_3` of the inputs. -/
theorem sound_kernel0 (c : Dev nD) (E : Set ℕ) (i : grid0.Coords)
    (arg1 : Memref sig .tc .vmem S2048x256 .f32) (harg1 : arg1.IsWhole) (arg2 : Memref sig .tc .vmem S256x1024 .f32) (harg2 : arg2.IsWhole)
    (arg3 : Memref sig .tc .vmem S1x1024 .f32) (harg3 : arg3.IsWhole) (arg4 : Memref sig .tc .vmem S2048x1024 .f32) (harg4 : arg4.IsWhole)
    (x0 : Vec F S2048x256 .f32) (x1 : Vec F S256x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 (F := F) _)

/-- The pipeline's proof data on core `c`: the arrays as the region finds them; after the body at point `t` each
    input buffer at its block and the output buffer at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the kernel program (the edge projection): one grid point of the pipeline, for any float instance.
  Window 0 is a 4096-row block of the edge features, windows 1 and 2 are the whole weight matrix and the whole
  bias row (the same block at every point), window 3 is the 4096-row block of the result. The body reads the
  three input blocks whole, and overwrites the output block whole with ONE value: the product of the feature
  block with the weights plus the bias row broadcast down the rows (`k1_pay1`). So after the body each input
  buffer still holds its block and the output buffer holds that value of the three input blocks (`out1_3`);
  this is the proof data of the pipeline (`dat1`) and its body obligation.
-/
import proofs.«408511_j55722905699140_1_alg».proof.Proof.Gen.KernelIdeal.Launch
import proofs.«408511_j55722905699140_1_alg».proof.Proof.Gen.KernelIdeal.Skeleton
import proofs.«408511_j55722905699140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the pipeline fetched it there or kept
    it from the point before (the block index did not move then): window 0, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- window 1, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 4096×256 output buffer, the one rectangle the body stores through. -/
abbrev r1_out : Rect S4096x256 := Rect.unit (s := S4096x256) ![0, 0] S4096x256.size inb_S4096x256_S4096x256_0_0

/-- The whole rectangles the body loads its three inputs through. -/
abbrev r1_in0 : Rect S4096x64 := Rect.unit (s := S4096x64) ![0, 0] S4096x64.size inb_S4096x64_S4096x64_0_0
abbrev r1_in1 : Rect S64x256 := Rect.unit (s := S64x256) ![0, 0] S64x256.size inb_S64x256_S64x256_0_0
abbrev r1_in2 : Rect S1x256 := Rect.unit (s := S1x256) ![0, 0] S1x256.size inb_S1x256_S1x256_0_0

/-- What the body leaves in the output buffer, from the three input blocks (each as loaded through its rectangle). -/
def out1_3 (x0 : Vec F S4096x64 .f32) (x1 : Vec F S64x256 .f32) (x2 : Vec F S1x256 .f32) : Vec F S4096x256 .f32 :=
  View.canon [⟨r1_out, k1_pay1 (View.ld x0 r1_in0) (View.ld x1 r1_in1) (View.ld x2 r1_in2)⟩]

/-- The one store covers the buffer. -/
theorem cover1_3 (p0 : Vec F S4096x256 .f32) (y : S4096x256.Idx) :
    ∃ pc ∈ ([⟨r1_out, p0⟩] : List (View.Piece (Elt F) S4096x256 .f32)), y ∈ pc.1.set :=
  View.cover_of_tiled [⟨r1_out, p0⟩] S4096x256.size (by rfl) y

set_option maxHeartbeats 1000000 in
/-- The body on whole buffers: the inputs at known contents and the output at anything; it ends with the inputs
    as they were and the output at `out1_3` of the inputs. -/
theorem sound_kernel1 (c : Dev nD) (E : Set ℕ) (i : grid1.Coords)
    (arg1 : Memref sig .tc .vmem S4096x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__edge_proj_kernel i arg1 harg1 arg2 harg2 arg3 harg3 arg4 harg4) K := by
  simp only [cc1__edge_proj_kernel_eq_skeleton]; unfold cc1__edge_proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 (F := F) _)

/-- The pipeline's proof data on core `c`: the arrays as the region finds them; after the body at point `t` each
    input buffer at its block and the output buffer at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2 of the kernel program (the edge attention scores): one grid point of the pipeline, for any float
  instance. Windows 0, 1 and 2 are 4096-row blocks of the three edge-indexed feature arrays (source queries, target
  keys, edge features); windows 3, 4 and 5 are the three thirds of the first layer's weight matrix, window 6 its
  bias row, window 7 the second layer's weight matrix and window 8 its bias row (each the same whole block at every
  point); window 9 is the 4096-row block of the scores. The body reads the nine input blocks whole, reads the output
  block, and overwrites the output block whole with ONE value: the rectified second layer (k2_pay1) of the first
  layer's rectified sum of three products plus bias (k2_pay2) and of the second bias row (k2_pay3).
  So after the body each input buffer still holds its block and the output buffer holds that value of the nine
  input blocks (out2_9); this is the proof data of the pipeline (dat2) and its body obligation.
-/
import proofs.«408511_j55722905699140_1_alg».proof.Proof.Gen.KernelIdeal.Launch
import proofs.«408511_j55722905699140_1_alg».proof.Proof.Gen.KernelIdeal.Skeleton
import proofs.«408511_j55722905699140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window w's block at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether the pipeline fetched it there or kept
    it from the point before (the block index did not move then): window 0, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- window 1, -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- window 2, -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- window 3, -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- window 4, -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- window 5, -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- window 6, -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- window 7, -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- window 8. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The whole 4096×8 output buffer, the one rectangle the body stores through. -/
abbrev r2_out : Rect S4096x8 := Rect.unit (s := S4096x8) ![0, 0] S4096x8.size inb_S4096x8_S4096x8_0_0

/-- The whole rectangles the body loads its nine inputs through: an edge block, -/
abbrev r2_edge : Rect S4096x256 := Rect.unit (s := S4096x256) ![0, 0] S4096x256.size inb_S4096x256_S4096x256_0_0
/-- a third of the first weight matrix, -/
abbrev r2_w1 : Rect S256x256 := Rect.unit (s := S256x256) ![0, 0] S256x256.size inb_S256x256_S256x256_0_0
/-- the first bias row, -/
abbrev r2_b1 : Rect S1x256 := Rect.unit (s := S1x256) ![0, 0] S1x256.size inb_S1x256_S1x256_0_0
/-- the second weight matrix, -/
abbrev r2_w2 : Rect S256x8 := Rect.unit (s := S256x8) ![0, 0] S256x8.size inb_S256x8_S256x8_0_0
/-- the second bias row. -/
abbrev r2_b2 : Rect S1x8 := Rect.unit (s := S1x8) ![0, 0] S1x8.size inb_S1x8_S1x8_0_0

/-- What the body leaves in the output buffer, from the nine input blocks (each as loaded through its rectangle). -/
def out2_9 (x0 x1 x2 : Vec F S4096x256 .bf16) (x3 x4 x5 : Vec F S256x256 .f32) (x6 : Vec F S1x256 .f32)
    (x7 : Vec F S256x8 .f32) (x8 : Vec F S1x8 .f32) : Vec F S4096x8 .f32 :=
  View.canon [⟨r2_out, k2_pay1
    (k2_pay2 (View.ld x0 r2_edge) (View.ld x1 r2_edge) (View.ld x2 r2_edge) (View.ld x3 r2_w1) (View.ld x4 r2_w1) (View.ld x5 r2_w1)
      (View.ld x6 r2_b1) (View.ld x7 r2_w2))
    (k2_pay3 (View.ld x8 r2_b2))⟩]

/-- The one store covers the buffer. -/
theorem cover2_9 (p0 : Vec F S4096x8 .f32) (y : S4096x8.Idx) :
    ∃ pc ∈ ([⟨r2_out, p0⟩] : List (View.Piece (Elt F) S4096x8 .f32)), y ∈ pc.1.set :=
  View.cover_of_tiled [⟨r2_out, p0⟩] S4096x8.size (by rfl) y

set_option maxHeartbeats 1000000 in
/-- The body on whole buffers: the inputs at known contents and the output at anything; it ends with the inputs
    as they were and the output at out2_9 of the inputs. -/
theorem sound_kernel2 (c : Dev nD) (E : Set ℕ) (i : grid2.Coords)
    (arg1 : Memref sig .tc .vmem S4096x256 .bf16) (harg1 : arg1.IsWhole) (arg2 : Memref sig .tc .vmem S4096x256 .bf16) (harg2 : arg2.IsWhole)
    (arg3 : Memref sig .tc .vmem S4096x256 .bf16) (harg3 : arg3.IsWhole) (arg4 : Memref sig .tc .vmem S256x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S1x256 .f32) (harg7 : arg7.IsWhole) (arg8 : Memref sig .tc .vmem S256x8 .f32) (harg8 : arg8.IsWhole)
    (arg9 : Memref sig .tc .vmem S1x8 .f32) (harg9 : arg9.IsWhole) (arg10 : Memref sig .tc .vmem S4096x8 .f32) (harg10 : arg10.IsWhole)
    (x0 x1 x2 : Vec F S4096x256 .bf16) (x3 x4 x5 : Vec F S256x256 .f32) (x6 : Vec F S1x256 .f32)
    (x7 : Vec F S256x8 .f32) (x8 : Vec F S1x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E
          (cc2__attn_mlp_kernel i arg1 harg1 arg2 harg2 arg3 harg3 arg4 harg4 arg5 harg5 arg6 harg6 arg7 harg7 arg8 harg8 arg9 harg9 arg10 harg10) K := by
  simp only [cc2__attn_mlp_kernel_eq_skeleton]; unfold cc2__attn_mlp_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_9 (F := F) _)

/-- The pipeline's proof data on core c: the arrays as the region finds them; after the body at point t each
    input buffer at its block and the output buffer at out2_9 of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t)
        (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t)
      (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _
    (iblk2 V c 0 t) (iblk2 V c 1 t) (iblk2 V c 2 t) (iblk2 V c 3 t) (iblk2 V c 4 t) (iblk2 V c 5 t)
    (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/-
  Region 3 of the kernel program (the residual sum and its row-wise normalisation): one grid point of the pipeline,
  for any float instance. Windows 0 and 1 are 2048-row blocks of the two summands (the node features and the
  aggregated messages), windows 2 and 3 are the whole gain row and the whole shift row (the same block at every
  point), window 4 is the 2048-row block of the result. The body reads the four input blocks whole, and overwrites
  the output block whole with ONE value: the sum of the two summand blocks, each row with its mean taken off and
  scaled by the reciprocal square root of its mean squared deviation plus epsilon, times the gain row and plus the
  shift row, both broadcast down the rows (`k3_pay1`). So after the body each input buffer still holds its block and
  the output buffer holds that value of the four input blocks (`out3_4`); this is the proof data of the pipeline
  (`dat3`) and its body obligation.
-/
import proofs.«408511_j55722905699140_1_alg».proof.Proof.Gen.KernelIdeal.Launch
import proofs.«408511_j55722905699140_1_alg».proof.Proof.Gen.KernelIdeal.Skeleton
import proofs.«408511_j55722905699140_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, whether the pipeline fetched it there or kept
    it from the point before (the block index did not move then): window 0, -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- window 1, -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- window 2, -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- window 3. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole 2048×256 output buffer, the one rectangle the body stores through. -/
abbrev r3_out : Rect S2048x256 := Rect.unit (s := S2048x256) ![0, 0] S2048x256.size inb_S2048x256_S2048x256_0_0

/-- The whole rectangles the body loads its four inputs through. -/
abbrev r3_in0 : Rect S2048x256 := Rect.unit (s := S2048x256) ![0, 0] S2048x256.size inb_S2048x256_S2048x256_0_0
abbrev r3_in1 : Rect S2048x256 := Rect.unit (s := S2048x256) ![0, 0] S2048x256.size inb_S2048x256_S2048x256_0_0
abbrev r3_in2 : Rect S1x256 := Rect.unit (s := S1x256) ![0, 0] S1x256.size inb_S1x256_S1x256_0_0
abbrev r3_in3 : Rect S1x256 := Rect.unit (s := S1x256) ![0, 0] S1x256.size inb_S1x256_S1x256_0_0

/-- What the body leaves in the output buffer, from the four input blocks (each as loaded through its rectangle). -/
def out3_4 (x0 x1 : Vec F S2048x256 .f32) (x2 x3 : Vec F S1x256 .f32) : Vec F S2048x256 .f32 :=
  View.canon [⟨r3_out, k3_pay1 (View.ld x0 r3_in0) (View.ld x1 r3_in1) (View.ld x2 r3_in2) (View.ld x3 r3_in3)⟩]

/-- The one store covers the buffer. -/
theorem cover3_4 (p0 : Vec F S2048x256 .f32) (y : S2048x256.Idx) :
    ∃ pc ∈ ([⟨r3_out, p0⟩] : List (View.Piece (Elt F) S2048x256 .f32)), y ∈ pc.1.set :=
  View.cover_of_tiled [⟨r3_out, p0⟩] S2048x256.size (by rfl) y

set_option maxHeartbeats 1000000 in
/-- The body on whole buffers: the inputs at known contents and the output at anything; it ends with the inputs
    as they were and the output at `out3_4` of the inputs. -/
theorem sound_kernel3 (c : Dev nD) (E : Set ℕ) (i : grid3.Coords)
    (arg1 : Memref sig .tc .vmem S2048x256 .f32) (harg1 : arg1.IsWhole) (arg2 : Memref sig .tc .vmem S2048x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S2048x256 .f32) (harg5 : arg5.IsWhole)
    (x0 x1 : Vec F S2048x256 .f32) (x2 x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__ln_kernel i arg1 harg1 arg2 harg2 arg3 harg3 arg4 harg4 arg5 harg5) K := by
  simp only [cc3__ln_kernel_eq_skeleton]; unfold cc3__ln_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_4 (F := F) _)

/-- The pipeline's proof data on core `c`: the arrays as the region finds them; after the body at point `t` each
    input buffer at its block and the output buffer at `out3_4` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole run of the kernel program, for any float instance: @main is fourteen items — host stretches around four
  pipelines. Between two items every unscoped buffer holds a known content: after a host stretch, the stretch's
  operations applied to what it found (`StableHlo.after`); after a pipeline, the same contents with the pipeline's
  output array replaced by the fold of the write-backs of its grid points (`Dat.arrAt … N`). `U1 … U14` are these
  contents in order. Each pipeline is a segment of the run: it takes its arrays out of the unscoped buffers at the
  contents before it, runs its grid (the one-point halves of the four region modules), and puts the arrays back at
  the contents after it. The generated conditional frame then gives: every execution ends, nothing faults, and the
  argument arrays end as launched.
-/
import proofs.«408511_j55722905699140_1_alg».proof.Proof.KI.R0
import proofs.«408511_j55722905699140_1_alg».proof.Proof.KI.R1
import proofs.«408511_j55722905699140_1_alg».proof.Proof.KI.R2
import proofs.«408511_j55722905699140_1_alg».proof.Proof.KI.R3
import proofs.«408511_j55722905699140_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core-indexed valuation read at the TensorCore's references: the contents a pipeline's proof data take. -/
abbrev atTc (W : Dev nD → Valuation τ sig (Elt F)) : (c : Dev nD) → (b : Ref sig .tc) → Buf (Elt F) ((c : Thread nD τ).loc b) :=
  fun c b => W c b

/-! ## The buffers' contents between items -/

def U1 (c : Dev nD) : Valuation τ sig (Elt F) := StableHlo.after hostOps0 (V0 m c)
def U2 (c : Dev nD) : Valuation τ sig (Elt F) := Function.update (U1 m c) main_v3 ((dat0 (atTc (U1 m)) c).arrAt 3 cfg0.N)
def U3 (c : Dev nD) : Valuation τ sig (Elt F) := StableHlo.after hostOps1 (U2 m c)
def U4 (c : Dev nD) : Valuation τ sig (Elt F) := Function.update (U3 m c) main_v9 ((dat1 (atTc (U3 m)) c).arrAt 3 cfg1.N)
def U5 (c : Dev nD) : Valuation τ sig (Elt F) := StableHlo.after hostOps2 (U4 m c)
def U6 (c : Dev nD) : Valuation τ sig (Elt F) := StableHlo.after hostOps2_1 (U5 m c)
def U7 (c : Dev nD) : Valuation τ sig (Elt F) := StableHlo.after hostOps2_2 (U6 m c)
def U8 (c : Dev nD) : Valuation τ sig (Elt F) := StableHlo.after hostOps2_3 (U7 m c)
def U9 (c : Dev nD) : Valuation τ sig (Elt F) := StableHlo.after hostOps2_4 (U8 m c)
def U10 (c : Dev nD) : Valuation τ sig (Elt F) := Function.update (U9 m c) main_v24 ((dat2 (atTc (U9 m)) c).arrAt 9 cfg2.N)
def U11 (c : Dev nD) : Valuation τ sig (Elt F) := StableHlo.after hostOps3 (U10 m c)
def U12 (c : Dev nD) : Valuation τ sig (Elt F) := StableHlo.after hostOps3_1 (U11 m c)
def U13 (c : Dev nD) : Valuation τ sig (Elt F) := StableHlo.after hostOps3_2 (U12 m c)
def U14 (c : Dev nD) : Valuation τ sig (Elt F) := Function.update (U13 m c) main_v52 ((dat3 (atTc (U13 m)) c).arrAt 4 cfg3.N)

/-- What the pipelines leave, as the generated conditional frame reads it: the contents after item J − 1. -/
def outs : Outs (F := F) := fun J r c => match J with
  | 2 => U2 m c r
  | 4 => U4 m c r
  | 10 => U10 m c r
  | 14 => U14 m c r
  | _ => U1 m c r

/-! The generated frame's contents are these. -/

theorem V1_eq (c : Dev nD) : V1 m c = U1 m c := rfl
theorem V2_eq (c : Dev nD) : V2 m (outs m) c = U2 m c := by
  show Function.update (V1 m c) main_v3 (U2 m c main_v3) = U2 m c
  unfold U2; rw [Function.update_self]; rfl
theorem V3_eq (c : Dev nD) : V3 m (outs m) c = U3 m c := by
  show StableHlo.after hostOps1 (V2 m (outs m) c) = _; rw [V2_eq]; rfl
theorem V4_eq (c : Dev nD) : V4 m (outs m) c = U4 m c := by
  show Function.update (V3 m (outs m) c) main_v9 (U4 m c main_v9) = U4 m c
  rw [V3_eq]; unfold U4; rw [Function.update_self]
theorem V5_eq (c : Dev nD) : V5 m (outs m) c = U5 m c := by
  show StableHlo.after hostOps2 (V4 m (outs m) c) = _; rw [V4_eq]; rfl
theorem V6_eq (c : Dev nD) : V6 m (outs m) c = U6 m c := by
  show StableHlo.after hostOps2_1 (V5 m (outs m) c) = _; rw [V5_eq]; rfl
theorem V7_eq (c : Dev nD) : V7 m (outs m) c = U7 m c := by
  show StableHlo.after hostOps2_2 (V6 m (outs m) c) = _; rw [V6_eq]; rfl
theorem V8_eq (c : Dev nD) : V8 m (outs m) c = U8 m c := by
  show StableHlo.after hostOps2_3 (V7 m (outs m) c) = _; rw [V7_eq]; rfl
theorem V9_eq (c : Dev nD) : V9 m (outs m) c = U9 m c := by
  show StableHlo.after hostOps2_4 (V8 m (outs m) c) = _; rw [V8_eq]; rfl
theorem V10_eq (c : Dev nD) : V10 m (outs m) c = U10 m c := by
  show Function.update (V9 m (outs m) c) main_v24 (U10 m c main_v24) = U10 m c
  rw [V9_eq]; unfold U10; rw [Function.update_self]
theorem V11_eq (c : Dev nD) : V11 m (outs m) c = U11 m c := by
  show StableHlo.after hostOps3 (V10 m (outs m) c) = _; rw [V10_eq]; rfl
theorem V12_eq (c : Dev nD) : V12 m (outs m) c = U12 m c := by
  show StableHlo.after hostOps3_1 (V11 m (outs m) c) = _; rw [V11_eq]; rfl
theorem V13_eq (c : Dev nD) : V13 m (outs m) c = U13 m c := by
  show StableHlo.after hostOps3_2 (V12 m (outs m) c) = _; rw [V12_eq]; rfl
theorem V14_eq (c : Dev nD) : V14 m (outs m) c = U14 m c := by
  show Function.update (V13 m (outs m) c) main_v52 (U14 m c main_v52) = U14 m c
  rw [V13_eq]; unfold U14; rw [Function.update_self]

/-! ## Reading the contents between items

An item that does not write a buffer leaves it as it was, and a pipeline's output buffer holds the fold of its
write-backs. -/

theorem U1_of (c : Dev nD) (r : Ref sig .tc) (h : r ∉ hostOps0_W) : U1 m c r = V0 m c r := V1_of m c r h
theorem U2_of (c : Dev nD) (r : Ref sig .tc) (h : r ∉ ([main_v3] : List (Ref sig .tc))) : U2 m c r = U1 m c r := by
  rw [← V2_eq, ← V1_eq]; exact V2_of m (outs m) c r h
theorem U3_of (c : Dev nD) (r : Ref sig .tc) (h : r ∉ hostOps1_W) : U3 m c r = U2 m c r := by
  rw [← V3_eq, ← V2_eq]; exact V3_of m (outs m) c r h
theorem U4_of (c : Dev nD) (r : Ref sig .tc) (h : r ∉ ([main_v9] : List (Ref sig .tc))) : U4 m c r = U3 m c r := by
  rw [← V4_eq, ← V3_eq]; exact V4_of m (outs m) c r h
theorem U5_of (c : Dev nD) (r : Ref sig .tc) (h : r ∉ hostOps2_W) : U5 m c r = U4 m c r := by
  rw [← V5_eq, ← V4_eq]; exact V5_of m (outs m) c r h
theorem U6_of (c : Dev nD) (r : Ref sig .tc) (h : r ∉ hostOps2_1_W) : U6 m c r = U5 m c r := by
  rw [← V6_eq, ← V5_eq]; exact V6_of m (outs m) c r h
theorem U7_of (c : Dev nD) (r : Ref sig .tc) (h : r ∉ hostOps2_2_W) : U7 m c r = U6 m c r := by
  rw [← V7_eq, ← V6_eq]; exact V7_of m (outs m) c r h
theorem U8_of (c : Dev nD) (r : Ref sig .tc) (h : r ∉ hostOps2_3_W) : U8 m c r = U7 m c r := by
  rw [← V8_eq, ← V7_eq]; exact V8_of m (outs m) c r h
theorem U9_of (c : Dev nD) (r : Ref sig .tc) (h : r ∉ hostOps2_4_W) : U9 m c r = U8 m c r := by
  rw [← V9_eq, ← V8_eq]; exact V9_of m (outs m) c r h
theorem U10_of (c : Dev nD) (r : Ref sig .tc) (h : r ∉ ([main_v24] : List (Ref sig .tc))) : U10 m c r = U9 m c r := by
  rw [← V10_eq, ← V9_eq]; exact V10_of m (outs m) c r h
theorem U11_of (c : Dev nD) (r : Ref sig .tc) (h : r ∉ hostOps3_W) : U11 m c r = U10 m c r := by
  rw [← V11_eq, ← V10_eq]; exact V11_of m (outs m) c r h
theorem U12_of (c : Dev nD) (r : Ref sig .tc) (h : r ∉ hostOps3_1_W) : U12 m c r = U11 m c r := by
  rw [← V12_eq, ← V11_eq]; exact V12_of m (outs m) c r h
theorem U13_of (c : Dev nD) (r : Ref sig .tc) (h : r ∉ hostOps3_2_W) : U13 m c r = U12 m c r := by
  rw [← V13_eq, ← V12_eq]; exact V13_of m (outs m) c r h
theorem U14_of (c : Dev nD) (r : Ref sig .tc) (h : r ∉ ([main_v52] : List (Ref sig .tc))) : U14 m c r = U13 m c r := by
  rw [← V14_eq, ← V13_eq]; exact V14_of m (outs m) c r h
theorem U1_def (c : Dev nD) : U1 m c = StableHlo.after hostOps0 (V0 m c) := rfl
theorem U3_def (c : Dev nD) : U3 m c = StableHlo.after hostOps1 (U2 m c) := rfl
theorem U5_def (c : Dev nD) : U5 m c = StableHlo.after hostOps2 (U4 m c) := rfl
theorem U6_def (c : Dev nD) : U6 m c = StableHlo.after hostOps2_1 (U5 m c) := rfl
theorem U7_def (c : Dev nD) : U7 m c = StableHlo.after hostOps2_2 (U6 m c) := rfl
theorem U8_def (c : Dev nD) : U8 m c = StableHlo.after hostOps2_3 (U7 m c) := rfl
theorem U9_def (c : Dev nD) : U9 m c = StableHlo.after hostOps2_4 (U8 m c) := rfl
theorem U11_def (c : Dev nD) : U11 m c = StableHlo.after hostOps3 (U10 m c) := rfl
theorem U12_def (c : Dev nD) : U12 m c = StableHlo.after hostOps3_1 (U11 m c) := rfl
theorem U13_def (c : Dev nD) : U13 m c = StableHlo.after hostOps3_2 (U12 m c) := rfl
theorem U2_out (c : Dev nD) : U2 m c main_v3 = (dat0 (atTc (U1 m)) c).arrAt 3 cfg0.N := by
  unfold U2; exact Function.update_self _ _ _
theorem U4_out (c : Dev nD) : U4 m c main_v9 = (dat1 (atTc (U3 m)) c).arrAt 3 cfg1.N := by
  unfold U4; exact Function.update_self _ _ _
theorem U10_out (c : Dev nD) : U10 m c main_v24 = (dat2 (atTc (U9 m)) c).arrAt 9 cfg2.N := by
  unfold U10; exact Function.update_self _ _ _
theorem U14_out (c : Dev nD) : U14 m c main_v52 = (dat3 (atTc (U13 m)) c).arrAt 4 cfg3.N := by
  unfold U14; exact Function.update_self _ _ _

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U9 m)) c
  | ⟨3, _⟩ => fun c => dat3 (atTc (U13 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

set_option maxHeartbeats 1000000 in
/-- At region 0's exit each of its arrays holds what the pipeline leaves — an input window's array as entered, the
    output window's the fold of its write-backs —, -/
theorem hF0 (c : Dev nD) (w : Fin cfg0.W) : (dat0 (atTc (U1 m)) c).arrAt w cfg0.N = atTc (U2 m) c (Pipeline.arrRef spec0 w) := by
  match w with
  | ⟨0, _⟩ => exact (((dat0 (atTc (U1 m)) c).arrAt_in 0 rfl _).trans (A_eq0 (atTc (U1 m)) c 0)).trans (U2_of m c _ (by decide)).symm
  | ⟨1, _⟩ => exact (((dat0 (atTc (U1 m)) c).arrAt_in 1 rfl _).trans (A_eq0 (atTc (U1 m)) c 1)).trans (U2_of m c _ (by decide)).symm
  | ⟨2, _⟩ => exact (((dat0 (atTc (U1 m)) c).arrAt_in 2 rfl _).trans (A_eq0 (atTc (U1 m)) c 2)).trans (U2_of m c _ (by decide)).symm
  | ⟨3, _⟩ => exact (U2_out m c).symm
/-- and every other buffer what it held at entry. -/
theorem hrest0 (c : Dev nD) : ∀ b, b ∉ Finset.univ.image (Pipeline.arrRef spec0) → atTc (U2 m) c b = atTc (U1 m) c b :=
  fun b hb => U2_of m c b fun hmem => hb (Finset.mem_image.mpr ⟨3, Finset.mem_univ _, (List.mem_singleton.mp hmem).symm⟩)

set_option backward.isDefEq.respectTransparency.types false in
/-- REGION 0 over the thread state "every unscoped buffer at the boundary's contents, the generator register at some
    state, nothing owed": its arrays split out of the unscoped buffers at entry and put back at the exit contents. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
/-- At region 1's exit each of its arrays holds what the pipeline leaves — an input window's array as entered, the
    output window's the fold of its write-backs —, -/
theorem hF1 (c : Dev nD) (w : Fin cfg1.W) : (dat1 (atTc (U3 m)) c).arrAt w cfg1.N = atTc (U4 m) c (Pipeline.arrRef spec1 w) := by
  match w with
  | ⟨0, _⟩ => exact (((dat1 (atTc (U3 m)) c).arrAt_in 0 rfl _).trans (A_eq1 (atTc (U3 m)) c 0)).trans (U4_of m c _ (by decide)).symm
  | ⟨1, _⟩ => exact (((dat1 (atTc (U3 m)) c).arrAt_in 1 rfl _).trans (A_eq1 (atTc (U3 m)) c 1)).trans (U4_of m c _ (by decide)).symm
  | ⟨2, _⟩ => exact (((dat1 (atTc (U3 m)) c).arrAt_in 2 rfl _).trans (A_eq1 (atTc (U3 m)) c 2)).trans (U4_of m c _ (by decide)).symm
  | ⟨3, _⟩ => exact (U4_out m c).symm
/-- and every other buffer what it held at entry. -/
theorem hrest1 (c : Dev nD) : ∀ b, b ∉ Finset.univ.image (Pipeline.arrRef spec1) → atTc (U4 m) c b = atTc (U3 m) c b :=
  fun b hb => U4_of m c b fun hmem => hb (Finset.mem_image.mpr ⟨3, Finset.mem_univ _, (List.mem_singleton.mp hmem).symm⟩)

set_option backward.isDefEq.respectTransparency.types false in
/-- REGION 1 over the thread state "every unscoped buffer at the boundary's contents, the generator register at some
    state, nothing owed": its arrays split out of the unscoped buffers at entry and put back at the exit contents. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
/-- At region 2's exit each of its arrays holds what the pipeline leaves — an input window's array as entered, the
    output window's the fold of its write-backs —, -/
theorem hF2 (c : Dev nD) (w : Fin cfg2.W) : (dat2 (atTc (U9 m)) c).arrAt w cfg2.N = atTc (U10 m) c (Pipeline.arrRef spec2 w) := by
  match w with
  | ⟨0, _⟩ => exact (((dat2 (atTc (U9 m)) c).arrAt_in 0 rfl _).trans (A_eq2 (atTc (U9 m)) c 0)).trans (U10_of m c _ (by decide)).symm
  | ⟨1, _⟩ => exact (((dat2 (atTc (U9 m)) c).arrAt_in 1 rfl _).trans (A_eq2 (atTc (U9 m)) c 1)).trans (U10_of m c _ (by decide)).symm
  | ⟨2, _⟩ => exact (((dat2 (atTc (U9 m)) c).arrAt_in 2 rfl _).trans (A_eq2 (atTc (U9 m)) c 2)).trans (U10_of m c _ (by decide)).symm
  | ⟨3, _⟩ => exact (((dat2 (atTc (U9 m)) c).arrAt_in 3 rfl _).trans (A_eq2 (atTc (U9 m)) c 3)).trans (U10_of m c _ (by decide)).symm
  | ⟨4, _⟩ => exact (((dat2 (atTc (U9 m)) c).arrAt_in 4 rfl _).trans (A_eq2 (atTc (U9 m)) c 4)).trans (U10_of m c _ (by decide)).symm
  | ⟨5, _⟩ => exact (((dat2 (atTc (U9 m)) c).arrAt_in 5 rfl _).trans (A_eq2 (atTc (U9 m)) c 5)).trans (U10_of m c _ (by decide)).symm
  | ⟨6, _⟩ => exact (((dat2 (atTc (U9 m)) c).arrAt_in 6 rfl _).trans (A_eq2 (atTc (U9 m)) c 6)).trans (U10_of m c _ (by decide)).symm
  | ⟨7, _⟩ => exact (((dat2 (atTc (U9 m)) c).arrAt_in 7 rfl _).trans (A_eq2 (atTc (U9 m)) c 7)).trans (U10_of m c _ (by decide)).symm
  | ⟨8, _⟩ => exact (((dat2 (atTc (U9 m)) c).arrAt_in 8 rfl _).trans (A_eq2 (atTc (U9 m)) c 8)).trans (U10_of m c _ (by decide)).symm
  | ⟨9, _⟩ => exact (U10_out m c).symm
/-- and every other buffer what it held at entry. -/
theorem hrest2 (c : Dev nD) : ∀ b, b ∉ Finset.univ.image (Pipeline.arrRef spec2) → atTc (U10 m) c b = atTc (U9 m) c b :=
  fun b hb => U10_of m c b fun hmem => hb (Finset.mem_image.mpr ⟨9, Finset.mem_univ _, (List.mem_singleton.mp hmem).symm⟩)

set_option backward.isDefEq.respectTransparency.types false in
/-- REGION 2 over the thread state "every unscoped buffer at the boundary's contents, the generator register at some
    state, nothing owed": its arrays split out of the unscoped buffers at entry and put back at the exit contents. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U9 m)) c).loose
  hwaits := Pipeline.hwaits_of_owed_zero _ _ _ _ L lv 2 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec2 c (atTc (U9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U9 m) c) (atTc (U10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 1000000 in
/-- At region 3's exit each of its arrays holds what the pipeline leaves — an input window's array as entered, the
    output window's the fold of its write-backs —, -/
theorem hF3 (c : Dev nD) (w : Fin cfg3.W) : (dat3 (atTc (U13 m)) c).arrAt w cfg3.N = atTc (U14 m) c (Pipeline.arrRef spec3 w) := by
  match w with
  | ⟨0, _⟩ => exact (((dat3 (atTc (U13 m)) c).arrAt_in 0 rfl _).trans (A_eq3 (atTc (U13 m)) c 0)).trans (U14_of m c _ (by decide)).symm
  | ⟨1, _⟩ => exact (((dat3 (atTc (U13 m)) c).arrAt_in 1 rfl _).trans (A_eq3 (atTc (U13 m)) c 1)).trans (U14_of m c _ (by decide)).symm
  | ⟨2, _⟩ => exact (((dat3 (atTc (U13 m)) c).arrAt_in 2 rfl _).trans (A_eq3 (atTc (U13 m)) c 2)).trans (U14_of m c _ (by decide)).symm
  | ⟨3, _⟩ => exact (((dat3 (atTc (U13 m)) c).arrAt_in 3 rfl _).trans (A_eq3 (atTc (U13 m)) c 3)).trans (U14_of m c _ (by decide)).symm
  | ⟨4, _⟩ => exact (U14_out m c).symm
/-- and every other buffer what it held at entry. -/
theorem hrest3 (c : Dev nD) : ∀ b, b ∉ Finset.univ.image (Pipeline.arrRef spec3) → atTc (U14 m) c b = atTc (U13 m) c b :=
  fun b hb => U14_of m c b fun hmem => hb (Finset.mem_image.mpr ⟨4, Finset.mem_univ _, (List.mem_singleton.mp hmem).symm⟩)

set_option backward.isDefEq.respectTransparency.types false in
/-- REGION 3 over the thread state "every unscoped buffer at the boundary's contents, the generator register at some
    state, nothing owed": its arrays split out of the unscoped buffers at entry and put back at the exit contents. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U13 m)) c).loose
  hwaits := Pipeline.hwaits_of_owed_zero _ _ _ _ L lv 3 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec3 c (atTc (U13 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U13 m) c) (atTc (U14 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost state: the pipeline library's element at every pipeline's staging cells, nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first thread state's rest: the generator register, nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : R (F := F) c ⊢ (iprop(∃ W, owes (c : Thread nD τ) (0 : CellTallies nD τ sig Unit) W) : sProp 𝕄) := by
  iintro ⟨-, HO⟩; iexact HO

/-- THE FRAME of the kernel program at any float instance: from any memory with zero counters every weakly fair
    execution of @main terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_cond m emb₁ () 𝒱₀ L lv (fun _ _ => rfl) ρ (outs m) (pdats m) 0 (fun _ => iprop(emp))
    (initOf (Pipeline.cells cfgs cellOf_inj) (Pipeline.launchToks cfgs cellOf_inj)) (hu₀ (F := F))
    (fun _ c => R c) (hE0 ρ) hE4
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V9_eq]; exact .rfl) (fun c => by rw [V10_eq]; exact .rfl)
    (reg3 m) (fun c => by rw [V13_eq]; exact .rfl) (fun c => by rw [V14_eq]; exact .rfl)

end Cert.KernelIdeal.Hand

end
-- ==== Proof.KI.RunVal.lean ====
/-
  The run of the kernel program with its result: as the frame, and the result buffer ends at the contents after the
  last item (`U14`), which is the fourth pipeline's final array.
-/
import proofs.«408511_j55722905699140_1_alg».proof.Proof.KI.Run
import proofs.«408511_j55722905699140_1_alg».proof.Proof.KI.RunCond

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

/-- Every weakly fair execution of @main terminates, nothing faulting; the result buffer ends at `U14` and every
    argument array as launched. -/
theorem run_val (ρ : Dev nD → PrngReg) : θ_run defs (onTc (τ := τ) (main (F := F))) ⟨m, fun _ => 0, ρ⟩ (fun r => ∀ c : Dev nD,
      r.2.mem ((c.tc : Thread nD τ).loc main_v52) = U14 m c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (congrFun (V14_eq m c) main_v52), (h c).2⟩)
    (run_cond m emb₁ () 𝒱₀ L lv (fun _ _ => rfl) ρ (outs m) (pdats m) 0 (fun _ => iprop(emp))
      (initOf (Pipeline.cells cfgs cellOf_inj) (Pipeline.launchToks cfgs cellOf_inj)) (hu₀ (F := F))
      (fun _ c => R c) (hE0 ρ) hE4
      (reg0 m) (fun c => by rw [V1_eq]; exact .rfl) (fun c => by rw [V2_eq]; exact .rfl)
      (reg1 m) (fun c => by rw [V3_eq]; exact .rfl) (fun c => by rw [V4_eq]; exact .rfl)
      (reg2 m) (fun c => by rw [V9_eq]; exact .rfl) (fun c => by rw [V10_eq]; exact .rfl)
      (reg3 m) (fun c => by rw [V13_eq]; exact .rfl) (fun c => by rw [V14_eq]; exact .rfl))

end Cert.KernelIdeal.Hand

end
-- ==== Proof.KI.HostFns.lean ====
/-
  The host-side functions of the kernel program that sit between its four pipelines, as pure functions of
  whole arrays, for any float instance. They are the program's own operations, composed in its order:

  * `normIdx`: an index vector with negative entries wrapped (a negative `i` means row `i + 16384`), as a column;
  * `inRows`: row by row, whether the wrapped index lies in `0 … 16383`;
  * `gatherRows x n`: row `e` of the result is row `n[e]` of `x` (the gather's own clamping decides out-of-range rows);
  * `takeRows x idx`: the guarded gather — row `e` is row `idx[e]` of `x` where the wrapped index is in range, and a
    row of the float pattern 0x7FC00000 elsewhere;
  * `softWeights s`: the mean of each edge's eight scores, then the softmax of those means over all edges
    (shifted by their maximum);
  * `aggregate w vt src`: every edge `e` adds `w[e] ·` row `e` of `vt` into row `src[e]` (wrapped) of a zero array.
-/
import proofs.«408511_j55722905699140_1_alg».proof.Proof.Gen.KernelIdeal

noncomputable section

namespace Cert.KernelIdeal.Hand

open Cert.KernelIdeal Cert.KernelIdeal.Gen
open Idealize.ShloMosaic

variable {F : FTy → Type} [FloatOps F]

def normIdx (idx : IVec S262144 32) : IVec S262144x1 32 :=
  broadcastInDim S262144x1 ![0] bcast_S262144_S262144x1_0
    (select (cmpi .slt idx (broadcastInDim S262144 ![] bcast_S_S262144 (constantI S_ 32 0#32)))
      (addi idx (broadcastInDim S262144 ![] bcast_S_S262144 (constantI S_ 32 16384#32))) idx)

def inRows (n : IVec S262144x1 32) : IVec S262144 1 :=
  Host.reduce IntOp.andi
    (andi (cmpi .sge n (broadcastInDim S262144x1 ![] bcast_S_S262144x1 (constantI S_ 32 0#32)))
      (cmpi .sle n (broadcastInDim S262144x1 ![0, 1] bcast_S1x1_S262144x1_0_1
        (broadcastInDim S1x1 ![1] bcast_S1_S1x1_1 (constantI S1 32 16383#32)))))
    (constantI S_ 1 1#1) reducesTo_S262144x1_S262144_d1 h_S_

def gatherRows (x : FVec F S16384x256 .f32) (n : IVec S262144x1 32) : FVec F S262144x256 .f32 :=
  Host.gather gather_S16384x256_S262144x1_S262144x256_1_0_n_n_0_1_1256 x n

def takeRows (x : FVec F S16384x256 .f32) (idx : IVec S262144 32) : FVec F S262144x256 .f32 :=
  select (broadcastInDim S262144x256 ![0] bcast_S262144_S262144x256_0 (inRows (normIdx idx)))
    (gatherRows x (normIdx idx))
    (broadcastInDim S262144x256 ![] bcast_S_S262144x256 (constant S_ .f32 0x7FC00000#32))

/-- The mean of each edge's eight scores. -/
def headMean (s : FVec F S262144x8 .f32) : FVec F S262144 .f32 :=
  Host.divf (Host.reduceAdd s (constant S_ .f32 0x00000000#32) reducesTo_S262144x8_S262144_d1 h_S_)
    (broadcastInDim S262144 ![] bcast_S_S262144 (constant S_ .f32 0x41000000#32))

/-- The exponentials of the means shifted by their maximum. -/
def shiftedExp (a : FVec F S262144 .f32) : FVec F S262144 .f32 :=
  Host.exp (subf a (broadcastInDim S262144 ![0] bcast_S1_S262144_0 (broadcastInDim S1 ![] bcast_S_S1
    (maximumf (constant S_ .f32 0xFF800000#32)
      (Host.reduce FloatOps.maximumf a (constant S_ .f32 0xFF800000#32) reducesTo_S262144_S_d0 h_S_)))))

/-- A vector divided by its total. -/
def normalise (ex : FVec F S262144 .f32) : FVec F S262144 .f32 :=
  Host.divf ex (broadcastInDim S262144 ![0] bcast_S1_S262144_0 (broadcastInDim S1 ![] bcast_S_S1
    (Host.reduceAdd ex (constant S_ .f32 0x00000000#32) reducesTo_S262144_S_d0 h_S_)))

def softWeights (s : FVec F S262144x8 .f32) : FVec F S262144 .f32 :=
  normalise (shiftedExp (headMean s))

def aggregate (w : FVec F S262144 .f32) (vt : FVec F S262144x256 .f32) (src : IVec S262144 32) : FVec F S16384x256 .f32 :=
  Host.scatterAdd scatter_S16384x256_S262144x1_S262144x256_1_0_0_1
    (broadcastInDim S16384x256 ![] bcast_S_S16384x256 (constant S_ .f32 0x00000000#32))
    (normIdx src)
    (mulf (broadcastInDim S262144x256 ![0, 1] bcast_S262144x1_S262144x256_0_1
      (broadcastInDim S262144x1 ![0] bcast_S262144_S262144x1_0 w)) vt)

end Cert.KernelIdeal.Hand

end
-- ==== Proof.KI.Glue.lean ====
/-
  What the host stretches of the kernel program compute, buffer by buffer, for any float instance and from any
  buffer contents `W`: each buffer that is read later holds the stretch's own operations applied to `W` at the
  stretch's source buffers — a concatenation, a column or row block, a change of shape, a narrowing to bf16, the
  guarded gather `takeRows`, the softmax of the mean scores `softWeights`, the weighted scatter `aggregate` —, and
  every buffer a stretch does not write keeps what `W` had there.
-/
import proofs.«408511_j55722905699140_1_alg».proof.Proof.Gen.KernelIdeal.Regions
import proofs.«408511_j55722905699140_1_alg».proof.Proof.KI.HostFns
import Idealize.ShloMosaic.Lib.StableHlo.Run

set_option maxRecDepth 1232

noncomputable section

namespace Cert.KernelIdeal.Hand

open Cert.KernelIdeal Cert.KernelIdeal.Gen
open Idealize.ShloMosaic Idealize.ShloMosaic.TcCoe

variable {F : FTy → Type} [FloatOps F]

/-! ## What each stretch leaves in a buffer it does not write -/

/-- A buffer the stretch `hostOps0` does not write keeps its contents. -/
theorem keep0 (W : Valuation τ sig (Elt F)) (r : Ref sig .tc) (h : r ∉ Gen.hostOps0_W) :
    StableHlo.after hostOps0 W r = W r :=
  StableHlo.after_of_writes_sub hostOps0 _ Gen.hostOps0_writes h

/-- A buffer the stretch `hostOps1` does not write keeps its contents. -/
theorem keep1 (W : Valuation τ sig (Elt F)) (r : Ref sig .tc) (h : r ∉ Gen.hostOps1_W) :
    StableHlo.after hostOps1 W r = W r :=
  StableHlo.after_of_writes_sub hostOps1 _ Gen.hostOps1_writes h

/-- A buffer the stretch `hostOps2` does not write keeps its contents. -/
theorem keep2 (W : Valuation τ sig (Elt F)) (r : Ref sig .tc) (h : r ∉ Gen.hostOps2_W) :
    StableHlo.after hostOps2 W r = W r :=
  StableHlo.after_of_writes_sub hostOps2 _ Gen.hostOps2_writes h

/-- A buffer the stretch `hostOps2_1` does not write keeps its contents. -/
theorem keep2_1 (W : Valuation τ sig (Elt F)) (r : Ref sig .tc) (h : r ∉ Gen.hostOps2_1_W) :
    StableHlo.after hostOps2_1 W r = W r :=
  StableHlo.after_of_writes_sub hostOps2_1 _ Gen.hostOps2_1_writes h

/-- A buffer the stretch `hostOps2_2` does not write keeps its contents. -/
theorem keep2_2 (W : Valuation τ sig (Elt F)) (r : Ref sig .tc) (h : r ∉ Gen.hostOps2_2_W) :
    StableHlo.after hostOps2_2 W r = W r :=
  StableHlo.after_of_writes_sub hostOps2_2 _ Gen.hostOps2_2_writes h

/-- A buffer the stretch `hostOps2_3` does not write keeps its contents. -/
theorem keep2_3 (W : Valuation τ sig (Elt F)) (r : Ref sig .tc) (h : r ∉ Gen.hostOps2_3_W) :
    StableHlo.after hostOps2_3 W r = W r :=
  StableHlo.after_of_writes_sub hostOps2_3 _ Gen.hostOps2_3_writes h

/-- A buffer the stretch `hostOps2_4` does not write keeps its contents. -/
theorem keep2_4 (W : Valuation τ sig (Elt F)) (r : Ref sig .tc) (h : r ∉ Gen.hostOps2_4_W) :
    StableHlo.after hostOps2_4 W r = W r :=
  StableHlo.after_of_writes_sub hostOps2_4 _ Gen.hostOps2_4_writes h

/-- A buffer the stretch `hostOps3` does not write keeps its contents. -/
theorem keep3 (W : Valuation τ sig (Elt F)) (r : Ref sig .tc) (h : r ∉ Gen.hostOps3_W) :
    StableHlo.after hostOps3 W r = W r :=
  StableHlo.after_of_writes_sub hostOps3 _ Gen.hostOps3_writes h

/-- A buffer the stretch `hostOps3_1` does not write keeps its contents. -/
theorem keep3_1 (W : Valuation τ sig (Elt F)) (r : Ref sig .tc) (h : r ∉ Gen.hostOps3_1_W) :
    StableHlo.after hostOps3_1 W r = W r :=
  StableHlo.after_of_writes_sub hostOps3_1 _ Gen.hostOps3_1_writes h

/-- A buffer the stretch `hostOps3_2` does not write keeps its contents. -/
theorem keep3_2 (W : Valuation τ sig (Elt F)) (r : Ref sig .tc) (h : r ∉ Gen.hostOps3_2_W) :
    StableHlo.after hostOps3_2 W r = W r :=
  StableHlo.after_of_writes_sub hostOps3_2 _ Gen.hostOps3_2_writes h

/-! ## Before the node projections: the four weight matrices side by side, the four biases end to end -/

/-- The four 256×256 weight matrices placed side by side. -/
theorem g0_v0 (W : Valuation τ sig (Elt F)) :
    StableHlo.after hostOps0 W main_v0
      = concatenate S256x1024 1 [⟨S256x256, W main_arg3⟩, ⟨S256x256, W main_arg5⟩, ⟨S256x256, W main_arg7⟩, ⟨S256x256, W main_arg9⟩]
          concatenates_S256x256_S256x256_S256x256_S256x256_S256x1024_d1 := by
  show StableHlo.after hostOps0 W (Proc.devRef .tc main_v0) = _
  after_results
  rfl

/-- The four bias vectors end to end, as one row. -/
theorem g0_v2 (W : Valuation τ sig (Elt F)) :
    StableHlo.after hostOps0 W main_v2
      = shapeCast S1x1024
          (concatenate S1024 0 [⟨S256, W main_arg4⟩, ⟨S256, W main_arg6⟩, ⟨S256, W main_arg8⟩, ⟨S256, W main_arg10⟩]
            concatenates_S256_S256_S256_S256_S1024_d0)
          shapeCasts_S1024_S1x1024 := by
  show StableHlo.after hostOps0 W (Proc.devRef .tc main_v2) = _
  after_results
  rfl

/-! ## After the node projections: the four column blocks, and the edge bias as a row -/

/-- Columns 0 … 255 of the fused projection. -/
theorem g1_v4 (W : Valuation τ sig (Elt F)) :
    StableHlo.after hostOps1 W main_v4
      = extractStridedSlice S16384x256 ![0, 0] (W main_v3) slices_S16384x1024_S16384x256_0_0 := by
  show StableHlo.after hostOps1 W (Proc.devRef .tc main_v4) = _
  after_results

/-- Columns 256 … 511 of the fused projection. -/
theorem g1_v5 (W : Valuation τ sig (Elt F)) :
    StableHlo.after hostOps1 W main_v5
      = extractStridedSlice S16384x256 ![0, 256] (W main_v3) slices_S16384x1024_S16384x256_0_256 := by
  show StableHlo.after hostOps1 W (Proc.devRef .tc main_v5) = _
  after_results

/-- Columns 512 … 767 of the fused projection. -/
theorem g1_v6 (W : Valuation τ sig (Elt F)) :
    StableHlo.after hostOps1 W main_v6
      = extractStridedSlice S16384x256 ![0, 512] (W main_v3) slices_S16384x1024_S16384x256_0_512 := by
  show StableHlo.after hostOps1 W (Proc.devRef .tc main_v6) = _
  after_results

/-- Columns 768 … 1023 of the fused projection. -/
theorem g1_v7 (W : Valuation τ sig (Elt F)) :
    StableHlo.after hostOps1 W main_v7
      = extractStridedSlice S16384x256 ![0, 768] (W main_v3) slices_S16384x1024_S16384x256_0_768 := by
  show StableHlo.after hostOps1 W (Proc.devRef .tc main_v7) = _
  after_results

/-- The edge projection's bias as a 1×256 row. -/
theorem g1_v8 (W : Valuation τ sig (Elt F)) :
    StableHlo.after hostOps1 W main_v8
      = shapeCast S1x256 (W main_arg12) shapeCasts_S256_S1x256 := by
  show StableHlo.after hostOps1 W (Proc.devRef .tc main_v8) = _
  after_results
  rfl

/-! ## The two rows of the edge index -/

/-- Row 0 of the edge index, as a vector. -/
theorem g2_v11 (W : Valuation τ sig (Elt F)) :
    StableHlo.after hostOps2 W main_v11
      = shapeCast S262144 (extractStridedSlice S1x262144 ![0, 0] (W main_arg1) slices_S2x262144_S1x262144_0_0) shapeCasts_S1x262144_S262144 := by
  show StableHlo.after hostOps2 W (Proc.devRef .tc main_v11) = _
  after_results
  rfl

/-- Row 1 of the edge index, as a vector. -/
theorem g2_v13 (W : Valuation τ sig (Elt F)) :
    StableHlo.after hostOps2 W main_v13
      = shapeCast S262144 (extractStridedSlice S1x262144 ![1, 0] (W main_arg1) slices_S2x262144_S1x262144_1_0) shapeCasts_S1x262144_S262144 := by
  show StableHlo.after hostOps2 W (Proc.devRef .tc main_v13) = _
  after_results
  rfl

/-! ## The gathered rows and their narrowing -/

/-- The rows of the second column block taken at row 0 of the edge index. -/
theorem g21_v14 (W : Valuation τ sig (Elt F)) :
    StableHlo.after hostOps2_1 W main_v14
      = takeRows (W main_v5) (W main_v11) := by
  show StableHlo.after hostOps2_1 W (Proc.devRef .tc main_v14) = _
  after_results_simp
  all_goals (try simp only [StableHlo.TRef.ofBuf, StableHlo.TRef.toBuf, cast_eq])
  all_goals rfl

/-- Those rows narrowed to bf16. -/
theorem g22_v15 (W : Valuation τ sig (Elt F)) :
    StableHlo.after hostOps2_2 W main_v15
      = truncf .bf16 (W main_v14) bitsLt_bf16_f32 := by
  show StableHlo.after hostOps2_2 W (Proc.devRef .tc main_v15) = _
  after_results

/-- The rows of the third column block taken at row 1 of the edge index. -/
theorem g23_v16 (W : Valuation τ sig (Elt F)) :
    StableHlo.after hostOps2_3 W main_v16
      = takeRows (W main_v6) (W main_v13) := by
  show StableHlo.after hostOps2_3 W (Proc.devRef .tc main_v16) = _
  after_results_simp
  all_goals (try simp only [StableHlo.TRef.ofBuf, StableHlo.TRef.toBuf, cast_eq])
  all_goals rfl

/-- Those rows narrowed to bf16. -/
theorem g24_v17 (W : Valuation τ sig (Elt F)) :
    StableHlo.after hostOps2_4 W main_v17
      = truncf .bf16 (W main_v16) bitsLt_bf16_f32 := by
  show StableHlo.after hostOps2_4 W (Proc.devRef .tc main_v17) = _
  after_results

/-- The projected edge features narrowed to bf16. -/
theorem g24_v18 (W : Valuation τ sig (Elt F)) :
    StableHlo.after hostOps2_4 W main_v18
      = truncf .bf16 (W main_v9) bitsLt_bf16_f32 := by
  show StableHlo.after hostOps2_4 W (Proc.devRef .tc main_v18) = _
  after_results

/-- Rows 0 … 255 of the first attention weight matrix. -/
theorem g24_v19 (W : Valuation τ sig (Elt F)) :
    StableHlo.after hostOps2_4 W main_v19
      = extractStridedSlice S256x256 ![0, 0] (W main_arg13) slices_S768x256_S256x256_0_0 := by
  show StableHlo.after hostOps2_4 W (Proc.devRef .tc main_v19) = _
  after_results

/-- Rows 256 … 511 of the first attention weight matrix. -/
theorem g24_v20 (W : Valuation τ sig (Elt F)) :
    StableHlo.after hostOps2_4 W main_v20
      = extractStridedSlice S256x256 ![256, 0] (W main_arg13) slices_S768x256_S256x256_256_0 := by
  show StableHlo.after hostOps2_4 W (Proc.devRef .tc main_v20) = _
  after_results

/-- Rows 512 … 767 of the first attention weight matrix. -/
theorem g24_v21 (W : Valuation τ sig (Elt F)) :
    StableHlo.after hostOps2_4 W main_v21
      = extractStridedSlice S256x256 ![512, 0] (W main_arg13) slices_S768x256_S256x256_512_0 := by
  show StableHlo.after hostOps2_4 W (Proc.devRef .tc main_v21) = _
  after_results

/-- The first attention bias as a 1×256 row. -/
theorem g24_v22 (W : Valuation τ sig (Elt F)) :
    StableHlo.after hostOps2_4 W main_v22
      = shapeCast S1x256 (W main_arg14) shapeCasts_S256_S1x256 := by
  show StableHlo.after hostOps2_4 W (Proc.devRef .tc main_v22) = _
  after_results
  rfl

/-- The second attention bias as a 1×8 row. -/
theorem g24_v23 (W : Valuation τ sig (Elt F)) :
    StableHlo.after hostOps2_4 W main_v23
      = shapeCast S1x8 (W main_arg16) shapeCasts_S8_S1x8 := by
  show StableHlo.after hostOps2_4 W (Proc.devRef .tc main_v23) = _
  after_results
  rfl

/-! ## The edge weights, the gathered values, the aggregation -/

/-- The softmax over all edges of each edge's mean score. -/
theorem g3_v37 (W : Valuation τ sig (Elt F)) :
    StableHlo.after hostOps3 W main_v37
      = softWeights (W main_v24) := by
  show StableHlo.after hostOps3 W (Proc.devRef .tc main_v37) = _
  after_results_simp
  rfl

/-- The rows of the fourth column block taken at row 1 of the edge index. -/
theorem g31_v38 (W : Valuation τ sig (Elt F)) :
    StableHlo.after hostOps3_1 W main_v38
      = takeRows (W main_v7) (W main_v13) := by
  show StableHlo.after hostOps3_1 W (Proc.devRef .tc main_v38) = _
  after_results_simp
  all_goals (try simp only [StableHlo.TRef.ofBuf, StableHlo.TRef.toBuf, cast_eq])
  all_goals rfl

/-- Every edge's weighted value row added into its source node's row. -/
theorem g32_v49 (W : Valuation τ sig (Elt F)) :
    StableHlo.after hostOps3_2 W main_v49
      = aggregate (W main_v37) (W main_v38) (W main_v11) := by
  show StableHlo.after hostOps3_2 W (Proc.devRef .tc main_v49) = _
  after_results
  rfl

/-- The normalisation's gain as a 1×256 row. -/
theorem g32_v50 (W : Valuation τ sig (Elt F)) :
    StableHlo.after hostOps3_2 W main_v50
      = shapeCast S1x256 (W main_arg17) shapeCasts_S256_S1x256 := by
  show StableHlo.after hostOps3_2 W (Proc.devRef .tc main_v50) = _
  after_results
  rfl

/-- The normalisation's shift as a 1×256 row. -/
theorem g32_v51 (W : Valuation τ sig (Elt F)) :
    StableHlo.after hostOps3_2 W main_v51
      = shapeCast S1x256 (W main_arg18) shapeCasts_S256_S1x256 := by
  show StableHlo.after hostOps3_2 W (Proc.devRef .tc main_v51) = _
  after_results
  rfl

end Cert.KernelIdeal.Hand

end
-- ==== Proof.Spec.lean ====
/-
  The mathematics both programs compute, as functions of whole arrays over the extended reals.

  * `proj x W b`: a dense layer, row `r`, column `j`: the sum over `l` of `x[r,l] · W[l,j]`, plus the bias `b[0,j]`
    (the bias as a 1×d row, which is how a kernel window holds it).
  * `leaky z`: `z` where `z > 0`, else `0.2 · z` (0.2 as the float both programs print).
  * `attn`: the edge scores. For edge `e` and head `h`: the first layer's unit `l` is `leaky` of the three partial
    products (source query, target key, edge feature rows against their thirds of the first weight matrix) plus its
    bias; the score is `leaky` of the second layer over those 256 units plus its bias.
  * `lnMul` / `lnDiv`: the row-wise normalisation of `x = h + agg`: subtract the row mean, scale by the row's
    `1/√(var + eps)` — as a product with the reciprocal square root, or as a quotient by the square root —, then the
    gain and the shift. `lnMul_eq_lnDiv`: the two agree at every extended real, because `var + eps` is positive
    (a mean of squares is not negative, and eps is a positive real).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A rank-2 array of extended reals. -/
abbrev Arr2 (a b : Nat) : Type := (⟨2, ![a, b]⟩ : Shape).Idx → EReal

/-- A dense layer: `x · W` plus the bias row. -/
def proj {n k d : Nat} (x : Arr2 n k) (W : Arr2 k d) (b : Arr2 1 d) : Arr2 n d :=
  fun j => (∑ l : Fin k, x (ix2 (j 0) l) * W (ix2 l (j 1))) + b (ix2 (0 : Fin 1) (j 1))

/-- The float zero and the slope 0.2, as both programs print them. -/
abbrev zeroF : EReal := Ideal.ofBits .f32 0x00000000#32
abbrev slope : EReal := Ideal.ofBits .f32 0x3E4CCCCD#32

/-- The leaky rectifier as both programs spell it: a select on `z > 0` between `z` and `0.2 · z`. -/
def leaky (z : EReal) : EReal :=
  Scalar.select (FloatOps.cmpf (F := Ideal) (φ := .f32) .ogt z zeroF) z (slope * z)

/-- The hidden unit `l` of edge `e`, before its rectifier. -/
def attnPre {E : Nat} (qs kt eh : Arr2 E 256) (A1q A1k A1e : Arr2 256 256) (a1 : Arr2 1 256) (e : Fin E) (l : Fin 256) : EReal :=
  (((∑ p : Fin 256, qs (ix2 e p) * A1q (ix2 p l)) + (∑ p : Fin 256, kt (ix2 e p) * A1k (ix2 p l)))
      + (∑ p : Fin 256, eh (ix2 e p) * A1e (ix2 p l))) + a1 (ix2 (0 : Fin 1) l)

/-- The edge scores: two dense layers with leaky rectifiers, the first layer's input the three row blocks. -/
def attn {E : Nat} (qs kt eh : Arr2 E 256) (A1q A1k A1e : Arr2 256 256) (a1 : Arr2 1 256) (A2 : Arr2 256 8) (a2 : Arr2 1 8) : Arr2 E 8 :=
  fun j => leaky ((∑ l : Fin 256, leaky (attnPre qs kt eh A1q A1k A1e a1 (j 0) l) * A2 (ix2 l (j 1))) + a2 (ix2 (0 : Fin 1) (j 1)))

/-- The divisor 256 and the epsilon, as both programs print them. -/
abbrev c256 : EReal := Ideal.ofBits .f32 0x43800000#32
abbrev epsF : EReal := Ideal.ofBits .f32 0x3727C5AC#32

/-- The row mean of `x`. -/
def rowMean {n : Nat} (x : Arr2 n 256) (r : Fin n) : EReal := Ideal.div (∑ l : Fin 256, x (ix2 r l)) c256
/-- `x` with its row mean taken off. -/
def centred {n : Nat} (x : Arr2 n 256) (r : Fin n) (l : Fin 256) : EReal := x (ix2 r l) - rowMean x r
/-- The row's mean squared deviation. -/
def rowVar {n : Nat} (x : Arr2 n 256) (r : Fin n) : EReal := Ideal.div (∑ l : Fin 256, centred x r l * centred x r l) c256

/-- The normalisation with the reciprocal square root as a factor. -/
def lnMul {n : Nat} (x : Arr2 n 256) (g b : Arr2 1 256) : Arr2 n 256 :=
  fun j => ((centred x (j 0) (j 1) * Ideal.rsqrt (rowVar x (j 0) + epsF)) * g (ix2 (0 : Fin 1) (j 1))) + b (ix2 (0 : Fin 1) (j 1))

/-- The normalisation with the square root as a divisor. -/
def lnDiv {n : Nat} (x : Arr2 n 256) (g b : Arr2 1 256) : Arr2 n 256 :=
  fun j => ((Ideal.div (centred x (j 0) (j 1)) (Ideal.sqrt (rowVar x (j 0) + epsF))) * g (ix2 (0 : Fin 1) (j 1))) + b (ix2 (0 : Fin 1) (j 1))

end Cert.Spec

end
-- ==== Proof.KI.Val0.lean ====
/-
  The value of region 0 of the kernel program (the fused node projection), on the extended reals.

  The region's grid has 8 points. At point `t` the body multiplies the 2048-row block `t` of the node features
  [16384×256] with the whole concatenated weight matrix [256×1024], adds the concatenated bias row [1×1024] to every
  row, and the result is written back as the 2048-row block `t` of the result array [16384×1024].

  * One entry of the body's value (`pay0_apply`): at row `p`, column `q` of the block it is the sum over `l` of
    `x[p,l] · W[l,q]`, plus `b[0,q]`. The product is a contraction of the left operand's column axis with the right
    operand's row axis into a zero accumulator; the changes of float format are the identity on the extended reals;
    the casts are to the same shape; the bias row is read at row 0 whatever the row of the result.
  * The blocks (`blk0_0_apply`, `blk0_1_apply`, `blk0_2_apply`): row `p` of the feature block at point `t` is row
    `2048 t + p` of the feature array; the weight block and the bias block are the whole arrays at every point.
  * So what point `t` writes back is block `t` of the dense layer of the WHOLE arrays (`flushed0_eq`): an entry of a
    dense layer depends on its own row of the features only.
  * The 8 blocks tile the rows: row `r` lies in the block of point `r / 2048` (`cover0`). Hence the result array
    after the region is the dense layer of the three arrays as the region finds them (`final0`).
-/
import proofs.«408511_j55722905699140_1_alg».proof.Proof.KI.R0
import proofs.«408511_j55722905699140_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-! ## The body's value at one entry -/

/-- The matmul's operand indices: the left operand is read on its row axis at the result's row, -/
theorem proj0_lhs_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
/-- on its column axis at the contraction position; -/
theorem proj0_lhs_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
/-- the right operand on its row axis at the contraction position, -/
theorem proj0_rhs_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
/-- on its column axis at the result's column. -/
theorem proj0_rhs_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- The product into a zero accumulator, at row `p` and column `q`: the sum over `l` of `a[p,l] · b[l,q]`. -/
theorem proj0_mm_apply {φ₁ φ₂ : FTy} (a : FVec Ideal S2048x256 φ₁) (b : FVec Ideal S256x1024 φ₂) (p : Fin 2048) (q : Fin 1024) :
    matmul dot_S2048x256_S256x1024_S2048x1024_1_0_0_1_n_n none a b (constant (F := Ideal) S2048x1024 .f32 0x00000000#32) (ix2 p q)
      = ∑ l : Fin 256, a (ix2 p l) * b (ix2 l q) := by
  refine (Ideal.matmul_constant_zero_apply dot_S2048x256_S256x1024_S2048x1024_1_0_0_1_n_n none a b (ix2 p q)).trans ?_
  rw [← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 p q) ((contrEquiv1 dot_S2048x256_S256x1024_S2048x1024_1_0_0_1_n_n 256 rfl rfl).symm k) = ix2 p k := funext fun ax => Fin.ext (by
    match ax with
    | ⟨0, _⟩ => exact proj0_lhs_0 _ _
    | ⟨1, _⟩ => exact (proj0_lhs_1 _ _).trans hk)
  have er : dot_S2048x256_S256x1024_S2048x1024_1_0_0_1_n_n.rhsIdx (ix2 p q) ((contrEquiv1 dot_S2048x256_S256x1024_S2048x1024_1_0_0_1_n_n 256 rfl rfl).symm k) = ix2 k q := funext fun ax => Fin.ext (by
    match ax with
    | ⟨0, _⟩ => exact (proj0_rhs_0 _ _).trans hk
    | ⟨1, _⟩ => exact proj0_rhs_1 _ _)
  rw [el, er]

/-- The body's one stored value at row `p` and column `q` of the block: the feature block's row `p` against the
    weight matrix's column `q`, plus the bias row at `q` (the changes of float format are the identity on the
    extended reals, the casts are to the same shape, the bias row is broadcast down the rows). -/
theorem pay0_apply (x0 : Vec Ideal S2048x256 .f32) (x1 : Vec Ideal S256x1024 .f32) (x2 : Vec Ideal S1x1024 .f32) (p : Fin 2048) (q : Fin 1024) :
    k0_pay1 (F := Ideal) x0 x1 x2 (ix2 p q) = (∑ l : Fin 256, x0 (ix2 p l) * x1 (ix2 l q)) + x2 (ix2 (0 : Fin 1) q) := by
  unfold k0_pay1
  refine congrArg₂ (· + ·) ?_ ?_
  · refine (proj0_mm_apply _ _ p q).trans ?_
    rw [shapeCast_self]
    rfl
  · refine (broadcastTo_1b_ab_apply _ _ p q).trans ?_
    rw [shapeCast_self]

/-! ## From one grid point's block to the array -/

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: at point `t` the feature window and the result window are at row block `t`,
    column block 0; the weight window and the bias window are at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `2048 t … 2048 t + 2047` of the feature array. -/
theorem blk0_0_apply (c : Dev nD) (t : Fin cfg0.N) (p : Fin 2048) (l : Fin 256) (r : Fin 16384) (hr : r.val = t.val * 2048 + p.val) :
    (iblk0 V c 0 t : Vec Ideal S2048x256 .f32) (ix2 p l) = (V c main_arg0 : S16384x256.Idx → EReal) (ix2 r l) := by
  obtain ⟨e0, e1, -⟩ := idx_facts0 t
  show V c main_arg0 (((cfg0.win 0).blk t).view.emb (ix2 p l)) = V c main_arg0 (ix2 r l)
  refine congrArg (V c main_arg0) (funext fun a => Fin.ext ?_)
  match a with
  | ⟨0, _⟩ => show win0_0.index t (0 : Fin 2) * 2048 + 1 * p.val = r.val; omega
  | ⟨1, _⟩ => show win0_0.index t (1 : Fin 2) * 256 + 1 * l.val = l.val; omega

/-- The weight window's block is the whole weight matrix, at every point. -/
theorem blk0_1_apply (c : Dev nD) (t : Fin cfg0.N) (l : Fin 256) (q : Fin 1024) :
    (iblk0 V c 1 t : Vec Ideal S256x1024 .f32) (ix2 l q) = (V c main_v0 : S256x1024.Idx → EReal) (ix2 l q) := by
  obtain ⟨-, -, e2, e3, -⟩ := idx_facts0 t
  show V c main_v0 (((cfg0.win 1).blk t).view.emb (ix2 l q)) = V c main_v0 (ix2 l q)
  refine congrArg (V c main_v0) (funext fun a => Fin.ext ?_)
  match a with
  | ⟨0, _⟩ => show win0_1.index t (0 : Fin 2) * 256 + 1 * l.val = l.val; omega
  | ⟨1, _⟩ => show win0_1.index t (1 : Fin 2) * 1024 + 1 * q.val = q.val; omega

/-- The bias window's block is the whole bias row, at every point. -/
theorem blk0_2_apply (c : Dev nD) (t : Fin cfg0.N) (z : Fin 1) (q : Fin 1024) :
    (iblk0 V c 2 t : Vec Ideal S1x1024 .f32) (ix2 z q) = (V c main_v2 : S1x1024.Idx → EReal) (ix2 z q) := by
  obtain ⟨-, -, -, -, e4, e5, -⟩ := idx_facts0 t
  show V c main_v2 (((cfg0.win 2).blk t).view.emb (ix2 z q)) = V c main_v2 (ix2 z q)
  refine congrArg (V c main_v2) (funext fun a => Fin.ext ?_)
  match a with
  | ⟨0, _⟩ => show win0_2.index t (0 : Fin 2) * 1 + 1 * z.val = z.val; omega
  | ⟨1, _⟩ => show win0_2.index t (1 : Fin 2) * 1024 + 1 * q.val = q.val; omega

/-- What point `t` writes back is block `t` of the dense layer of the whole arrays: the block's row `p` is the
    array's row `2048 t + p`, which depends on that row of the features alone, and the weights and the bias are
    the same at every point. -/
theorem flushed0_eq (c : Dev nD) (t : Fin cfg0.N) :
    (dat0 (F := Ideal) V c).flushed 3 t
      = ((cfg0.win 3).blk t).view.read (Elt Ideal) (Cert.Spec.proj (V c main_arg0) (V c main_v0) (V c main_v2)) := by
  show (cfg0.win 3).cut (grid0.coords t) ((dat0 V c).after 3 t) = _
  rw [after0_3]
  unfold out0_3
  rw [View.canon_unit_zero hz0]
  simp only [View.ld_unit_zero (S := S2048x256) hz0, View.ld_unit_zero (S := S256x1024) hz0, View.ld_unit_zero (S := S1x1024) hz0]
  obtain ⟨-, -, -, -, -, -, e6, e7⟩ := idx_facts0 t
  funext j
  have hp : (j 0).val < 2048 := (j 0).isLt
  have hq : (j 1).val < 1024 := (j 1).isLt
  have hj : (cfg0.win 3).xinj (grid0.coords t) j = ix2 (⟨(j 0).val, hp⟩ : Fin 2048) (⟨(j 1).val, hq⟩ : Fin 1024) :=
    funext fun a => by match a with | ⟨0, _⟩ => rfl | ⟨1, _⟩ => rfl
  show k0_pay1 (F := Ideal) (iblk0 V c 0 t) (iblk0 V c 1 t) (iblk0 V c 2 t) ((cfg0.win 3).xinj (grid0.coords t) j)
    = Cert.Spec.proj (V c main_arg0) (V c main_v0) (V c main_v2) (((cfg0.win 3).blk t).view.emb j)
  rw [hj]
  refine (pay0_apply (iblk0 V c 0 t) (iblk0 V c 1 t) (iblk0 V c 2 t) ⟨(j 0).val, hp⟩ ⟨(j 1).val, hq⟩).trans ?_
  have h1 : ((((cfg0.win 3).blk t).view.emb j) 1 : Nat) = (j 1).val := by
    show win0_3.index t (1 : Fin 2) * 1024 + 1 * (j 1).val = (j 1).val; omega
  have h1' : (((cfg0.win 3).blk t).view.emb j) 1 = (⟨(j 1).val, hq⟩ : Fin 1024) := Fin.ext h1
  unfold Cert.Spec.proj
  rw [h1']
  refine congrArg₂ (· + ·) (Finset.sum_congr rfl fun l _ => congrArg₂ (· * ·) ?_ ?_) ?_
  · exact blk0_0_apply V c t ⟨(j 0).val, hp⟩ l ((((cfg0.win 3).blk t).view.emb j) 0) (by
      show win0_3.index t (0 : Fin 2) * 2048 + 1 * (j 0).val = t.val * 2048 + (j 0).val; omega)
  · exact blk0_1_apply V c t l ⟨(j 1).val, hq⟩
  · exact blk0_2_apply V c t 0 ⟨(j 1).val, hq⟩

/-- An index of the result array is in point `t`'s block iff each coordinate is in the block's range on its axis. -/
theorem mem_blk0 (t : Fin cfg0.N) (i : S16384x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v3).slice (win0_3.rect t)).set ↔ _
  rw [View.set_slice_whole, Rect.mem_set_unit]
  exact Iff.rfl

/-- Every entry of the result array is in some point's block: row `r` is in the block of point `r / 2048`. -/
theorem cover0 (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hN : grid0.N = 8 := N_0
  let t : Fin cfg0.N := ⟨(i 0).val / 2048, by show (i 0).val / 2048 < grid0.N; omega⟩
  obtain ⟨-, -, -, -, -, -, e6, e7⟩ := idx_facts0 t
  have ht : t.val = (i 0).val / 2048 := rfl
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- The result array after the region: the dense layer of the feature array, the concatenated weights and the
    concatenated bias row, as the region finds them. -/
theorem final0 (c : Dev nD) :
    (dat0 (F := Ideal) V c).arrAt 3 cfg0.N = Cert.Spec.proj (V c main_arg0) (V c main_v0) (V c main_v2) :=
  (dat0 (F := Ideal) V c).arrAt_eq_of_cover 3 (Cert.Spec.proj (V c main_arg0) (V c main_v0) (V c main_v2))
    (fun t _ => flushed0_eq V c t) cover0

end Cert.KernelIdeal.Val

end
-- ==== Proof.KI.Val1.lean ====
/-
  Region 1 at the extended reals: the edge-projection array after all 64 grid points, as ONE function of the arrays
  the region finds. Entry (r, q) of the result is the sum over the 64 inner positions l of
  features[r, l] · weights[l, q], plus bias[0, q] (`Spec.proj`).
  The steps: the body's value at one entry of a block (`pay1_apply`: the product into a zero accumulator is the
  plain sum over the inner axis, the format changes are the identity, the bias row is broadcast down the rows); each
  input block as entries of its array (`xblk1_apply`, `wblk1_apply`, `bblk1_apply`: a block's coordinate is its block
  index times the block size plus the coordinate inside the block); what point `t` writes back is block `t` of the
  dense layer (`flushed1_eq`); the 64 row blocks tile the array, row r lying in block r / 4096 (`cover1`); so the
  array ends holding the dense layer (`final1`).
-/
import proofs.«408511_j55722905699140_1_alg».proof.Proof.KI.R1
import proofs.«408511_j55722905699140_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- On the rows' axis the left operand's index is the output's row, -/
theorem lhs_proj1_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide),
    dif_pos (show (0 : Fin S4096x64.rank) ∈ dot_S4096x64_S64x256_S4096x256_1_0_0_1_n_n.lhsNonContracting by decide)]
  rfl
/-- and on the contracted axis the summation index; -/
theorem lhs_proj1_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
/-- the right operand's is the summation index on its rows' axis -/
theorem rhs_proj1_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
/-- and the output's column on its columns' axis. -/
theorem rhs_proj1_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide),
    dif_pos (show (1 : Fin S64x256.rank) ∈ dot_S4096x64_S64x256_S4096x256_1_0_0_1_n_n.rhsNonContracting by decide)]
  rfl

/-- The block product into a zero accumulator, entry (p, q): the sum over the 64 inner positions. -/
theorem matmul_proj1_apply (x : FVec Ideal S4096x64 .bf16) (w : FVec Ideal S64x256 .bf16) (p : Fin 4096) (q : Fin 256) :
    matmul dot_S4096x64_S64x256_S4096x256_1_0_0_1_n_n none x w (constant (F := Ideal) S4096x256 .f32 0x00000000#32) (ix2 p q)
      = ∑ l : Fin 64, x (ix2 p l) * w (ix2 l q) := by
  simp only [matmul]
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 p q) ((contrEquiv1 dot_S4096x64_S64x256_S4096x256_1_0_0_1_n_n 64 rfl rfl).symm k) = ix2 p k :=
    funext fun a => Fin.ext (by
      match a with
      | ⟨0, _⟩ => exact lhs_proj1_0 _ _
      | ⟨1, _⟩ => exact (lhs_proj1_1 _ _).trans hk)
  have er : dot_S4096x64_S64x256_S4096x256_1_0_0_1_n_n.rhsIdx (ix2 p q) ((contrEquiv1 dot_S4096x64_S64x256_S4096x256_1_0_0_1_n_n 64 rfl rfl).symm k) = ix2 k q :=
    funext fun a => Fin.ext (by
      match a with
      | ⟨0, _⟩ => exact (rhs_proj1_0 _ _).trans hk
      | ⟨1, _⟩ => exact rhs_proj1_1 _ _)
  rw [el, er]

/-- The body's value at entry (p, q) of the block: row p of the feature block against column q of the weights,
    plus the bias row's entry q. -/
theorem pay1_apply (x0 : Vec Ideal S4096x64 .f32) (x1 : Vec Ideal S64x256 .f32) (x2 : Vec Ideal S1x256 .f32) (p : Fin 4096) (q : Fin 256) :
    k1_pay1 (F := Ideal) x0 x1 x2 (ix2 p q) = (∑ l : Fin 64, x0 (ix2 p l) * x1 (ix2 l q)) + x2 (ix2 (0 : Fin 1) q) := by
  unfold k1_pay1
  refine (addf_apply _ _ (ix2 p q)).trans ?_
  refine congrArg₂ (· + ·) ?_ ?_
  · exact matmul_proj1_apply _ _ p q
  · rw [shapeCast_self]
    exact broadcastTo_1b_ab_apply _ _ p q

theorem hz1 : (![0, 0] : Fin 2 → Nat) = fun _ => 0 := funext fun a => by fin_cases a <;> rfl

/-- The index maps over the 64 points: the feature window and the output window sit at row block `t`, column block 0;
    the weight and the bias windows at block (0, 0) throughout. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three input blocks at point `t`, at their literal types. -/
abbrev xblk1 (c : Dev nD) (t : Fin cfg1.N) : Vec Ideal S4096x64 .f32 := iblk1 V c 0 t
abbrev wblk1 (c : Dev nD) (t : Fin cfg1.N) : Vec Ideal S64x256 .f32 := iblk1 V c 1 t
abbrev bblk1 (c : Dev nD) (t : Fin cfg1.N) : Vec Ideal S1x256 .f32 := iblk1 V c 2 t

/-- The feature block at point `t` is rows `4096 t … 4096 t + 4095` of the feature array. -/
theorem xblk1_apply (c : Dev nD) (t : Fin cfg1.N) (p : Fin 4096) (l : Fin 64) (r : Fin 262144) (hr : r.val = t.val * 4096 + p.val) :
    xblk1 V c t (ix2 p l) = (V c main_arg2 : S262144x64.Idx → EReal) (ix2 r l) := by
  obtain ⟨e0, e1, -⟩ := idx_facts1 t
  unfold xblk1 iblk1
  rw [View.read_apply]
  show V c main_arg2 _ = V c main_arg2 _
  congr 1
  funext a
  apply Fin.ext
  match a with
  | ⟨0, _⟩ => show win1_0.index t (0 : Fin 2) * 4096 + 1 * p.val = r.val; omega
  | ⟨1, _⟩ => show win1_0.index t (1 : Fin 2) * 64 + 1 * l.val = l.val; omega

/-- The weight block is the whole weight matrix at every point. -/
theorem wblk1_apply (c : Dev nD) (t : Fin cfg1.N) (l : Fin 64) (q : Fin 256) :
    wblk1 V c t (ix2 l q) = (V c main_arg11 : S64x256.Idx → EReal) (ix2 l q) := by
  obtain ⟨-, -, e2, e3, -⟩ := idx_facts1 t
  unfold wblk1 iblk1
  rw [View.read_apply]
  show V c main_arg11 _ = V c main_arg11 _
  congr 1
  funext a
  apply Fin.ext
  match a with
  | ⟨0, _⟩ => show win1_1.index t (0 : Fin 2) * 64 + 1 * l.val = l.val; omega
  | ⟨1, _⟩ => show win1_1.index t (1 : Fin 2) * 256 + 1 * q.val = q.val; omega

/-- The bias block is the whole bias row at every point. -/
theorem bblk1_apply (c : Dev nD) (t : Fin cfg1.N) (q : Fin 256) :
    bblk1 V c t (ix2 (0 : Fin 1) q) = (V c main_v8 : S1x256.Idx → EReal) (ix2 (0 : Fin 1) q) := by
  obtain ⟨-, -, -, -, e4, e5, -⟩ := idx_facts1 t
  unfold bblk1 iblk1
  rw [View.read_apply]
  show V c main_v8 _ = V c main_v8 _
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 256 + 1 * q.val = q.val; omega

/-- One entry of the block the body leaves, when row `p` of its feature block is row `r` of `X` and its weight and
    bias blocks are `W` and `b`: the dense layer's entry at row `r`, column `q`. -/
theorem block_entry1 (X : Cert.Spec.Arr2 262144 64) (W : Cert.Spec.Arr2 64 256) (b : Cert.Spec.Arr2 1 256)
    (x0 : Vec Ideal S4096x64 .f32) (x1 : Vec Ideal S64x256 .f32) (x2 : Vec Ideal S1x256 .f32)
    (p : Fin 4096) (q : Fin 256) (r : Fin 262144)
    (h0 : ∀ l : Fin 64, x0 (ix2 p l) = X (ix2 r l))
    (h1 : ∀ l : Fin 64, x1 (ix2 l q) = W (ix2 l q))
    (h2 : x2 (ix2 (0 : Fin 1) q) = b (ix2 (0 : Fin 1) q)) :
    k1_pay1 (F := Ideal) x0 x1 x2 (ix2 p q) = Cert.Spec.proj X W b (ix2 r q) := by
  refine (pay1_apply x0 x1 x2 p q).trans ?_
  show _ = (∑ l : Fin 64, X (ix2 r l) * W (ix2 l q)) + b (ix2 (0 : Fin 1) q)
  rw [h2]
  exact congrArg (· + b (ix2 (0 : Fin 1) q)) (Finset.sum_congr rfl fun l _ => by rw [h0 l, h1 l])

/-- What point `t` writes back is block `t` of the dense layer of the three arrays as the region finds them. -/
theorem flushed1_eq (c : Dev nD) (t : Fin cfg1.N) :
    (dat1 (F := Ideal) V c).flushed 3 t
      = ((cfg1.win 3).blk t).view.read (Elt Ideal) (Cert.Spec.proj (V c main_arg2) (V c main_arg11) (V c main_v8)) := by
  show (cfg1.win 3).cut (grid1.coords t) ((dat1 V c).after 3 t) = _
  rw [after1_3]
  unfold out1_3
  rw [View.canon_unit_zero hz1]
  simp only [View.ld_unit_zero (S := S4096x64) hz1, View.ld_unit_zero (S := S64x256) hz1, View.ld_unit_zero (S := S1x256) hz1]
  obtain ⟨-, -, -, -, -, -, e6, e7⟩ := idx_facts1 t
  have hN : grid1.N = 64 := N_1
  have ht : t.val < 64 := Nat.lt_of_lt_of_eq t.isLt hN
  funext j
  have hp : (j 0).val < 4096 := (j 0).isLt
  have hq : (j 1).val < 256 := (j 1).isLt
  have hj : (win1_3.xinj (grid1.coords t) j : S4096x256.Idx) = ix2 (⟨(j 0).val, hp⟩ : Fin 4096) (⟨(j 1).val, hq⟩ : Fin 256) :=
    funext fun a => by
      match a with
      | ⟨0, _⟩ => rfl
      | ⟨1, _⟩ => rfl
  have hi : (((cfg1.win 3).blk t).view.emb j : S262144x256.Idx)
      = ix2 (⟨t.val * 4096 + (j 0).val, by omega⟩ : Fin 262144) (⟨(j 1).val, hq⟩ : Fin 256) :=
    funext fun a => Fin.ext (by
      match a with
      | ⟨0, _⟩ => show win1_3.index t (0 : Fin 2) * 4096 + 1 * (j 0).val = t.val * 4096 + (j 0).val; omega
      | ⟨1, _⟩ => show win1_3.index t (1 : Fin 2) * 256 + 1 * (j 1).val = (j 1).val; omega)
  show k1_pay1 (F := Ideal) (xblk1 V c t) (wblk1 V c t) (bblk1 V c t) (win1_3.xinj (grid1.coords t) j)
      = Cert.Spec.proj (V c main_arg2) (V c main_arg11) (V c main_v8) (((cfg1.win 3).blk t).view.emb j)
  refine (congrArg (k1_pay1 (F := Ideal) (xblk1 V c t) (wblk1 V c t) (bblk1 V c t)) hj).trans ?_
  refine Eq.trans ?_ (congrArg (Cert.Spec.proj (V c main_arg2) (V c main_arg11) (V c main_v8)) hi).symm
  exact block_entry1 (V c main_arg2) (V c main_arg11) (V c main_v8) (xblk1 V c t) (wblk1 V c t) (bblk1 V c t)
    ⟨(j 0).val, hp⟩ ⟨(j 1).val, hq⟩ ⟨t.val * 4096 + (j 0).val, by omega⟩
    (fun l => xblk1_apply V c t ⟨(j 0).val, hp⟩ l ⟨t.val * 4096 + (j 0).val, by omega⟩ rfl)
    (fun l => wblk1_apply V c t l ⟨(j 1).val, hq⟩)
    (bblk1_apply V c t ⟨(j 1).val, hq⟩)

/-- An index of the result array is in point `t`'s block iff each coordinate is in the block's range on its axis. -/
theorem mem_blk1 (t : Fin cfg1.N) (i : S262144x256.Idx) :
    i ∈ ((cfg1.win 3).blk t).view.set ↔ ∀ a : Fin 2, win1_3.index t a * S4096x256.size a ≤ (i a).val
      ∧ (i a).val < win1_3.index t a * S4096x256.size a + S4096x256.size a := by
  show i ∈ ((View.whole main_v9).slice (win1_3.rect t)).set ↔ _
  rw [View.set_slice_whole, Rect.mem_set_unit]
  exact Iff.rfl

/-- The 64 row blocks tile the result array: row `r` lies in the block of point `r / 4096`. -/
theorem cover1 (i : S262144x256.Idx) :
    ∃ t : Fin cfg1.N, (cfg1.win 3).flush t = true ∧ i ∈ ((cfg1.win 3).blk t).view.set := by
  have hi0 : (i 0).val < 262144 := (i 0).isLt
  have hi1 : (i 1).val < 256 := (i 1).isLt
  have hN : grid1.N = 64 := N_1
  have hlt : (i 0).val / 4096 < cfg1.N := by show (i 0).val / 4096 < grid1.N; rw [hN]; omega
  obtain ⟨-, -, -, -, -, -, e6, e7⟩ := idx_facts1 ⟨(i 0).val / 4096, hlt⟩
  refine ⟨⟨(i 0).val / 4096, hlt⟩, flush1_3 _, ?_⟩
  rw [mem_blk1]
  intro a
  match a with
  | ⟨0, _⟩ =>
    show win1_3.index ⟨(i 0).val / 4096, hlt⟩ (0 : Fin 2) * 4096 ≤ (i 0).val
      ∧ (i 0).val < win1_3.index ⟨(i 0).val / 4096, hlt⟩ (0 : Fin 2) * 4096 + 4096
    rw [e6]
    show (i 0).val / 4096 * 4096 ≤ (i 0).val ∧ (i 0).val < (i 0).val / 4096 * 4096 + 4096
    omega
  | ⟨1, _⟩ =>
    show win1_3.index ⟨(i 0).val / 4096, hlt⟩ (1 : Fin 2) * 256 ≤ (i 1).val
      ∧ (i 1).val < win1_3.index ⟨(i 0).val / 4096, hlt⟩ (1 : Fin 2) * 256 + 256
    rw [e7]
    omega

/-- The result array after all 64 points is the dense layer of the feature array, the weight matrix and the bias
    row as the region finds them. -/
theorem final1 (c : Dev nD) :
    (Cert.KernelIdeal.Hand.dat1 (F := Ideal) V c).arrAt 3 cfg1.N = Cert.Spec.proj (V c main_arg2) (V c main_arg11) (V c main_v8) :=
  (dat1 (F := Ideal) V c).arrAt_eq_of_cover 3 (Cert.Spec.proj (V c main_arg2) (V c main_arg11) (V c main_v8))
    (fun t _ => flushed1_eq V c t) cover1

end Cert.KernelIdeal.Val

end
-- ==== Proof.KI.Val2.lean ====
/-
  Region 2's scores array after all 64 grid points, at the extended reals, as ONE function of the nine arrays the
  region finds: the edge-score function of the specification (two dense layers with the leaky rectifier, the first
  layer's input the source-query, target-key and edge-feature rows of the edge).

  The body's stored value is that function of the nine loaded BLOCKS (the block's 4096 rows as its edges): the two
  layers' products are sums over the 256 contracted coordinates, the format changes are the identity at the
  extended reals, the bias rows are broadcast down the rows, and the rectifier is the same select in both. The score
  of an edge depends on its own row of the three edge arrays only, and point t's blocks are rows 4096·t … 4096·t + 4095
  of those arrays (the weight and bias blocks are the whole arrays at every point); so point t writes back block t of
  the whole-array function, and the 64 blocks cover the 262144 rows.
-/
import proofs.«408511_j55722905699140_1_alg».proof.Proof.KI.R2
import proofs.«408511_j55722905699140_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## The two matrix products at an index -/

/-- On the left operand of the 256-deep product into 256 columns, axis 0 is the result's row, -/
theorem lhs2a_0 (j : S4096x256.Idx) (k : dot_S4096x256_S256x256_S4096x256_1_0_0_1_n_n.contr.Idx) :
    (dot_S4096x256_S256x256_S4096x256_1_0_0_1_n_n.lhsIdx j k 0 : ℕ) = j 0 := by
  simp [DotDims.lhsIdx, dot_S4096x256_S256x256_S4096x256_1_0_0_1_n_n]; rfl
/-- axis 1 the contracted coordinate; -/
theorem lhs2a_1 (j : S4096x256.Idx) (k : dot_S4096x256_S256x256_S4096x256_1_0_0_1_n_n.contr.Idx) :
    (dot_S4096x256_S256x256_S4096x256_1_0_0_1_n_n.lhsIdx j k 1 : ℕ) = k ⟨0, by decide⟩ := by
  simp [DotDims.lhsIdx, dot_S4096x256_S256x256_S4096x256_1_0_0_1_n_n]; rfl
/-- on the right operand axis 0 is the contracted coordinate, -/
theorem rhs2a_0 (j : S4096x256.Idx) (k : dot_S4096x256_S256x256_S4096x256_1_0_0_1_n_n.contr.Idx) :
    (dot_S4096x256_S256x256_S4096x256_1_0_0_1_n_n.rhsIdx j k 0 : ℕ) = k ⟨0, by decide⟩ := by
  simp [DotDims.rhsIdx, dot_S4096x256_S256x256_S4096x256_1_0_0_1_n_n]; rfl
/-- axis 1 the result's column. -/
theorem rhs2a_1 (j : S4096x256.Idx) (k : dot_S4096x256_S256x256_S4096x256_1_0_0_1_n_n.contr.Idx) :
    (dot_S4096x256_S256x256_S4096x256_1_0_0_1_n_n.rhsIdx j k 1 : ℕ) = j 1 := by
  simp [DotDims.rhsIdx, dot_S4096x256_S256x256_S4096x256_1_0_0_1_n_n]; rfl

/-- A 4096×256 by 256×256 product into the zero accumulator, at row p and column l: the sum over the 256
    contracted coordinates of the products of the entries. -/
theorem mm2a_apply (A : FVec Ideal S4096x256 .bf16) (B : FVec Ideal S256x256 .bf16) (p : Fin 4096) (l : Fin 256) :
    matmul dot_S4096x256_S256x256_S4096x256_1_0_0_1_n_n none A B (constant (F := Ideal) S4096x256 .f32 0x00000000#32) (ix2 p l)
      = ∑ r : Fin 256, A (ix2 p r) * B (ix2 r l) := by
  show FloatOps.matmul _ none A B _ (ix2 p l) = _
  rw [Ideal.matmul_constant_zero_apply,
    ← Equiv.sum_comp (contrEquiv1 dot_S4096x256_S256x256_S4096x256_1_0_0_1_n_n 256 rfl rfl).symm]
  refine Finset.sum_congr rfl fun r _ => ?_
  have cr := contrEquiv1_symm_val dot_S4096x256_S256x256_S4096x256_1_0_0_1_n_n 256 rfl rfl r
  have hl : dot_S4096x256_S256x256_S4096x256_1_0_0_1_n_n.lhsIdx (ix2 p l)
      ((contrEquiv1 dot_S4096x256_S256x256_S4096x256_1_0_0_1_n_n 256 rfl rfl).symm r) = ix2 p r :=
    Shape.idx_ext₂ (lhs2a_0 _ _) ((lhs2a_1 _ _).trans cr)
  have hr : dot_S4096x256_S256x256_S4096x256_1_0_0_1_n_n.rhsIdx (ix2 p l)
      ((contrEquiv1 dot_S4096x256_S256x256_S4096x256_1_0_0_1_n_n 256 rfl rfl).symm r) = ix2 r l :=
    Shape.idx_ext₂ ((rhs2a_0 _ _).trans cr) (rhs2a_1 _ _)
  rw [hl, hr]

/-- The same four readings for the 256-deep product into 8 columns. -/
theorem lhs2b_0 (j : S4096x8.Idx) (k : dot_S4096x256_S256x8_S4096x8_1_0_0_1_n_n.contr.Idx) :
    (dot_S4096x256_S256x8_S4096x8_1_0_0_1_n_n.lhsIdx j k 0 : ℕ) = j 0 := by
  simp [DotDims.lhsIdx, dot_S4096x256_S256x8_S4096x8_1_0_0_1_n_n]; rfl
theorem lhs2b_1 (j : S4096x8.Idx) (k : dot_S4096x256_S256x8_S4096x8_1_0_0_1_n_n.contr.Idx) :
    (dot_S4096x256_S256x8_S4096x8_1_0_0_1_n_n.lhsIdx j k 1 : ℕ) = k ⟨0, by decide⟩ := by
  simp [DotDims.lhsIdx, dot_S4096x256_S256x8_S4096x8_1_0_0_1_n_n]; rfl
theorem rhs2b_0 (j : S4096x8.Idx) (k : dot_S4096x256_S256x8_S4096x8_1_0_0_1_n_n.contr.Idx) :
    (dot_S4096x256_S256x8_S4096x8_1_0_0_1_n_n.rhsIdx j k 0 : ℕ) = k ⟨0, by decide⟩ := by
  simp [DotDims.rhsIdx, dot_S4096x256_S256x8_S4096x8_1_0_0_1_n_n]; rfl
theorem rhs2b_1 (j : S4096x8.Idx) (k : dot_S4096x256_S256x8_S4096x8_1_0_0_1_n_n.contr.Idx) :
    (dot_S4096x256_S256x8_S4096x8_1_0_0_1_n_n.rhsIdx j k 1 : ℕ) = j 1 := by
  simp [DotDims.rhsIdx, dot_S4096x256_S256x8_S4096x8_1_0_0_1_n_n]; rfl

/-- A 4096×256 by 256×8 product into the zero accumulator, at row p and column q. -/
theorem mm2b_apply (A : FVec Ideal S4096x256 .bf16) (B : FVec Ideal S256x8 .bf16) (p : Fin 4096) (q : Fin 8) :
    matmul dot_S4096x256_S256x8_S4096x8_1_0_0_1_n_n none A B (constant (F := Ideal) S4096x8 .f32 0x00000000#32) (ix2 p q)
      = ∑ l : Fin 256, A (ix2 p l) * B (ix2 l q) := by
  show FloatOps.matmul _ none A B _ (ix2 p q) = _
  rw [Ideal.matmul_constant_zero_apply,
    ← Equiv.sum_comp (contrEquiv1 dot_S4096x256_S256x8_S4096x8_1_0_0_1_n_n 256 rfl rfl).symm]
  refine Finset.sum_congr rfl fun l _ => ?_
  have cl := contrEquiv1_symm_val dot_S4096x256_S256x8_S4096x8_1_0_0_1_n_n 256 rfl rfl l
  have hl : dot_S4096x256_S256x8_S4096x8_1_0_0_1_n_n.lhsIdx (ix2 p q)
      ((contrEquiv1 dot_S4096x256_S256x8_S4096x8_1_0_0_1_n_n 256 rfl rfl).symm l) = ix2 p l :=
    Shape.idx_ext₂ (lhs2b_0 _ _) ((lhs2b_1 _ _).trans cl)
  have hr : dot_S4096x256_S256x8_S4096x8_1_0_0_1_n_n.rhsIdx (ix2 p q)
      ((contrEquiv1 dot_S4096x256_S256x8_S4096x8_1_0_0_1_n_n 256 rfl rfl).symm l) = ix2 l q :=
    Shape.idx_ext₂ ((rhs2b_0 _ _).trans cl) (rhs2b_1 _ _)
  rw [hl, hr]

/-! ## The body's value at an index -/

/-- One of the first layer's three products as the body spells it (the feature block cast to its own shape, the
    weight third cast to its own shape and narrowed), at row p and unit l. -/
theorem mm2a_cast_apply (x : Vec Ideal S4096x256 .bf16) (w : Vec Ideal S256x256 .f32) (p : Fin 4096) (l : Fin 256) :
    matmul dot_S4096x256_S256x256_S4096x256_1_0_0_1_n_n none
        (shapeCast S4096x256 x shapeCasts_S4096x256_S4096x256 : FVec Ideal S4096x256 .bf16)
        (truncf .bf16 (shapeCast S256x256 w shapeCasts_S256x256_S256x256 : FVec Ideal S256x256 .f32) bitsLt_bf16_f32 : FVec Ideal S256x256 .bf16)
        (constant (F := Ideal) S4096x256 .f32 0x00000000#32) (ix2 p l)
      = ∑ r : Fin 256, x (ix2 p r) * w (ix2 r l) := by
  rw [shapeCast_self, shapeCast_self]
  exact mm2a_apply x (truncf .bf16 (w : FVec Ideal S256x256 .f32) bitsLt_bf16_f32) p l

/-- The rectifier on a vector, as both layers spell it, at an index. -/
theorem leaky_vec_apply {s : Shape} (z : FVec Ideal s .f32) (i : s.Idx) :
    select (cmpf .ogt z (broadcast s (Scalar.ofBits (F := Ideal) .f32 0x00000000#32)))
        z (mulf (broadcast s (Scalar.ofBits (F := Ideal) .f32 0x3E4CCCCD#32)) z) i = Cert.Spec.leaky (z i) := rfl

/-- The second layer's product of the body, at row p and head q: over the 256 hidden units, the rectified first
    layer of row p of the three feature blocks times the second weight matrix's entry. -/
theorem pay2_apply (v0 v2 v4 : Vec Ideal S4096x256 .bf16) (v6 v9 v12 : Vec Ideal S256x256 .f32) (v20 : Vec Ideal S1x256 .f32)
    (v30 : Vec Ideal S256x8 .f32) (p : Fin 4096) (q : Fin 8) :
    k2_pay2 v0 v2 v4 v6 v9 v12 v20 v30 (ix2 p q)
      = ∑ l : Fin 256, Cert.Spec.leaky (Cert.Spec.attnPre v0 v2 v4 v6 v9 v12 v20 p l) * v30 (ix2 l q) := by
  unfold k2_pay2
  refine (mm2b_apply _ _ p q).trans ?_
  refine Finset.sum_congr rfl fun l _ => ?_
  refine congrArg₂ (· * ·) ?_ (truncf_apply (ψ := .bf16) (φ := .f32) v30 bitsLt_bf16_f32 (ix2 l q))
  refine (truncf_apply (ψ := .bf16) (φ := .f32) _ bitsLt_bf16_f32 (ix2 p l)).trans ?_
  refine (leaky_vec_apply _ (ix2 p l)).trans (congrArg Cert.Spec.leaky ?_)
  unfold Cert.Spec.attnPre
  refine (addf_apply _ _ _).trans (congrArg₂ (· + ·) ?_ ?_)
  · refine (addf_apply _ _ _).trans (congrArg₂ (· + ·) ?_ (mm2a_cast_apply v4 v12 p l))
    exact (addf_apply _ _ _).trans (congrArg₂ (· + ·) (mm2a_cast_apply v0 v6 p l) (mm2a_cast_apply v2 v9 p l))
  · rw [shapeCast_self]
    exact broadcastTo_1b_ab_apply v20 broadcasts_S1x256_S4096x256 p l

/-- THE BODY'S VALUE: what the body stores, from the nine blocks it loads, is the edge-score function of those
    blocks (the block's 4096 rows as the edges). -/
theorem pay_eq2 (v0 v2 v4 : Vec Ideal S4096x256 .bf16) (v6 v9 v12 : Vec Ideal S256x256 .f32) (v20 : Vec Ideal S1x256 .f32)
    (v30 : Vec Ideal S256x8 .f32) (v33 : Vec Ideal S1x8 .f32) :
    k2_pay1 (k2_pay2 v0 v2 v4 v6 v9 v12 v20 v30) (k2_pay3 v33) = Cert.Spec.attn v0 v2 v4 v6 v9 v12 v20 v30 v33 := by
  funext j
  obtain ⟨p, q, rfl⟩ : ∃ (p : Fin 4096) (q : Fin 8), j = ix2 p q := ⟨j 0, j 1, eq_ix2 j⟩
  unfold k2_pay1 k2_pay3
  refine (leaky_vec_apply _ _).trans (congrArg Cert.Spec.leaky ?_)
  refine (addf_apply _ _ _).trans (congrArg₂ (· + ·) (pay2_apply v0 v2 v4 v6 v9 v12 v20 v30 p q) ?_)
  rw [shapeCast_self]
  exact broadcastTo_1b_ab_apply v33 broadcasts_S1x8_S4096x8 p q

/-! ## The score of an edge reads its own rows -/

/-- Two settings of the score function agree at an index whenever the three edge arrays agree on that index's row,
    the weights and biases are the same, and the head is the same. -/
theorem attn_rows2 (qs kt eh : S262144x256.Idx → EReal) (bq bk be : S4096x256.Idx → EReal)
    (A1q A1k A1e B1q B1k B1e : S256x256.Idx → EReal) (a1 b1 : S1x256.Idx → EReal) (A2 B2 : S256x8.Idx → EReal) (a2 b2 : S1x8.Idx → EReal)
    (j : S4096x8.Idx) (i : S262144x8.Idx)
    (hq : ∀ r : Fin 256, bq (ix2 (j 0) r) = qs (ix2 (i 0) r)) (hk : ∀ r : Fin 256, bk (ix2 (j 0) r) = kt (ix2 (i 0) r))
    (he : ∀ r : Fin 256, be (ix2 (j 0) r) = eh (ix2 (i 0) r))
    (h3 : B1q = A1q) (h4 : B1k = A1k) (h5 : B1e = A1e) (h6 : b1 = a1) (h7 : B2 = A2) (h8 : b2 = a2) (h1 : (j 1 : ℕ) = (i 1 : ℕ)) :
    Cert.Spec.attn bq bk be B1q B1k B1e b1 B2 b2 j = Cert.Spec.attn qs kt eh A1q A1k A1e a1 A2 a2 i := by
  subst h3 h4 h5 h6 h7 h8
  have h1' : j 1 = i 1 := Fin.ext h1
  have hpre : ∀ l : Fin 256, Cert.Spec.attnPre bq bk be B1q B1k B1e b1 (j 0) l = Cert.Spec.attnPre qs kt eh B1q B1k B1e b1 (i 0) l := fun l => by
    unfold Cert.Spec.attnPre
    simp only [hq, hk, he]
  unfold Cert.Spec.attn
  simp only [hpre, h1']

/-! ## The blocks as rows of the arrays -/

variable (V : (c : Dev nD) → (b : Ref sig .tc) → Buf (Elt Ideal) ((c : Thread nD τ).loc b))

/-- The printed index maps, decided over the 64 points: the three edge windows and the output window are at block
    (t, 0), the six weight and bias windows at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Window 0's block at point t is rows 4096·t … of the source-query array, -/
theorem iblk2_0_apply (c : Dev nD) (t : Fin cfg2.N) (x : S4096x256.Idx) (k : S262144x256.Idx)
    (hk0 : (k 0).val = t.val * 4096 + (x 0).val) (hk1 : (k 1).val = (x 1).val) :
    (iblk2 V c 0 t : S4096x256.Idx → EReal) x = (V c main_v15 : S262144x256.Idx → EReal) k := by
  obtain ⟨e0, e1, -⟩ := idx_facts2 t
  unfold iblk2
  rw [View.read_apply]
  show (V c main_v15 : S262144x256.Idx → EReal) _ = _
  congr 1
  funext a
  apply Fin.ext
  match a with
  | ⟨0, _⟩ => show win2_0.index t (0 : Fin 2) * 4096 + 1 * (x 0).val = (k 0).val; rw [e0, hk0]; omega
  | ⟨1, _⟩ => show win2_0.index t (1 : Fin 2) * 256 + 1 * (x 1).val = (k 1).val; rw [e1, hk1]; omega
/-- window 1's of the target-key array, -/
theorem iblk2_1_apply (c : Dev nD) (t : Fin cfg2.N) (x : S4096x256.Idx) (k : S262144x256.Idx)
    (hk0 : (k 0).val = t.val * 4096 + (x 0).val) (hk1 : (k 1).val = (x 1).val) :
    (iblk2 V c 1 t : S4096x256.Idx → EReal) x = (V c main_v17 : S262144x256.Idx → EReal) k := by
  obtain ⟨-, -, e0, e1, -⟩ := idx_facts2 t
  unfold iblk2
  rw [View.read_apply]
  show (V c main_v17 : S262144x256.Idx → EReal) _ = _
  congr 1
  funext a
  apply Fin.ext
  match a with
  | ⟨0, _⟩ => show win2_1.index t (0 : Fin 2) * 4096 + 1 * (x 0).val = (k 0).val; rw [e0, hk0]; omega
  | ⟨1, _⟩ => show win2_1.index t (1 : Fin 2) * 256 + 1 * (x 1).val = (k 1).val; rw [e1, hk1]; omega
/-- window 2's of the edge-feature array. -/
theorem iblk2_2_apply (c : Dev nD) (t : Fin cfg2.N) (x : S4096x256.Idx) (k : S262144x256.Idx)
    (hk0 : (k 0).val = t.val * 4096 + (x 0).val) (hk1 : (k 1).val = (x 1).val) :
    (iblk2 V c 2 t : S4096x256.Idx → EReal) x = (V c main_v18 : S262144x256.Idx → EReal) k := by
  obtain ⟨-, -, -, -, e0, e1, -⟩ := idx_facts2 t
  unfold iblk2
  rw [View.read_apply]
  show (V c main_v18 : S262144x256.Idx → EReal) _ = _
  congr 1
  funext a
  apply Fin.ext
  match a with
  | ⟨0, _⟩ => show win2_2.index t (0 : Fin 2) * 4096 + 1 * (x 0).val = (k 0).val; rw [e0, hk0]; omega
  | ⟨1, _⟩ => show win2_2.index t (1 : Fin 2) * 256 + 1 * (x 1).val = (k 1).val; rw [e1, hk1]; omega

/-- The six weight and bias windows' blocks are their whole arrays at every point: the three thirds of the first
    weight matrix, -/
theorem iblk2_3_eq (c : Dev nD) (t : Fin cfg2.N) : (iblk2 V c 3 t : S256x256.Idx → EReal) = (V c main_v19 : S256x256.Idx → EReal) := by
  obtain ⟨-, -, -, -, -, -, e0, e1, -⟩ := idx_facts2 t
  funext x
  unfold iblk2
  rw [View.read_apply]
  show (V c main_v19 : S256x256.Idx → EReal) _ = _
  congr 1
  funext a
  apply Fin.ext
  match a with
  | ⟨0, _⟩ => show win2_3.index t (0 : Fin 2) * 256 + 1 * (x 0).val = (x 0).val; rw [e0]; omega
  | ⟨1, _⟩ => show win2_3.index t (1 : Fin 2) * 256 + 1 * (x 1).val = (x 1).val; rw [e1]; omega
theorem iblk2_4_eq (c : Dev nD) (t : Fin cfg2.N) : (iblk2 V c 4 t : S256x256.Idx → EReal) = (V c main_v20 : S256x256.Idx → EReal) := by
  obtain ⟨-, -, -, -, -, -, -, -, e0, e1, -⟩ := idx_facts2 t
  funext x
  unfold iblk2
  rw [View.read_apply]
  show (V c main_v20 : S256x256.Idx → EReal) _ = _
  congr 1
  funext a
  apply Fin.ext
  match a with
  | ⟨0, _⟩ => show win2_4.index t (0 : Fin 2) * 256 + 1 * (x 0).val = (x 0).val; rw [e0]; omega
  | ⟨1, _⟩ => show win2_4.index t (1 : Fin 2) * 256 + 1 * (x 1).val = (x 1).val; rw [e1]; omega
theorem iblk2_5_eq (c : Dev nD) (t : Fin cfg2.N) : (iblk2 V c 5 t : S256x256.Idx → EReal) = (V c main_v21 : S256x256.Idx → EReal) := by
  obtain ⟨-, -, -, -, -, -, -, -, -, -, e0, e1, -⟩ := idx_facts2 t
  funext x
  unfold iblk2
  rw [View.read_apply]
  show (V c main_v21 : S256x256.Idx → EReal) _ = _
  congr 1
  funext a
  apply Fin.ext
  match a with
  | ⟨0, _⟩ => show win2_5.index t (0 : Fin 2) * 256 + 1 * (x 0).val = (x 0).val; rw [e0]; omega
  | ⟨1, _⟩ => show win2_5.index t (1 : Fin 2) * 256 + 1 * (x 1).val = (x 1).val; rw [e1]; omega
/-- the first bias row, -/
theorem iblk2_6_eq (c : Dev nD) (t : Fin cfg2.N) : (iblk2 V c 6 t : S1x256.Idx → EReal) = (V c main_v22 : S1x256.Idx → EReal) := by
  obtain ⟨-, -, -, -, -, -, -, -, -, -, -, -, e0, e1, -⟩ := idx_facts2 t
  funext x
  unfold iblk2
  rw [View.read_apply]
  show (V c main_v22 : S1x256.Idx → EReal) _ = _
  congr 1
  funext a
  apply Fin.ext
  match a with
  | ⟨0, _⟩ => show win2_6.index t (0 : Fin 2) * 1 + 1 * (x 0).val = (x 0).val; rw [e0]; omega
  | ⟨1, _⟩ => show win2_6.index t (1 : Fin 2) * 256 + 1 * (x 1).val = (x 1).val; rw [e1]; omega
/-- the second weight matrix, -/
theorem iblk2_7_eq (c : Dev nD) (t : Fin cfg2.N) : (iblk2 V c 7 t : S256x8.Idx → EReal) = (V c main_arg15 : S256x8.Idx → EReal) := by
  obtain ⟨-, -, -, -, -, -, -, -, -, -, -, -, -, -, e0, e1, -⟩ := idx_facts2 t
  funext x
  unfold iblk2
  rw [View.read_apply]
  show (V c main_arg15 : S256x8.Idx → EReal) _ = _
  congr 1
  funext a
  apply Fin.ext
  match a with
  | ⟨0, _⟩ => show win2_7.index t (0 : Fin 2) * 256 + 1 * (x 0).val = (x 0).val; rw [e0]; omega
  | ⟨1, _⟩ => show win2_7.index t (1 : Fin 2) * 8 + 1 * (x 1).val = (x 1).val; rw [e1]; omega
/-- the second bias row. -/
theorem iblk2_8_eq (c : Dev nD) (t : Fin cfg2.N) : (iblk2 V c 8 t : S1x8.Idx → EReal) = (V c main_v23 : S1x8.Idx → EReal) := by
  obtain ⟨-, -, -, -, -, -, -, -, -, -, -, -, -, -, -, -, e0, e1, -⟩ := idx_facts2 t
  funext x
  unfold iblk2
  rw [View.read_apply]
  show (V c main_v23 : S1x8.Idx → EReal) _ = _
  congr 1
  funext a
  apply Fin.ext
  match a with
  | ⟨0, _⟩ => show win2_8.index t (0 : Fin 2) * 1 + 1 * (x 0).val = (x 0).val; rw [e0]; omega
  | ⟨1, _⟩ => show win2_8.index t (1 : Fin 2) * 8 + 1 * (x 1).val = (x 1).val; rw [e1]; omega

/-! ## From blocks to the array -/

/-- The scores array as one function of the nine arrays the region finds. -/
abbrev G2 (c : Dev nD) : S262144x8.Idx → EReal :=
  Cert.Spec.attn (V c main_v15 : S262144x256.Idx → EReal) (V c main_v17 : S262144x256.Idx → EReal) (V c main_v18 : S262144x256.Idx → EReal)
    (V c main_v19 : S256x256.Idx → EReal) (V c main_v20 : S256x256.Idx → EReal) (V c main_v21 : S256x256.Idx → EReal)
    (V c main_v22 : S1x256.Idx → EReal) (V c main_arg15 : S256x8.Idx → EReal) (V c main_v23 : S1x8.Idx → EReal)

/-- WHAT POINT t WRITES BACK is block t of the scores function of the arrays as the region finds them. -/
theorem flushed2_eq (c : Dev nD) (t : Fin cfg2.N) :
    (dat2 (F := Ideal) V c).flushed 9 t = ((cfg2.win 9).blk t).view.read (Elt Ideal) (G2 V c) := by
  show (cfg2.win 9).cut (grid2.coords t) ((dat2 (F := Ideal) V c).after 9 t) = _
  rw [after2_9]
  unfold out2_9
  rw [View.canon_unit_zero hz2]
  simp only [View.ld_unit_zero (S := S4096x256) hz2, View.ld_unit_zero (S := S256x256) hz2, View.ld_unit_zero (S := S1x256) hz2,
    View.ld_unit_zero (S := S256x8) hz2, View.ld_unit_zero (S := S1x8) hz2]
  rw [pay_eq2]
  obtain ⟨-, -, -, -, -, -, -, -, -, -, -, -, -, -, -, -, -, -, e90, e91⟩ := idx_facts2 t
  funext j
  refine attn_rows2 (V c main_v15) (V c main_v17) (V c main_v18) (iblk2 V c 0 t) (iblk2 V c 1 t) (iblk2 V c 2 t)
    (V c main_v19) (V c main_v20) (V c main_v21) (iblk2 V c 3 t) (iblk2 V c 4 t) (iblk2 V c 5 t) (V c main_v22) (iblk2 V c 6 t)
    (V c main_arg15) (iblk2 V c 7 t) (V c main_v23) (iblk2 V c 8 t) _ (((cfg2.win 9).blk t).view.emb j)
    (fun r => iblk2_0_apply V c t _ _ ?_ rfl) (fun r => iblk2_1_apply V c t _ _ ?_ rfl) (fun r => iblk2_2_apply V c t _ _ ?_ rfl)
    (iblk2_3_eq V c t) (iblk2_4_eq V c t) (iblk2_5_eq V c t) (iblk2_6_eq V c t) (iblk2_7_eq V c t) (iblk2_8_eq V c t) ?_
  · show win2_9.index t (0 : Fin 2) * 4096 + 1 * (j 0).val = t.val * 4096 + (j 0).val; rw [e90]; omega
  · show win2_9.index t (0 : Fin 2) * 4096 + 1 * (j 0).val = t.val * 4096 + (j 0).val; rw [e90]; omega
  · show win2_9.index t (0 : Fin 2) * 4096 + 1 * (j 0).val = t.val * 4096 + (j 0).val; rw [e90]; omega
  · show (j 1).val = win2_9.index t (1 : Fin 2) * 8 + 1 * (j 1).val; rw [e91]; omega

/-- An index of the scores array is in point t's block iff each coordinate is in the block's range on its axis. -/
theorem mem_blk2 (t : Fin cfg2.N) (i : S262144x8.Idx) :
    i ∈ ((cfg2.win 9).blk t).view.set ↔ ∀ a : Fin 2, win2_9.index t a * S4096x8.size a ≤ (i a).val ∧ (i a).val < win2_9.index t a * S4096x8.size a + S4096x8.size a := by
  show i ∈ ((View.whole main_v24).slice (win2_9.rect t)).set ↔ _
  rw [View.set_slice_whole, Rect.mem_set_unit]
  exact Iff.rfl

/-- Every row of the scores array is in the block of the point its number divided by 4096 names. -/
theorem cover2 (i : S262144x8.Idx) : ∃ t : Fin cfg2.N, (cfg2.win 9).flush t = true ∧ i ∈ ((cfg2.win 9).blk t).view.set := by
  have hi0 : (i 0).val < 262144 := (i 0).isLt
  have hi1 : (i 1).val < 8 := (i 1).isLt
  have hN : cfg2.N = 64 := N_2
  have ht : (i 0).val / 4096 < cfg2.N := by rw [hN]; omega
  obtain ⟨-, -, -, -, -, -, -, -, -, -, -, -, -, -, -, -, -, -, e90, e91⟩ := idx_facts2 ⟨(i 0).val / 4096, ht⟩
  refine ⟨⟨(i 0).val / 4096, ht⟩, flush2_9 _, ?_⟩
  rw [mem_blk2]
  intro a
  match a with
  | ⟨0, _⟩ =>
    show win2_9.index ⟨(i 0).val / 4096, ht⟩ (0 : Fin 2) * 4096 ≤ (i 0).val ∧ (i 0).val < win2_9.index ⟨(i 0).val / 4096, ht⟩ (0 : Fin 2) * 4096 + 4096
    rw [e90]
    show (i 0).val / 4096 * 4096 ≤ (i 0).val ∧ (i 0).val < (i 0).val / 4096 * 4096 + 4096
    omega
  | ⟨1, _⟩ =>
    show win2_9.index ⟨(i 0).val / 4096, ht⟩ (1 : Fin 2) * 8 ≤ (i 1).val ∧ (i 1).val < win2_9.index ⟨(i 0).val / 4096, ht⟩ (1 : Fin 2) * 8 + 8
    rw [e91]
    omega

/-- THE ARRAY after all points: the scores function of the nine arrays the region finds. -/
theorem final2 (c : Dev nD) :
    (dat2 (F := Ideal) V c).arrAt 9 cfg2.N
      = Cert.Spec.attn (V c main_v15 : S262144x256.Idx → EReal) (V c main_v17 : S262144x256.Idx → EReal) (V c main_v18 : S262144x256.Idx → EReal)
          (V c main_v19 : S256x256.Idx → EReal) (V c main_v20 : S256x256.Idx → EReal) (V c main_v21 : S256x256.Idx → EReal)
          (V c main_v22 : S1x256.Idx → EReal) (V c main_arg15 : S256x8.Idx → EReal) (V c main_v23 : S1x8.Idx → EReal) :=
  (dat2 (F := Ideal) V c).arrAt_eq_of_cover 9 (G2 V c) (fun t _ => flushed2_eq V c t) cover2

end Cert.KernelIdeal.Val

end
-- ==== Proof.LibColumn.lean ====
/-
  A column kept as a [a, 1] array: the three readings a row reduction with `keepdims` needs.
  A vector of `a` entries cast to [a, 1] reads at (r, 0) its entry r; a [a, 1] column broadcast along a second axis of
  extent b reads at (r, k) the column's entry (r, 0); and the source index of a reduction of a [a, b] array over its
  second axis, at result position r with reduced coordinate k, is (r, k).
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- An `[a]` array cast to `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column broadcast to `[a, b]` reads, at `(r, k)`, the column at `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- Reducing an `[a, b]` array over its second axis: the source index over result position `r` with reduced
    coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

end Cert.LibColumn
-- ==== Proof.KI.Val3.lean ====
/-
  Region 3 of the kernel program at the extended reals: the result array after all eight grid points, as ONE function
  of the arrays the region finds.

  The body's value at (p, q) of its 2048×256 block: with x = the sum of the two summand blocks, row p of x has its mean
  (the row sum over 256) taken off, is scaled by the reciprocal square root of the row's mean squared deviation plus
  epsilon, multiplied by the gain row at q and shifted by the shift row at q — the normalisation `Spec.lnMul` of the
  block (`pay3_apply`). Row p of the block at grid point t is row 2048·t + p of each summand array, and the gain and
  shift blocks are the whole rows at every point; a row's normalisation depends on that row only, so point t writes
  back block t of the normalisation of the whole arrays (`flushed3`). The point that covers row r is r / 2048, so the
  eight blocks cover the array (`cover3`) and the array ends at the normalisation of the arrays (`final3`).
-/
import proofs.«408511_j55722905699140_1_alg».proof.Proof.KI.R3
import proofs.«408511_j55722905699140_1_alg».proof.Proof.Spec
import proofs.«408511_j55722905699140_1_alg».proof.Proof.LibColumn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's value at an index of its block -/

/-- The reciprocal square root of a vector, read at an index. -/
theorem rsqrt3_apply {s : Shape} {φ : FTy} (a : FVec Ideal s φ) (i : s.Idx) : rsqrt a i = Ideal.rsqrt (a i) := rfl

/-- The sum along a row, kept as a column: at (p, 0) the sum of row p. -/
theorem rowSum3_apply (src : FVec Ideal S2048x256 .f32) (p : Fin 2048) (u : Fin 1) :
    shapeCast S2048x1 (multiReduction .add [1] S2048 src 0x00000000#32 reduces_S2048x256_S2048 (.inl rfl) rfl) shapeCasts_S2048_S2048x1 (ix2 p u)
      = ∑ l : Fin 256, src (ix2 p l) := by
  rw [Cert.LibColumn.shapeCast_a_a1_apply]
  refine (Ideal.multiReduction_add_single src _ _ _ _ (ix1 p)).trans ?_
  exact Finset.sum_congr rfl fun k _ => congrArg src (Cert.LibColumn.lift_axis1 _ p k)

/-- The body's value at (p, q) is the row normalisation of the sum of its two summand blocks, with its gain and shift
    blocks. -/
theorem pay3_apply (x0 x1 : Vec Ideal S2048x256 .f32) (x2 x3 : Vec Ideal S1x256 .f32) (p : Fin 2048) (q : Fin 256) :
    (k3_pay1 (F := Ideal) x0 x1 x2 x3) (ix2 p q) = Cert.Spec.lnMul (fun j => x0 j + x1 j) x2 x3 (ix2 p q) := by
  unfold k3_pay1
  dsimp only
  simp only [shapeCast_self]
  simp only [addf_apply, mulf_apply, subf_apply, divf_apply, broadcast_apply, rsqrt3_apply,
    broadcastTo_1b_ab_apply, Cert.LibColumn.broadcastTo_a1_ab_apply, Ideal.ofBits_def]
  rw [rowSum3_apply, rowSum3_apply]
  simp only [addf_apply, mulf_apply, subf_apply, divf_apply, broadcast_apply, Cert.LibColumn.broadcastTo_a1_ab_apply]
  rw [rowSum3_apply]
  simp only [addf_apply]
  rfl

/-- The normalisation at (p, q), written out: it reads row p of the array and column q of the two rows. -/
theorem lnMul_ix2 {n : Nat} (x : Cert.Spec.Arr2 n 256) (g b : Cert.Spec.Arr2 1 256) (p : Fin n) (q : Fin 256) :
    Cert.Spec.lnMul x g b (ix2 p q)
      = ((x (ix2 p q) - Ideal.div (∑ l : Fin 256, x (ix2 p l)) Cert.Spec.c256)
          * Ideal.rsqrt (Ideal.div (∑ l : Fin 256, (x (ix2 p l) - Ideal.div (∑ l' : Fin 256, x (ix2 p l')) Cert.Spec.c256)
              * (x (ix2 p l) - Ideal.div (∑ l' : Fin 256, x (ix2 p l')) Cert.Spec.c256)) Cert.Spec.c256 + Cert.Spec.epsF))
          * g (ix2 (0 : Fin 1) q) + b (ix2 (0 : Fin 1) q) := rfl

/-- So when row p of the two summand blocks is row P of two arrays, and the gain and shift blocks are two rows, the body's
    value at (p, q) is the normalisation of the arrays at (P, q). -/
theorem block_value3 (A0 A1 : S16384x256.Idx → EReal) (g b : S1x256.Idx → EReal)
    (x0 x1 : Vec Ideal S2048x256 .f32) (x2 x3 : Vec Ideal S1x256 .f32) (P : Fin 16384) (p : Fin 2048) (q : Fin 256)
    (h0 : ∀ l : Fin 256, x0 (ix2 p l) = A0 (ix2 P l)) (h1 : ∀ l : Fin 256, x1 (ix2 p l) = A1 (ix2 P l))
    (h2 : ∀ l : Fin 256, x2 (ix2 (0 : Fin 1) l) = g (ix2 (0 : Fin 1) l)) (h3 : ∀ l : Fin 256, x3 (ix2 (0 : Fin 1) l) = b (ix2 (0 : Fin 1) l)) :
    (k3_pay1 (F := Ideal) x0 x1 x2 x3) (ix2 p q) = Cert.Spec.lnMul (fun j => A0 j + A1 j) g b (ix2 P q) := by
  rw [pay3_apply, lnMul_ix2, lnMul_ix2]
  simp only [h0, h1, h2, h3]

/-! ## From the blocks to the array -/

theorem hz3 : (![0, 0] : Fin 2 → Nat) = fun _ => 0 := funext fun a => by
  match a with
  | ⟨0, _⟩ => rfl
  | ⟨1, _⟩ => rfl

/-- The printed index maps, decided over the grid: the summand and result blocks move down the rows with the point, the
    gain and shift blocks stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

-- the core's buffer contents when the region is entered
variable (V : (c : Dev nD) → (b : Ref sig .tc) → Buf (Elt Ideal) ((c : Thread nD τ).loc b))

/-- The four arrays the region reads, at their literal types. -/
abbrev arrH3 (c : Dev nD) : S16384x256.Idx → EReal := V c main_v4
abbrev arrA3 (c : Dev nD) : S16384x256.Idx → EReal := V c main_v49
abbrev rowG3 (c : Dev nD) : S1x256.Idx → EReal := V c main_v50
abbrev rowB3 (c : Dev nD) : S1x256.Idx → EReal := V c main_v51

/-- What the result array ends holding: the normalisation of the sum of the two summand arrays. -/
abbrev G3 (c : Dev nD) : S16384x256.Idx → EReal :=
  Cert.Spec.lnMul (fun j => arrH3 V c j + arrA3 V c j) (rowG3 V c) (rowB3 V c)

/-- WHAT POINT t WRITES BACK is block t of `G3`. -/
theorem flushed3 (c : Dev nD) (t : Fin cfg3.N) :
    (dat3 (F := Ideal) V c).flushed 4 t = ((cfg3.win 4).blk t).view.read (Elt Ideal) (G3 V c) := by
  show (cfg3.win 4).cut (grid3.coords t) ((dat3 (F := Ideal) V c).after 4 t) = _
  rw [after3_4]
  unfold out3_4
  rw [View.canon_unit_zero hz3]
  simp only [View.ld_unit_zero (S := S2048x256) hz3, View.ld_unit_zero (S := S1x256) hz3]
  obtain ⟨e00, e01, e10, e11, e20, e21, e30, e31, e40, e41⟩ := idx_facts3 t
  have ht : t.val < 8 := lt_of_lt_of_eq t.isLt N_3
  funext j
  obtain ⟨p, q, rfl⟩ : ∃ (p : Fin 2048) (q : Fin 256), j = ix2 p q := ⟨j 0, j 1, eq_ix2 j⟩
  have hp : p.val < 2048 := p.isLt
  have hq : q.val < 256 := q.isLt
  show (k3_pay1 (F := Ideal) (iblk3 V c 0 t) (iblk3 V c 1 t) (iblk3 V c 2 t) (iblk3 V c 3 t)) (ix2 p q)
    = G3 V c (((cfg3.win 4).blk t).view.emb (ix2 p q))
  have hemb : ((cfg3.win 4).blk t).view.emb (ix2 p q) = ix2 (⟨t.val * 2048 + p.val, by omega⟩ : Fin 16384) q := by
    funext a; apply Fin.ext
    match a with
    | ⟨0, _⟩ => show win3_4.index t (0 : Fin 2) * 2048 + 1 * p.val = t.val * 2048 + p.val; rw [e40]; omega
    | ⟨1, _⟩ => show win3_4.index t (1 : Fin 2) * 256 + 1 * q.val = q.val; rw [e41]; omega
  rw [hemb]
  refine block_value3 (arrH3 V c) (arrA3 V c) (rowG3 V c) (rowB3 V c) (iblk3 V c 0 t) (iblk3 V c 1 t) (iblk3 V c 2 t) (iblk3 V c 3 t)
    (⟨t.val * 2048 + p.val, by omega⟩ : Fin 16384) p q (fun l => ?_) (fun l => ?_) (fun l => ?_) (fun l => ?_)
  · have hl : l.val < 256 := l.isLt
    show V c main_v4 (((cfg3.win 0).blk t).view.emb (ix2 p l)) = V c main_v4 (ix2 (⟨t.val * 2048 + p.val, by omega⟩ : Fin 16384) l)
    refine congrArg (V c main_v4) (funext fun a => Fin.ext ?_)
    match a with
    | ⟨0, _⟩ => show win3_0.index t (0 : Fin 2) * 2048 + 1 * p.val = t.val * 2048 + p.val; rw [e00]; omega
    | ⟨1, _⟩ => show win3_0.index t (1 : Fin 2) * 256 + 1 * l.val = l.val; rw [e01]; omega
  · have hl : l.val < 256 := l.isLt
    show V c main_v49 (((cfg3.win 1).blk t).view.emb (ix2 p l)) = V c main_v49 (ix2 (⟨t.val * 2048 + p.val, by omega⟩ : Fin 16384) l)
    refine congrArg (V c main_v49) (funext fun a => Fin.ext ?_)
    match a with
    | ⟨0, _⟩ => show win3_1.index t (0 : Fin 2) * 2048 + 1 * p.val = t.val * 2048 + p.val; rw [e10]; omega
    | ⟨1, _⟩ => show win3_1.index t (1 : Fin 2) * 256 + 1 * l.val = l.val; rw [e11]; omega
  · have hl : l.val < 256 := l.isLt
    show V c main_v50 (((cfg3.win 2).blk t).view.emb (ix2 (0 : Fin 1) l)) = V c main_v50 (ix2 (0 : Fin 1) l)
    refine congrArg (V c main_v50) (funext fun a => Fin.ext ?_)
    match a with
    | ⟨0, _⟩ => show win3_2.index t (0 : Fin 2) * 1 + 1 * 0 = 0; rw [e20]
    | ⟨1, _⟩ => show win3_2.index t (1 : Fin 2) * 256 + 1 * l.val = l.val; rw [e21]; omega
  · have hl : l.val < 256 := l.isLt
    show V c main_v51 (((cfg3.win 3).blk t).view.emb (ix2 (0 : Fin 1) l)) = V c main_v51 (ix2 (0 : Fin 1) l)
    refine congrArg (V c main_v51) (funext fun a => Fin.ext ?_)
    match a with
    | ⟨0, _⟩ => show win3_3.index t (0 : Fin 2) * 1 + 1 * 0 = 0; rw [e30]
    | ⟨1, _⟩ => show win3_3.index t (1 : Fin 2) * 256 + 1 * l.val = l.val; rw [e31]; omega

/-- An index of the array is in point t's block iff each coordinate is in the block's range on its axis. -/
theorem mem_blk3 (t : Fin cfg3.N) (i : S16384x256.Idx) :
    i ∈ ((cfg3.win 4).blk t).view.set ↔ ∀ a : Fin 2, win3_4.index t a * S2048x256.size a ≤ (i a).val ∧ (i a).val < win3_4.index t a * S2048x256.size a + S2048x256.size a := by
  show i ∈ ((View.whole main_v52).slice (win3_4.rect t)).set ↔ _
  rw [View.set_slice_whole, Rect.mem_set_unit]
  exact Iff.rfl

/-- Every index of the array is in some point's block: row r is in the block of point r / 2048. -/
theorem cover3 (i : S16384x256.Idx) : ∃ t : Fin cfg3.N, (cfg3.win 4).flush t = true ∧ i ∈ ((cfg3.win 4).blk t).view.set := by
  have hi0 : (i 0).val < 16384 := (i 0).isLt
  have hi1 : (i 1).val < 256 := (i 1).isLt
  obtain ⟨t, ht⟩ : ∃ t : Fin cfg3.N, t.val = (i 0).val / 2048 :=
    ⟨⟨(i 0).val / 2048, lt_of_lt_of_eq (by omega : (i 0).val / 2048 < 8) N_3.symm⟩, rfl⟩
  obtain ⟨_, _, _, _, _, _, _, _, e40, e41⟩ := idx_facts3 t
  refine ⟨t, flush3_4 t, ?_⟩
  rw [mem_blk3]
  intro a
  match a with
  | ⟨0, _⟩ =>
    show win3_4.index t (0 : Fin 2) * 2048 ≤ (i 0).val ∧ (i 0).val < win3_4.index t (0 : Fin 2) * 2048 + 2048
    rw [e40, ht]; omega
  | ⟨1, _⟩ =>
    show win3_4.index t (1 : Fin 2) * 256 ≤ (i 1).val ∧ (i 1).val < win3_4.index t (1 : Fin 2) * 256 + 256
    rw [e41]; omega

/-- THE RESULT ARRAY after the region: the normalisation of the sum of the two summand arrays, with the gain and shift rows. -/
theorem final3 (c : Dev nD) :
    (Cert.KernelIdeal.Hand.dat3 (F := Ideal) V c).arrAt 4 cfg3.N
      = Cert.Spec.lnMul (fun j => arrH3 V c j + arrA3 V c j) (rowG3 V c) (rowB3 V c) :=
  (dat3 (F := Ideal) V c).arrAt_eq_of_cover 4 (G3 V c) (fun t _ => flushed3 V c t) cover3

end Cert.KernelIdeal.Val

end
-- ==== Proof.KI.Range.lean ====
/-
  The range of the edge indices. The precondition ends with the conjunct "every entry of the integer input
  (the [2, 262144] array of edge end points) lies in -16384 ≤ entry < 16384", printed as a signed compare against
  each bound, their conjunction, a reduction by "and" over both axes, and the last "and" of the chain.
  * `idx_range`: the conjunct read back at one entry, as two inequalities between integers.
  * `takeRows_eq`: an index in that range, wrapped (a negative `a` becomes `a + 16384`), lies in 0 … 16383, so the row
    test of the guarded gather holds at every row and the guarded gather is the plain gather at the wrapped indices.
  * `normIdx_range`, `normIdx_at`: an entry of the wrapped index column lies in 0 … 16383, and row `e` of the column is
    the wrapped index of entry `e`.
  * `src_range`, `tgt_range`: the two rows of the index array, taken out as vectors, hold entries of the array.
-/
import proofs.«408511_j55722905699140_1_alg».proof.Defs
import proofs.«408511_j55722905699140_1_alg».proof.Proof.Gen.Pre_finite_inputs
import proofs.«408511_j55722905699140_1_alg».proof.Proof.KI.HostFns
import Idealize.ShloMosaic.Lib.ReduceAll
import Idealize.ShloMosaic.Lib.ValueIdx
import Idealize.ShloMosaic.Lib.Pipeline.Value
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.SL.Sem

/-- The shape of a scalar has one index. -/
instance : Subsingleton Cert.Pre_finite_inputs.S_.Idx := ⟨fun a b => funext fun d => d.elim0⟩

/-- A 32-bit word that passes the two signed compares of the conjunct lies in the range, as an integer. -/
theorem word_range (a : BitVec 32) (h1 : IntOp.cmpi .sge a 4294950912#32 = 1#1) (h2 : IntOp.cmpi .slt a 16384#32 = 1#1) :
    (-16384 : Int) ≤ a.toInt ∧ a.toInt < 16384 := by
  unfold IntOp.cmpi at h1 h2
  rw [StableHlo.Predicate.ofBool_eq_one_iff] at h1 h2
  simp only [BitVec.sle, BitVec.slt, decide_eq_true_eq] at h1 h2
  have e1 : (4294950912#32 : BitVec 32).toInt = -16384 := by decide
  have e2 : (16384#32 : BitVec 32).toInt = 16384 := by decide
  rw [e1] at h1
  rw [e2] at h2
  exact ⟨h1, h2⟩

/-- Every entry of the edge-index input is in the range, on every core. -/
theorem idx_range (m : (ℓ : Loc Cert.KernelIdeal.nD Cert.KernelIdeal.τ Cert.KernelIdeal.sig) → Buf (Elt Ideal) ℓ)
    (hpre : Cert.Pre_KernelIdeal m) (c : Dev nD) (i : S2x262144.Idx) :
    (-16384 : Int) ≤ (m ((c.tc : Thread nD τ).loc main_arg1) i).toInt
      ∧ (m ((c.tc : Thread nD τ).loc main_arg1) i).toInt < 16384 := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  -- the last "and" of the chain: keep its second operand, the reduction over the index array
  have e2 := (IntOp.andi_eq_one.1 e).2
  -- the reduction over both axes is 1, so its operand is 1 at the entry
  have e3 := Host.reduce_andi_all _ _ _ _ _ e2 i
  -- the operand at the entry: the conjunction of the two compares of the entry against the constants
  have e4 := IntOp.andi_eq_one.1 e3
  exact word_range _ e4.1 e4.2

/-! ## The guarded gather is the plain gather when every index is in the range -/

/-- A left fold by "and" over one-bit words that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e11 : IntOp.andi (1#1) (1#1) = 1#1 := by decide
    rw [List.foldl_cons, hf a, e11]
    exact foldl_andi_ones f hf l

/-- A reduction by "and" of an array of 1s from the initial value 1 is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- The wrapped index of a word in the range: `a + 16384` where `a` is negative (the 32-bit sum does not wrap:
    it lies in 0 … 16383), else `a`. It passes both compares of the row test, 0 ≤ n and n ≤ 16383. -/
theorem wrap_in_rows (a : BitVec 32) (h : (-16384 : Int) ≤ a.toInt ∧ a.toInt < 16384) :
    IntOp.cmpi .sge (Scalar.select (IntOp.cmpi .slt a 0#32) (IntOp.addi a 16384#32) a) 0#32 = 1#1
      ∧ IntOp.cmpi .sle (Scalar.select (IntOp.cmpi .slt a 0#32) (IntOp.addi a 16384#32) a) 16383#32 = 1#1 := by
  have e0 : (0#32 : BitVec 32).toInt = 0 := by decide
  have e1 : (16383#32 : BitVec 32).toInt = 16383 := by decide
  have e2 : (16384#32 : BitVec 32).toInt = 16384 := by decide
  have hn : ∀ b : BitVec 32, (0 : Int) ≤ b.toInt → b.toInt ≤ 16383 →
      IntOp.cmpi .sge b 0#32 = 1#1 ∧ IntOp.cmpi .sle b 16383#32 = 1#1 := by
    intro b h0 h1
    unfold IntOp.cmpi
    rw [StableHlo.Predicate.ofBool_eq_one_iff, StableHlo.Predicate.ofBool_eq_one_iff]
    simp only [BitVec.sle, decide_eq_true_eq]
    rw [e0, e1]
    exact ⟨h0, h1⟩
  by_cases hneg : a.toInt < 0
  · have hc : IntOp.cmpi .slt a 0#32 = 1#1 := by
      unfold IntOp.cmpi
      rw [StableHlo.Predicate.ofBool_eq_one_iff]
      simp only [BitVec.slt, decide_eq_true_eq]
      rw [e0]
      exact hneg
    have hadd : (IntOp.addi a 16384#32).toInt = a.toInt + 16384 := by
      unfold IntOp.addi
      rw [BitVec.toInt_add, e2]
      exact Int.bmod_eq_of_le (by omega) (by omega)
    rw [hc, ValueIdx.select_one]
    exact hn _ (by omega) (by omega)
  · have hc : IntOp.cmpi .slt a 0#32 = 0#1 := by
      apply ValueIdx.eq_zero_of_ne_one
      unfold IntOp.cmpi
      rw [StableHlo.Predicate.ofBool_eq_one_iff]
      simp only [BitVec.slt, decide_eq_true_eq]
      rw [e0]
      exact hneg
    rw [hc, ValueIdx.select_zero]
    exact hn _ (by omega) (by omega)

/-- An entry of the wrapped index column is the wrapped index of some entry of the index vector. -/
theorem normIdx_apply (idx : IVec S262144 32) (i : S262144x1.Idx) :
    ∃ k : S262144.Idx, normIdx idx i
      = Scalar.select (IntOp.cmpi .slt (idx k) 0#32) (IntOp.addi (idx k) 16384#32) (idx k) :=
  ⟨_, rfl⟩

/-- The row test holds at every row when every index is in the range. -/
theorem inRows_normIdx (idx : IVec S262144 32)
    (h : ∀ e : S262144.Idx, (-16384 : Int) ≤ (idx e).toInt ∧ (idx e).toInt < 16384) (k : S262144.Idx) :
    inRows (normIdx idx) k = 1#1 := by
  unfold inRows
  refine reduce_andi_ones _ _ _ _ (fun i => ?_) (fun _ => rfl) k
  show IntOp.andi (IntOp.cmpi .sge (normIdx idx i) 0#32) (IntOp.cmpi .sle (normIdx idx i) 16383#32) = 1#1
  obtain ⟨k', hk'⟩ := normIdx_apply idx i
  have hw := wrap_in_rows (idx k') (h k')
  rw [hk', hw.1, hw.2]
  decide

/-- An entry of the wrapped index column is an integer in 0 … 16383 when every index is in the range. -/
theorem normIdx_range (idx : IVec S262144 32)
    (h : ∀ e : S262144.Idx, (-16384 : Int) ≤ (idx e).toInt ∧ (idx e).toInt < 16384) (i : S262144x1.Idx) :
    (0 : Int) ≤ (normIdx idx i).toInt ∧ (normIdx idx i).toInt ≤ 16383 := by
  obtain ⟨k', hk'⟩ := normIdx_apply idx i
  have hw := wrap_in_rows (idx k') (h k')
  rw [← hk'] at hw
  obtain ⟨h0, h1⟩ := hw
  unfold IntOp.cmpi at h0 h1
  rw [StableHlo.Predicate.ofBool_eq_one_iff] at h0 h1
  simp only [BitVec.sle, decide_eq_true_eq] at h0 h1
  have e0 : (0#32 : BitVec 32).toInt = 0 := by decide
  have e1 : (16383#32 : BitVec 32).toInt = 16383 := by decide
  rw [e0] at h0
  rw [e1] at h1
  exact ⟨h0, h1⟩

/-- Row `e` of the wrapped index column is the wrapped index of entry `e`. -/
theorem normIdx_at (idx : IVec S262144 32) (e : Fin 262144) (z : Fin 1) :
    normIdx idx (ValueIdx.ix2 e z)
      = Scalar.select (IntOp.cmpi .slt (idx (ValueIdx.ix1 e)) 0#32) (IntOp.addi (idx (ValueIdx.ix1 e)) 16384#32)
          (idx (ValueIdx.ix1 e)) := by
  unfold normIdx
  rw [broadcastInDim_apply (k := ValueIdx.ix1 e)]
  · rfl
  · intro a
    match a with
    | ⟨0, _⟩ => rfl

variable {F : FTy → Type} [FloatOps F]

/-- With every index in the range the guarded gather never takes its fill row: it is the plain gather at the wrapped
    indices. -/
theorem takeRows_eq (x : FVec F S16384x256 .f32) (idx : IVec S262144 32)
    (h : ∀ e : S262144.Idx, (-16384 : Int) ≤ (idx e).toInt ∧ (idx e).toInt < 16384) :
    takeRows x idx = gatherRows x (normIdx idx) := by
  funext j
  unfold takeRows
  have hb : broadcastInDim S262144x256 ![0] bcast_S262144_S262144x256_0 (inRows (normIdx idx)) j = 1#1 :=
    inRows_normIdx idx h _
  rw [ValueIdx.select_apply, hb, ValueIdx.select_one]

/-! ## The two index rows the program takes out of the edge-index input -/

/-- An array read through any re-indexing of an array in the range is in the range. -/
theorem range_comp {s t : Shape} (a : IVec s 32) (g : t.Idx → s.Idx)
    (h : ∀ i : s.Idx, (-16384 : Int) ≤ (a i).toInt ∧ (a i).toInt < 16384) (e : t.Idx) :
    (-16384 : Int) ≤ (a (g e)).toInt ∧ (a (g e)).toInt < 16384 := h _

/-- Row 0 of the [2, 262144] input as a vector (the source end points): every entry is an entry of the input. -/
theorem src_range (a : IVec S2x262144 32)
    (h : ∀ i : S2x262144.Idx, (-16384 : Int) ≤ (a i).toInt ∧ (a i).toInt < 16384) (e : S262144.Idx) :
    (-16384 : Int) ≤ (shapeCast S262144 (extractStridedSlice S1x262144 ![0, 0] a slices_S2x262144_S1x262144_0_0)
        shapeCasts_S1x262144_S262144 e).toInt
      ∧ (shapeCast S262144 (extractStridedSlice S1x262144 ![0, 0] a slices_S2x262144_S1x262144_0_0)
        shapeCasts_S1x262144_S262144 e).toInt < 16384 := h _

/-- Row 1 of the input as a vector (the target end points). -/
theorem tgt_range (a : IVec S2x262144 32)
    (h : ∀ i : S2x262144.Idx, (-16384 : Int) ≤ (a i).toInt ∧ (a i).toInt < 16384) (e : S262144.Idx) :
    (-16384 : Int) ≤ (shapeCast S262144 (extractStridedSlice S1x262144 ![1, 0] a slices_S2x262144_S1x262144_1_0)
        shapeCasts_S1x262144_S262144 e).toInt
      ∧ (shapeCast S262144 (extractStridedSlice S1x262144 ![1, 0] a slices_S2x262144_S1x262144_1_0)
        shapeCasts_S1x262144_S262144 e).toInt < 16384 := h _

/-- Under the precondition both rows of a core's edge-index input are in the range, -/
theorem pre_src_range (m : (ℓ : Loc Cert.KernelIdeal.nD Cert.KernelIdeal.τ Cert.KernelIdeal.sig) → Buf (Elt Ideal) ℓ)
    (hpre : Cert.Pre_KernelIdeal m) (c : Dev nD) (e : S262144.Idx) :
    (-16384 : Int) ≤ (shapeCast S262144 (extractStridedSlice S1x262144 ![0, 0] (m ((c.tc : Thread nD τ).loc main_arg1))
        slices_S2x262144_S1x262144_0_0) shapeCasts_S1x262144_S262144 e).toInt
      ∧ (shapeCast S262144 (extractStridedSlice S1x262144 ![0, 0] (m ((c.tc : Thread nD τ).loc main_arg1))
        slices_S2x262144_S1x262144_0_0) shapeCasts_S1x262144_S262144 e).toInt < 16384 :=
  src_range _ (idx_range m hpre c) e

theorem pre_tgt_range (m : (ℓ : Loc Cert.KernelIdeal.nD Cert.KernelIdeal.τ Cert.KernelIdeal.sig) → Buf (Elt Ideal) ℓ)
    (hpre : Cert.Pre_KernelIdeal m) (c : Dev nD) (e : S262144.Idx) :
    (-16384 : Int) ≤ (shapeCast S262144 (extractStridedSlice S1x262144 ![1, 0] (m ((c.tc : Thread nD τ).loc main_arg1))
        slices_S2x262144_S1x262144_1_0) shapeCasts_S1x262144_S262144 e).toInt
      ∧ (shapeCast S262144 (extractStridedSlice S1x262144 ![1, 0] (m ((c.tc : Thread nD τ).loc main_arg1))
        slices_S2x262144_S1x262144_1_0) shapeCasts_S1x262144_S262144 e).toInt < 16384 :=
  tgt_range _ (idx_range m hpre c) e

end Cert.KernelIdeal.Hand

end
-- ==== Proof.Bridge.Form.lean ====
/-
  The result of both programs as ONE function of the nineteen argument arrays, at the ideal instance.
  With `x` the node features, `ei` the edge index (row 0 the sources, row 1 the targets), `ef` the edge features:
  `h, q, k, v` are the four dense layers of `x`; `eh` the dense layer of `ef`; an edge's scores are the two-layer
  attention unit on its source's `q` row, its target's `k` row and its `eh` row; the edge weights are the softmax,
  over all edges, of the mean score; every edge adds its weight times its target's `v` row into its source's row of
  the aggregate; the result is the row normalisation of `h + aggregate` with gain `gamma` and shift `beta`.
  `closedMul` spells the normalisation with the reciprocal square root as a factor (the kernel's form), `closedDiv`
  with the square root as a divisor (the reference's form).
-/
import proofs.«408511_j55722905699140_1_alg».proof.Proof.Spec
import proofs.«408511_j55722905699140_1_alg».proof.Proof.KI.HostFns

noncomputable section

namespace Cert.Bridge

open Cert.KernelIdeal Cert.KernelIdeal.Hand Cert.Spec
open Idealize.ShloMosaic Idealize.ShloMosaic.ValueIdx

/-- A length-`d` vector as a 1×d row. -/
def row1 {d : Nat} (b : (⟨1, ![d]⟩ : Shape).Idx → EReal) : Arr2 1 d := fun j => b (ix1 (j 1))

/-- The 256 rows of a 768×256 matrix that start at row `off` (`off` = 0, 256 or 512). -/
def rowsFrom (A : Arr2 768 256) (off : Nat) (hoff : off + 256 ≤ 768) : Arr2 256 256 :=
  fun j => A (ix2 ⟨off + (j 0).val, by have := idx2_lt0 j; omega⟩ (j 1))

/-- Row `r` of the [2, 262144] edge index as an index vector. -/
def idxRow (ei : S2x262144.Idx → BitVec 32) (r : Fin 2) : IVec S262144 32 := fun e => ei (ix2 r (e 0))

/-- Everything up to the aggregate and the residual: `h` and the aggregated messages. -/
structure Mid where
  h : Arr2 16384 256
  agg : Arr2 16384 256

def mid (x : Arr2 16384 256) (ei : S2x262144.Idx → BitVec 32) (ef : Arr2 262144 64)
    (Wn : Arr2 256 256) (bn : S256.Idx → EReal) (Wq : Arr2 256 256) (bq : S256.Idx → EReal)
    (Wk : Arr2 256 256) (bk : S256.Idx → EReal) (Wv : Arr2 256 256) (bv : S256.Idx → EReal)
    (We : Arr2 64 256) (be : S256.Idx → EReal) (A1 : Arr2 768 256) (a1 : S256.Idx → EReal)
    (A2 : Arr2 256 8) (a2 : S8.Idx → EReal) : Mid :=
  let q : Arr2 16384 256 := proj x Wq (row1 bq)
  let k : Arr2 16384 256 := proj x Wk (row1 bk)
  let v : Arr2 16384 256 := proj x Wv (row1 bv)
  let eh : Arr2 262144 256 := proj ef We (row1 be)
  let src := idxRow ei 0
  let tgt := idxRow ei 1
  let sc : Arr2 262144 8 := attn (gatherRows (F := Ideal) q (normIdx src)) (gatherRows (F := Ideal) k (normIdx tgt)) eh
    (rowsFrom A1 0 (by omega)) (rowsFrom A1 256 (by omega)) (rowsFrom A1 512 (by omega)) (row1 a1) A2 (row1 a2)
  { h := proj x Wn (row1 bn)
    agg := aggregate (F := Ideal) (softWeights (F := Ideal) sc) (gatherRows (F := Ideal) v (normIdx tgt)) src }

/-- The residual sum the normalisation is applied to. -/
def Mid.sum (M : Mid) : Arr2 16384 256 := fun j => M.h j + M.agg j

/-- The closed form with the kernel's normalisation. -/
def closedMul (M : Mid) (gamma beta : S256.Idx → EReal) : Arr2 16384 256 := lnMul M.sum (row1 gamma) (row1 beta)
/-- The closed form with the reference's normalisation. -/
def closedDiv (M : Mid) (gamma beta : S256.Idx → EReal) : Arr2 16384 256 := lnDiv M.sum (row1 gamma) (row1 beta)

end Cert.Bridge

end
-- ==== Proof.Bridge.Layout.lean ====
/-
  The layout operations the kernel program's host side applies to whole arrays, each read at an index and
  stated as an equation between whole arrays over the extended reals:
  * a vector cast to a one-row matrix is that row (`shapeCast_row256`, `shapeCast_row8`);
  * the three blocks of 256 rows cut out of the 768-row matrix (`slice_rows0`, `slice_rows256`, `slice_rows512`);
  * a narrowing format change is the identity on extended reals (`truncf_id`);
  * a row of the [2, 262144] index array, cut out and cast to a vector (`idx_row0`, `idx_row1`);
  * the dense layer against four weight matrices laid side by side and four biases laid end to end, cut back into
    four blocks of 256 columns, is the four dense layers (`slice_proj0` … `slice_proj3`): column 256·k + j of the
    wide matrix is column j of the k-th matrix, entry 256·k + j of the long bias is entry j of the k-th bias.
-/
import proofs.«408511_j55722905699140_1_alg».proof.Proof.Bridge.Form
import Idealize.ShloMosaic.Lib.ValueIdx
import Idealize.ShloMosaic.Lib.ValueLayout
import Idealize.ShloMosaic.Lib.Pipeline.Value

set_option maxRecDepth 16384

noncomputable section

namespace Cert.Bridge

open Cert.KernelIdeal Cert.KernelIdeal.Gen Cert.KernelIdeal.Hand Cert.Spec
open Idealize.ShloMosaic Idealize.ShloMosaic.ValueIdx

/-! ## Bias vectors as one-row matrices -/

theorem shapeCast_row256 (b : S256.Idx → EReal) : shapeCast S1x256 b shapeCasts_S256_S1x256 = row1 b := by
  funext j
  obtain ⟨u, i, rfl⟩ : ∃ u i, j = ix2 u i := ⟨_, _, eq_ix2 j⟩
  exact shapeCast_a_1a_apply b _ u i

theorem shapeCast_row8 (a : S8.Idx → EReal) : shapeCast S1x8 a shapeCasts_S8_S1x8 = row1 a := by
  funext j
  obtain ⟨u, i, rfl⟩ : ∃ u i, j = ix2 u i := ⟨_, _, eq_ix2 j⟩
  exact shapeCast_a_1a_apply a _ u i

/-! ## The thirds of the first attention matrix -/

theorem slice_rows0 (A : S768x256.Idx → EReal) :
    extractStridedSlice S256x256 ![0, 0] A slices_S768x256_S256x256_0_0 = rowsFrom A 0 (by omega) := by
  funext j
  obtain ⟨r, c, rfl⟩ : ∃ r c, j = ix2 r c := ⟨_, _, eq_ix2 j⟩
  exact slice2_axis0_apply 0 A _ r c _ rfl

theorem slice_rows256 (A : S768x256.Idx → EReal) :
    extractStridedSlice S256x256 ![256, 0] A slices_S768x256_S256x256_256_0 = rowsFrom A 256 (by omega) := by
  funext j
  obtain ⟨r, c, rfl⟩ : ∃ r c, j = ix2 r c := ⟨_, _, eq_ix2 j⟩
  exact slice2_axis0_apply 256 A _ r c _ rfl

theorem slice_rows512 (A : S768x256.Idx → EReal) :
    extractStridedSlice S256x256 ![512, 0] A slices_S768x256_S256x256_512_0 = rowsFrom A 512 (by omega) := by
  funext j
  obtain ⟨r, c, rfl⟩ : ∃ r c, j = ix2 r c := ⟨_, _, eq_ix2 j⟩
  exact slice2_axis0_apply 512 A _ r c _ rfl

/-! ## The format change -/

theorem truncf_id (x : FVec Ideal S262144x256 .f32) :
    (truncf .bf16 x bitsLt_bf16_f32 : S262144x256.Idx → EReal) = x := rfl

/-! ## The rows of the edge index -/

theorem idx_row0 (ei : IVec S2x262144 32) :
    shapeCast S262144 (extractStridedSlice S1x262144 ![0, 0] ei slices_S2x262144_S1x262144_0_0)
      shapeCasts_S1x262144_S262144 = idxRow ei 0 := by
  funext e
  obtain ⟨i, rfl⟩ : ∃ i, e = ix1 i := ⟨_, eq_ix1 e⟩
  refine (shapeCast_1a_a_apply _ _ i).trans ?_
  exact slice2_axis0_apply 0 ei _ (0 : Fin 1) i (0 : Fin 2) rfl

theorem idx_row1 (ei : IVec S2x262144 32) :
    shapeCast S262144 (extractStridedSlice S1x262144 ![1, 0] ei slices_S2x262144_S1x262144_1_0)
      shapeCasts_S1x262144_S262144 = idxRow ei 1 := by
  funext e
  obtain ⟨i, rfl⟩ : ∃ i, e = ix1 i := ⟨_, eq_ix1 e⟩
  refine (shapeCast_1a_a_apply _ _ i).trans ?_
  exact slice2_axis0_apply 1 ei _ (0 : Fin 1) i (1 : Fin 2) rfl

/-! ## The fused projection -/

section Fused

variable (W0 W1 W2 W3 : Arr2 256 256) (b0 b1 b2 b3 : S256.Idx → EReal)

/-- Column 0 + c of the four matrices laid side by side is column c of matrix 0. -/
theorem wcat_col0 (l c : Fin 256) (q : Fin 1024) (hq : q.val = 0 + c.val) :
    (concatenate S256x1024 1 [⟨S256x256, W0⟩, ⟨S256x256, W1⟩, ⟨S256x256, W2⟩, ⟨S256x256, W3⟩] concatenates_S256x256_S256x256_S256x256_S256x256_S256x1024_d1 : S256x1024.Idx → EReal) (ix2 l q) = W0 (ix2 l c) := by
  refine concatenate_apply_piece (t := S256x1024) (a := 1) (xs := [⟨S256x256, W0⟩, ⟨S256x256, W1⟩, ⟨S256x256, W2⟩, ⟨S256x256, W3⟩])
    (h := concatenates_S256x256_S256x256_S256x256_S256x256_S256x1024_d1) (j := ix2 l q) (k := 0) (hk := by show 0 < 4; omega)
    (s₁ := S256x256) (x₁ := W0) (hxk := rfl) (hr := rfl) (pre := 0) (hpre := rfl)
    (i := ix2 l c) (hi := fun b hb => ?_) (ha := ?_)
  · match b with
    | ⟨0, _⟩ => rfl
    | ⟨1, _⟩ => exact absurd rfl hb
  · show 0 + c.val = q.val
    omega

/-- Entry 0 + c of the four biases laid end to end, as one row, is entry c of bias 0. -/
theorem bcat_at0 (c : Fin 256) (q : Fin 1024) (hq : q.val = 0 + c.val) (u : Fin 1) :
    (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal) (ix2 u q) = b0 (ix1 c) := by
  refine (shapeCast_a_1a_apply _ _ u q).trans ?_
  refine concatenate_apply_piece (t := S1024) (a := 0) (xs := [⟨S256, b0⟩, ⟨S256, b1⟩, ⟨S256, b2⟩, ⟨S256, b3⟩])
    (h := concatenates_S256_S256_S256_S256_S1024_d0) (j := ix1 q) (k := 0) (hk := by show 0 < 4; omega)
    (s₁ := S256) (x₁ := b0) (hxk := rfl) (hr := rfl) (pre := 0) (hpre := rfl)
    (i := ix1 c) (hi := fun b hb => ?_) (ha := ?_)
  · match b with
    | ⟨0, _⟩ => exact absurd rfl hb
  · show 0 + c.val = q.val
    omega

/-- Column 256 + c of the four matrices laid side by side is column c of matrix 1. -/
theorem wcat_col1 (l c : Fin 256) (q : Fin 1024) (hq : q.val = 256 + c.val) :
    (concatenate S256x1024 1 [⟨S256x256, W0⟩, ⟨S256x256, W1⟩, ⟨S256x256, W2⟩, ⟨S256x256, W3⟩] concatenates_S256x256_S256x256_S256x256_S256x256_S256x1024_d1 : S256x1024.Idx → EReal) (ix2 l q) = W1 (ix2 l c) := by
  refine concatenate_apply_piece (t := S256x1024) (a := 1) (xs := [⟨S256x256, W0⟩, ⟨S256x256, W1⟩, ⟨S256x256, W2⟩, ⟨S256x256, W3⟩])
    (h := concatenates_S256x256_S256x256_S256x256_S256x256_S256x1024_d1) (j := ix2 l q) (k := 1) (hk := by show 1 < 4; omega)
    (s₁ := S256x256) (x₁ := W1) (hxk := rfl) (hr := rfl) (pre := 256) (hpre := rfl)
    (i := ix2 l c) (hi := fun b hb => ?_) (ha := ?_)
  · match b with
    | ⟨0, _⟩ => rfl
    | ⟨1, _⟩ => exact absurd rfl hb
  · show 256 + c.val = q.val
    omega

/-- Entry 256 + c of the four biases laid end to end, as one row, is entry c of bias 1. -/
theorem bcat_at1 (c : Fin 256) (q : Fin 1024) (hq : q.val = 256 + c.val) (u : Fin 1) :
    (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal) (ix2 u q) = b1 (ix1 c) := by
  refine (shapeCast_a_1a_apply _ _ u q).trans ?_
  refine concatenate_apply_piece (t := S1024) (a := 0) (xs := [⟨S256, b0⟩, ⟨S256, b1⟩, ⟨S256, b2⟩, ⟨S256, b3⟩])
    (h := concatenates_S256_S256_S256_S256_S1024_d0) (j := ix1 q) (k := 1) (hk := by show 1 < 4; omega)
    (s₁ := S256) (x₁ := b1) (hxk := rfl) (hr := rfl) (pre := 256) (hpre := rfl)
    (i := ix1 c) (hi := fun b hb => ?_) (ha := ?_)
  · match b with
    | ⟨0, _⟩ => exact absurd rfl hb
  · show 256 + c.val = q.val
    omega

/-- Column 512 + c of the four matrices laid side by side is column c of matrix 2. -/
theorem wcat_col2 (l c : Fin 256) (q : Fin 1024) (hq : q.val = 512 + c.val) :
    (concatenate S256x1024 1 [⟨S256x256, W0⟩, ⟨S256x256, W1⟩, ⟨S256x256, W2⟩, ⟨S256x256, W3⟩] concatenates_S256x256_S256x256_S256x256_S256x256_S256x1024_d1 : S256x1024.Idx → EReal) (ix2 l q) = W2 (ix2 l c) := by
  refine concatenate_apply_piece (t := S256x1024) (a := 1) (xs := [⟨S256x256, W0⟩, ⟨S256x256, W1⟩, ⟨S256x256, W2⟩, ⟨S256x256, W3⟩])
    (h := concatenates_S256x256_S256x256_S256x256_S256x256_S256x1024_d1) (j := ix2 l q) (k := 2) (hk := by show 2 < 4; omega)
    (s₁ := S256x256) (x₁ := W2) (hxk := rfl) (hr := rfl) (pre := 512) (hpre := rfl)
    (i := ix2 l c) (hi := fun b hb => ?_) (ha := ?_)
  · match b with
    | ⟨0, _⟩ => rfl
    | ⟨1, _⟩ => exact absurd rfl hb
  · show 512 + c.val = q.val
    omega

/-- Entry 512 + c of the four biases laid end to end, as one row, is entry c of bias 2. -/
theorem bcat_at2 (c : Fin 256) (q : Fin 1024) (hq : q.val = 512 + c.val) (u : Fin 1) :
    (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal) (ix2 u q) = b2 (ix1 c) := by
  refine (shapeCast_a_1a_apply _ _ u q).trans ?_
  refine concatenate_apply_piece (t := S1024) (a := 0) (xs := [⟨S256, b0⟩, ⟨S256, b1⟩, ⟨S256, b2⟩, ⟨S256, b3⟩])
    (h := concatenates_S256_S256_S256_S256_S1024_d0) (j := ix1 q) (k := 2) (hk := by show 2 < 4; omega)
    (s₁ := S256) (x₁ := b2) (hxk := rfl) (hr := rfl) (pre := 512) (hpre := rfl)
    (i := ix1 c) (hi := fun b hb => ?_) (ha := ?_)
  · match b with
    | ⟨0, _⟩ => exact absurd rfl hb
  · show 512 + c.val = q.val
    omega

/-- Column 768 + c of the four matrices laid side by side is column c of matrix 3. -/
theorem wcat_col3 (l c : Fin 256) (q : Fin 1024) (hq : q.val = 768 + c.val) :
    (concatenate S256x1024 1 [⟨S256x256, W0⟩, ⟨S256x256, W1⟩, ⟨S256x256, W2⟩, ⟨S256x256, W3⟩] concatenates_S256x256_S256x256_S256x256_S256x256_S256x1024_d1 : S256x1024.Idx → EReal) (ix2 l q) = W3 (ix2 l c) := by
  refine concatenate_apply_piece (t := S256x1024) (a := 1) (xs := [⟨S256x256, W0⟩, ⟨S256x256, W1⟩, ⟨S256x256, W2⟩, ⟨S256x256, W3⟩])
    (h := concatenates_S256x256_S256x256_S256x256_S256x256_S256x1024_d1) (j := ix2 l q) (k := 3) (hk := by show 3 < 4; omega)
    (s₁ := S256x256) (x₁ := W3) (hxk := rfl) (hr := rfl) (pre := 768) (hpre := rfl)
    (i := ix2 l c) (hi := fun b hb => ?_) (ha := ?_)
  · match b with
    | ⟨0, _⟩ => rfl
    | ⟨1, _⟩ => exact absurd rfl hb
  · show 768 + c.val = q.val
    omega

/-- Entry 768 + c of the four biases laid end to end, as one row, is entry c of bias 3. -/
theorem bcat_at3 (c : Fin 256) (q : Fin 1024) (hq : q.val = 768 + c.val) (u : Fin 1) :
    (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal) (ix2 u q) = b3 (ix1 c) := by
  refine (shapeCast_a_1a_apply _ _ u q).trans ?_
  refine concatenate_apply_piece (t := S1024) (a := 0) (xs := [⟨S256, b0⟩, ⟨S256, b1⟩, ⟨S256, b2⟩, ⟨S256, b3⟩])
    (h := concatenates_S256_S256_S256_S256_S1024_d0) (j := ix1 q) (k := 3) (hk := by show 3 < 4; omega)
    (s₁ := S256) (x₁ := b3) (hxk := rfl) (hr := rfl) (pre := 768) (hpre := rfl)
    (i := ix1 c) (hi := fun b hb => ?_) (ha := ?_)
  · match b with
    | ⟨0, _⟩ => exact absurd rfl hb
  · show 768 + c.val = q.val
    omega

/-- Columns 0 … 255 of the fused dense layer are the dense layer against matrix 0 and bias 0. -/
theorem slice_proj0 (x : Arr2 16384 256) :
    extractStridedSlice S16384x256 ![0, 0]
        (proj x (concatenate S256x1024 1 [⟨S256x256, W0⟩, ⟨S256x256, W1⟩, ⟨S256x256, W2⟩, ⟨S256x256, W3⟩] concatenates_S256x256_S256x256_S256x256_S256x256_S256x1024_d1 : S256x1024.Idx → EReal)
          (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal))
        slices_S16384x1024_S16384x256_0_0
      = proj x W0 (row1 b0) := by
  funext j
  obtain ⟨r, c, rfl⟩ : ∃ r c, j = ix2 r c := ⟨_, _, eq_ix2 j⟩
  obtain ⟨q, hq⟩ : ∃ q : Fin 1024, q.val = 0 + c.val := ⟨⟨0 + c.val, by have := c.isLt; omega⟩, rfl⟩
  refine (slice2_axis1_apply 0 _ _ r c q hq).trans ?_
  show (∑ l : Fin 256, x (ix2 r l) * (concatenate S256x1024 1 [⟨S256x256, W0⟩, ⟨S256x256, W1⟩, ⟨S256x256, W2⟩, ⟨S256x256, W3⟩] concatenates_S256x256_S256x256_S256x256_S256x256_S256x1024_d1 : S256x1024.Idx → EReal) (ix2 l q))
      + (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal) (ix2 (0 : Fin 1) q)
    = (∑ l : Fin 256, x (ix2 r l) * W0 (ix2 l c)) + b0 (ix1 c)
  refine congrArg₂ (· + ·) (Finset.sum_congr rfl fun l _ => ?_) (bcat_at0 b0 b1 b2 b3 c q hq 0)
  rw [wcat_col0 W0 W1 W2 W3 l c q hq]

/-- Columns 256 … 511 of the fused dense layer are the dense layer against matrix 1 and bias 1. -/
theorem slice_proj1 (x : Arr2 16384 256) :
    extractStridedSlice S16384x256 ![0, 256]
        (proj x (concatenate S256x1024 1 [⟨S256x256, W0⟩, ⟨S256x256, W1⟩, ⟨S256x256, W2⟩, ⟨S256x256, W3⟩] concatenates_S256x256_S256x256_S256x256_S256x256_S256x1024_d1 : S256x1024.Idx → EReal)
          (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal))
        slices_S16384x1024_S16384x256_0_256
      = proj x W1 (row1 b1) := by
  funext j
  obtain ⟨r, c, rfl⟩ : ∃ r c, j = ix2 r c := ⟨_, _, eq_ix2 j⟩
  obtain ⟨q, hq⟩ : ∃ q : Fin 1024, q.val = 256 + c.val := ⟨⟨256 + c.val, by have := c.isLt; omega⟩, rfl⟩
  refine (slice2_axis1_apply 256 _ _ r c q hq).trans ?_
  show (∑ l : Fin 256, x (ix2 r l) * (concatenate S256x1024 1 [⟨S256x256, W0⟩, ⟨S256x256, W1⟩, ⟨S256x256, W2⟩, ⟨S256x256, W3⟩] concatenates_S256x256_S256x256_S256x256_S256x256_S256x1024_d1 : S256x1024.Idx → EReal) (ix2 l q))
      + (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal) (ix2 (0 : Fin 1) q)
    = (∑ l : Fin 256, x (ix2 r l) * W1 (ix2 l c)) + b1 (ix1 c)
  refine congrArg₂ (· + ·) (Finset.sum_congr rfl fun l _ => ?_) (bcat_at1 b0 b1 b2 b3 c q hq 0)
  rw [wcat_col1 W0 W1 W2 W3 l c q hq]

/-- Columns 512 … 767 of the fused dense layer are the dense layer against matrix 2 and bias 2. -/
theorem slice_proj2 (x : Arr2 16384 256) :
    extractStridedSlice S16384x256 ![0, 512]
        (proj x (concatenate S256x1024 1 [⟨S256x256, W0⟩, ⟨S256x256, W1⟩, ⟨S256x256, W2⟩, ⟨S256x256, W3⟩] concatenates_S256x256_S256x256_S256x256_S256x256_S256x1024_d1 : S256x1024.Idx → EReal)
          (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal))
        slices_S16384x1024_S16384x256_0_512
      = proj x W2 (row1 b2) := by
  funext j
  obtain ⟨r, c, rfl⟩ : ∃ r c, j = ix2 r c := ⟨_, _, eq_ix2 j⟩
  obtain ⟨q, hq⟩ : ∃ q : Fin 1024, q.val = 512 + c.val := ⟨⟨512 + c.val, by have := c.isLt; omega⟩, rfl⟩
  refine (slice2_axis1_apply 512 _ _ r c q hq).trans ?_
  show (∑ l : Fin 256, x (ix2 r l) * (concatenate S256x1024 1 [⟨S256x256, W0⟩, ⟨S256x256, W1⟩, ⟨S256x256, W2⟩, ⟨S256x256, W3⟩] concatenates_S256x256_S256x256_S256x256_S256x256_S256x1024_d1 : S256x1024.Idx → EReal) (ix2 l q))
      + (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal) (ix2 (0 : Fin 1) q)
    = (∑ l : Fin 256, x (ix2 r l) * W2 (ix2 l c)) + b2 (ix1 c)
  refine congrArg₂ (· + ·) (Finset.sum_congr rfl fun l _ => ?_) (bcat_at2 b0 b1 b2 b3 c q hq 0)
  rw [wcat_col2 W0 W1 W2 W3 l c q hq]

/-- Columns 768 … 1023 of the fused dense layer are the dense layer against matrix 3 and bias 3. -/
theorem slice_proj3 (x : Arr2 16384 256) :
    extractStridedSlice S16384x256 ![0, 768]
        (proj x (concatenate S256x1024 1 [⟨S256x256, W0⟩, ⟨S256x256, W1⟩, ⟨S256x256, W2⟩, ⟨S256x256, W3⟩] concatenates_S256x256_S256x256_S256x256_S256x256_S256x1024_d1 : S256x1024.Idx → EReal)
          (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal))
        slices_S16384x1024_S16384x256_0_768
      = proj x W3 (row1 b3) := by
  funext j
  obtain ⟨r, c, rfl⟩ : ∃ r c, j = ix2 r c := ⟨_, _, eq_ix2 j⟩
  obtain ⟨q, hq⟩ : ∃ q : Fin 1024, q.val = 768 + c.val := ⟨⟨768 + c.val, by have := c.isLt; omega⟩, rfl⟩
  refine (slice2_axis1_apply 768 _ _ r c q hq).trans ?_
  show (∑ l : Fin 256, x (ix2 r l) * (concatenate S256x1024 1 [⟨S256x256, W0⟩, ⟨S256x256, W1⟩, ⟨S256x256, W2⟩, ⟨S256x256, W3⟩] concatenates_S256x256_S256x256_S256x256_S256x256_S256x1024_d1 : S256x1024.Idx → EReal) (ix2 l q))
      + (shapeCast S1x1024 (concatenate S1024 0 [⟨S256, b0⟩, ⟨S256, b1⟩, ⟨S256, b2⟩, ⟨S256, b3⟩] concatenates_S256_S256_S256_S256_S1024_d0) shapeCasts_S1024_S1x1024 : S1x1024.Idx → EReal) (ix2 (0 : Fin 1) q)
    = (∑ l : Fin 256, x (ix2 r l) * W3 (ix2 l c)) + b3 (ix1 c)
  refine congrArg₂ (· + ·) (Finset.sum_congr rfl fun l _ => ?_) (bcat_at3 b0 b1 b2 b3 c q hq 0)
  rw [wcat_col3 W0 W1 W2 W3 l c q hq]

end Fused

end Cert.Bridge

end
-- ==== Proof.KI.KernelValue.lean ====
/-
  The kernel program's result as the closed form. The contents after the last item, at the result buffer, are the
  fourth pipeline's final array; that is the row normalisation of the sum of the first pipeline's first column block
  (`h`) and the aggregate; the aggregate comes from the softmax weights of the third pipeline's scores and the gathered
  `v` rows; the scores from the gathered `q` and `k` rows and the second pipeline's edge layer. Each step reads one
  buffer at one boundary: either the item before wrote it (its host operations, or a pipeline's value), or it is
  unchanged since an earlier boundary. Under the index range every guarded gather is the plain gather.
-/
import proofs.«408511_j55722905699140_1_alg».proof.Proof.KI.Run
import proofs.«408511_j55722905699140_1_alg».proof.Proof.KI.Glue
import proofs.«408511_j55722905699140_1_alg».proof.Proof.KI.Val0
import proofs.«408511_j55722905699140_1_alg».proof.Proof.KI.Val1
import proofs.«408511_j55722905699140_1_alg».proof.Proof.KI.Val2
import proofs.«408511_j55722905699140_1_alg».proof.Proof.KI.Val3
import proofs.«408511_j55722905699140_1_alg».proof.Proof.KI.Range
import proofs.«408511_j55722905699140_1_alg».proof.Proof.Bridge.Layout

set_option maxRecDepth 16384

noncomputable section

namespace Cert.KernelIdeal.Val

open Cert.KernelIdeal Cert.KernelIdeal.Gen Cert.KernelIdeal.Hand Cert.Bridge Cert.Spec
open Idealize.ShloMosaic Idealize.ShloMosaic.TcCoe Idealize.ShloMosaic.ValueIdx
open Idealize.SL Idealize.SL.Sem

variable (m : (ℓ : Loc nD τ sig) → Buf (Elt Ideal) ℓ) (c : Dev nD)

/-! The nineteen argument arrays as the launch memory holds them. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)
abbrev a12 := m ((c.tc : Thread nD τ).loc main_arg12)
abbrev a13 := m ((c.tc : Thread nD τ).loc main_arg13)
abbrev a14 := m ((c.tc : Thread nD τ).loc main_arg14)
abbrev a15 := m ((c.tc : Thread nD τ).loc main_arg15)
abbrev a16 := m ((c.tc : Thread nD τ).loc main_arg16)
abbrev a17 := m ((c.tc : Thread nD τ).loc main_arg17)
abbrev a18 := m ((c.tc : Thread nD τ).loc main_arg18)

/-- Walk a read of buffer `r` back over the items that do not write it, last item first. -/
local macro "walk " r:term : tactic => `(tactic| (
  try rw [U14_of _ _ $r (by decide)]
  try rw [U13_of _ _ $r (by decide)]
  try rw [U12_of _ _ $r (by decide)]
  try rw [U11_of _ _ $r (by decide)]
  try rw [U10_of _ _ $r (by decide)]
  try rw [U9_of _ _ $r (by decide)]
  try rw [U8_of _ _ $r (by decide)]
  try rw [U7_of _ _ $r (by decide)]
  try rw [U6_of _ _ $r (by decide)]
  try rw [U5_of _ _ $r (by decide)]
  try rw [U4_of _ _ $r (by decide)]
  try rw [U3_of _ _ $r (by decide)]
  try rw [U2_of _ _ $r (by decide)]
  try rw [U1_of _ _ $r (by decide)]))

/-! ## The dense layers -/

/-- The four weight matrices side by side, and the four biases end to end as a row. -/
abbrev Wcat : S256x1024.Idx → EReal := concatenate S256x1024 1 [⟨S256x256, (a3 m c)⟩, ⟨S256x256, (a5 m c)⟩, ⟨S256x256, (a7 m c)⟩, ⟨S256x256, (a9 m c)⟩] concatenates_S256x256_S256x256_S256x256_S256x256_S256x1024_d1
abbrev bcat : S1x1024.Idx → EReal := shapeCast S1x1024 (concatenate S1024 0 [⟨S256, (a4 m c)⟩, ⟨S256, (a6 m c)⟩, ⟨S256, (a8 m c)⟩, ⟨S256, (a10 m c)⟩] concatenates_S256_S256_S256_S256_S1024_d0) shapeCasts_S1024_S1x1024

theorem e1_v0 : U1 m c main_v0 = Wcat m c := by rw [U1_def, g0_v0]
theorem e1_v2 : U1 m c main_v2 = bcat m c := by rw [U1_def, g0_v2]
theorem e1_arg0 : U1 m c main_arg0 = (a0 m c) := by walk main_arg0

theorem e2_v3 : U2 m c main_v3 = proj (a0 m c) (Wcat m c) (bcat m c) := by
  rw [U2_out, final0]
  show proj (U1 m c main_arg0) (U1 m c main_v0) (U1 m c main_v2) = _
  rw [e1_arg0, e1_v0, e1_v2]

theorem e3_v4 : U3 m c main_v4 = proj (a0 m c) (a3 m c) (row1 (a4 m c)) := by
  rw [U3_def, g1_v4, e2_v3]; exact slice_proj0 (a3 m c) (a5 m c) (a7 m c) (a9 m c) (a4 m c) (a6 m c) (a8 m c) (a10 m c) (a0 m c)
theorem e3_v5 : U3 m c main_v5 = proj (a0 m c) (a5 m c) (row1 (a6 m c)) := by
  rw [U3_def, g1_v5, e2_v3]; exact slice_proj1 (a3 m c) (a5 m c) (a7 m c) (a9 m c) (a4 m c) (a6 m c) (a8 m c) (a10 m c) (a0 m c)
theorem e3_v6 : U3 m c main_v6 = proj (a0 m c) (a7 m c) (row1 (a8 m c)) := by
  rw [U3_def, g1_v6, e2_v3]; exact slice_proj2 (a3 m c) (a5 m c) (a7 m c) (a9 m c) (a4 m c) (a6 m c) (a8 m c) (a10 m c) (a0 m c)
theorem e3_v7 : U3 m c main_v7 = proj (a0 m c) (a9 m c) (row1 (a10 m c)) := by
  rw [U3_def, g1_v7, e2_v3]; exact slice_proj3 (a3 m c) (a5 m c) (a7 m c) (a9 m c) (a4 m c) (a6 m c) (a8 m c) (a10 m c) (a0 m c)

theorem e2_arg12 : U2 m c main_arg12 = (a12 m c) := by walk main_arg12
theorem e3_v8 : U3 m c main_v8 = row1 (a12 m c) := by
  rw [U3_def, g1_v8, e2_arg12]; exact shapeCast_row256 (a12 m c)
theorem e3_arg2 : U3 m c main_arg2 = (a2 m c) := by walk main_arg2
theorem e3_arg11 : U3 m c main_arg11 = (a11 m c) := by walk main_arg11

/-- The edge layer. -/
theorem e4_v9 : U4 m c main_v9 = proj (a2 m c) (a11 m c) (row1 (a12 m c)) := by
  rw [U4_out, final1]
  show proj (U3 m c main_arg2) (U3 m c main_arg11) (U3 m c main_v8) = _
  rw [e3_arg2, e3_arg11, e3_v8]

/-! ## The index vectors and the gathered rows -/

theorem e4_arg1 : U4 m c main_arg1 = (a1 m c) := by walk main_arg1
theorem e5_v11 : U5 m c main_v11 = idxRow (a1 m c) 0 := by rw [U5_def, g2_v11, e4_arg1]; exact idx_row0 (a1 m c)
theorem e5_v13 : U5 m c main_v13 = idxRow (a1 m c) 1 := by rw [U5_def, g2_v13, e4_arg1]; exact idx_row1 (a1 m c)

theorem src_rng (hpre : Cert.Pre_KernelIdeal m) (e : S262144.Idx) : (-16384 : Int) ≤ (idxRow (a1 m c) 0 e).toInt ∧ (idxRow (a1 m c) 0 e).toInt < 16384 :=
  idx_range m hpre c (ix2 0 (e 0))
theorem tgt_rng (hpre : Cert.Pre_KernelIdeal m) (e : S262144.Idx) : (-16384 : Int) ≤ (idxRow (a1 m c) 1 e).toInt ∧ (idxRow (a1 m c) 1 e).toInt < 16384 :=
  idx_range m hpre c (ix2 1 (e 0))

/-- The source's `q` rows. -/
theorem e6_v14 (hpre : Cert.Pre_KernelIdeal m) : U6 m c main_v14 = gatherRows (F := Ideal) (proj (a0 m c) (a5 m c) (row1 (a6 m c))) (normIdx (idxRow (a1 m c) 0)) := by
  rw [U6_def, g21_v14]
  rw [show U5 m c main_v5 = proj (a0 m c) (a5 m c) (row1 (a6 m c)) from by walk main_v5; exact e3_v5 m c, e5_v11]
  exact takeRows_eq _ _ (src_rng m c hpre)
/-- The target's `k` rows. -/
theorem e8_v16 (hpre : Cert.Pre_KernelIdeal m) : U8 m c main_v16 = gatherRows (F := Ideal) (proj (a0 m c) (a7 m c) (row1 (a8 m c))) (normIdx (idxRow (a1 m c) 1)) := by
  rw [U8_def, g23_v16]
  rw [show U7 m c main_v6 = proj (a0 m c) (a7 m c) (row1 (a8 m c)) from by walk main_v6; exact e3_v6 m c,
    show U7 m c main_v13 = idxRow (a1 m c) 1 from by walk main_v13; exact e5_v13 m c]
  exact takeRows_eq _ _ (tgt_rng m c hpre)

/-! ## The third pipeline's operands and the scores -/

theorem e9_v15 (hpre : Cert.Pre_KernelIdeal m) : (U9 m c main_v15 : S262144x256.Idx → EReal) = gatherRows (F := Ideal) (proj (a0 m c) (a5 m c) (row1 (a6 m c))) (normIdx (idxRow (a1 m c) 0)) := by
  rw [show U9 m c main_v15 = U7 m c main_v15 from by walk main_v15, U7_def, g22_v15, e6_v14 m c hpre]; rfl
theorem e9_v17 (hpre : Cert.Pre_KernelIdeal m) : (U9 m c main_v17 : S262144x256.Idx → EReal) = gatherRows (F := Ideal) (proj (a0 m c) (a7 m c) (row1 (a8 m c))) (normIdx (idxRow (a1 m c) 1)) := by
  rw [U9_def, g24_v17, e8_v16 m c hpre]; rfl
theorem e9_v18 : (U9 m c main_v18 : S262144x256.Idx → EReal) = proj (a2 m c) (a11 m c) (row1 (a12 m c)) := by
  rw [U9_def, g24_v18, show U8 m c main_v9 = U4 m c main_v9 from by walk main_v9, e4_v9]; rfl
theorem e8_arg13 : U8 m c main_arg13 = (a13 m c) := by walk main_arg13
theorem e8_arg14 : U8 m c main_arg14 = (a14 m c) := by walk main_arg14
theorem e8_arg16 : U8 m c main_arg16 = (a16 m c) := by walk main_arg16
theorem e9_arg15 : U9 m c main_arg15 = (a15 m c) := by walk main_arg15
theorem e9_v19 : U9 m c main_v19 = rowsFrom (a13 m c) 0 (by omega) := by rw [U9_def, g24_v19, e8_arg13]; exact slice_rows0 (a13 m c)
theorem e9_v20 : U9 m c main_v20 = rowsFrom (a13 m c) 256 (by omega) := by rw [U9_def, g24_v20, e8_arg13]; exact slice_rows256 (a13 m c)
theorem e9_v21 : U9 m c main_v21 = rowsFrom (a13 m c) 512 (by omega) := by rw [U9_def, g24_v21, e8_arg13]; exact slice_rows512 (a13 m c)
theorem e9_v22 : U9 m c main_v22 = row1 (a14 m c) := by rw [U9_def, g24_v22, e8_arg14]; exact shapeCast_row256 (a14 m c)
theorem e9_v23 : U9 m c main_v23 = row1 (a16 m c) := by rw [U9_def, g24_v23, e8_arg16]; exact shapeCast_row8 (a16 m c)

/-- The edge scores. -/
def scores : Arr2 262144 8 :=
  attn (gatherRows (F := Ideal) (proj (a0 m c) (a5 m c) (row1 (a6 m c))) (normIdx (idxRow (a1 m c) 0)))
    (gatherRows (F := Ideal) (proj (a0 m c) (a7 m c) (row1 (a8 m c))) (normIdx (idxRow (a1 m c) 1)))
    (proj (a2 m c) (a11 m c) (row1 (a12 m c)))
    (rowsFrom (a13 m c) 0 (by omega)) (rowsFrom (a13 m c) 256 (by omega)) (rowsFrom (a13 m c) 512 (by omega)) (row1 (a14 m c)) (a15 m c) (row1 (a16 m c))

theorem e10_v24 (hpre : Cert.Pre_KernelIdeal m) : U10 m c main_v24 = scores m c := by
  rw [U10_out, final2]
  show attn (U9 m c main_v15 : S262144x256.Idx → EReal) (U9 m c main_v17 : S262144x256.Idx → EReal) (U9 m c main_v18 : S262144x256.Idx → EReal)
    (U9 m c main_v19) (U9 m c main_v20) (U9 m c main_v21) (U9 m c main_v22) (U9 m c main_arg15) (U9 m c main_v23) = _
  rw [e9_v15 m c hpre, e9_v17 m c hpre, e9_v18, e9_v19, e9_v20, e9_v21, e9_v22, e9_arg15, e9_v23]; rfl

/-! ## The weights, the messages and the aggregate -/

theorem e11_v37 (hpre : Cert.Pre_KernelIdeal m) : U11 m c main_v37 = softWeights (F := Ideal) (scores m c) := by
  rw [U11_def, g3_v37, e10_v24 m c hpre]
theorem e12_v38 (hpre : Cert.Pre_KernelIdeal m) : U12 m c main_v38 = gatherRows (F := Ideal) (proj (a0 m c) (a9 m c) (row1 (a10 m c))) (normIdx (idxRow (a1 m c) 1)) := by
  rw [U12_def, g31_v38]
  rw [show U11 m c main_v7 = proj (a0 m c) (a9 m c) (row1 (a10 m c)) from by walk main_v7; exact e3_v7 m c,
    show U11 m c main_v13 = idxRow (a1 m c) 1 from by walk main_v13; exact e5_v13 m c]
  exact takeRows_eq _ _ (tgt_rng m c hpre)
theorem e13_v49 (hpre : Cert.Pre_KernelIdeal m) : U13 m c main_v49 = aggregate (F := Ideal) (softWeights (F := Ideal) (scores m c))
    (gatherRows (F := Ideal) (proj (a0 m c) (a9 m c) (row1 (a10 m c))) (normIdx (idxRow (a1 m c) 1))) (idxRow (a1 m c) 0) := by
  rw [U13_def, g32_v49]
  rw [show U12 m c main_v37 = softWeights (F := Ideal) (scores m c) from by walk main_v37; exact e11_v37 m c hpre,
    e12_v38 m c hpre, show U12 m c main_v11 = idxRow (a1 m c) 0 from by walk main_v11; exact e5_v11 m c]
theorem e12_arg17 : U12 m c main_arg17 = (a17 m c) := by walk main_arg17
theorem e12_arg18 : U12 m c main_arg18 = (a18 m c) := by walk main_arg18
theorem e13_v50 : U13 m c main_v50 = row1 (a17 m c) := by rw [U13_def, g32_v50, e12_arg17]; exact shapeCast_row256 (a17 m c)
theorem e13_v51 : U13 m c main_v51 = row1 (a18 m c) := by rw [U13_def, g32_v51, e12_arg18]; exact shapeCast_row256 (a18 m c)
theorem e13_v4 : U13 m c main_v4 = proj (a0 m c) (a3 m c) (row1 (a4 m c)) := by walk main_v4; exact e3_v4 m c

/-! ## The result -/

/-- THE KERNEL'S RESULT: the contents of the result buffer after the last item are the closed form. -/
theorem kernel_value (hpre : Cert.Pre_KernelIdeal m) : U14 m c main_v52
    = closedMul (mid (a0 m c) (a1 m c) (a2 m c) (a3 m c) (a4 m c) (a5 m c) (a6 m c) (a7 m c) (a8 m c) (a9 m c) (a10 m c) (a11 m c) (a12 m c) (a13 m c) (a14 m c) (a15 m c) (a16 m c)) (a17 m c) (a18 m c) := by
  have h4 : arrH3 (atTc (U13 m)) c = proj (a0 m c) (a3 m c) (row1 (a4 m c)) := e13_v4 m c
  have h49 : arrA3 (atTc (U13 m)) c = aggregate (F := Ideal) (softWeights (F := Ideal) (scores m c))
      (gatherRows (F := Ideal) (proj (a0 m c) (a9 m c) (row1 (a10 m c))) (normIdx (idxRow (a1 m c) 1))) (idxRow (a1 m c) 0) := e13_v49 m c hpre
  have h50 : rowG3 (atTc (U13 m)) c = row1 (a17 m c) := e13_v50 m c
  have h51 : rowB3 (atTc (U13 m)) c = row1 (a18 m c) := e13_v51 m c
  rw [U14_out, final3, h4, h49, h50, h51]; rfl

end Cert.KernelIdeal.Val

end
-- ==== Proof.Ref.ResEq.lean ====
/-
  The reference's result is the last stage of its arguments.

  The reference function is a straight line of 136 array operations. What its result buffer holds after the line,
  started from any buffer contents, is the fold of the operations over those contents. Evaluated operation by
  operation, the fold is each operation's function applied to what its operand buffers hold, down to the argument
  buffers, and that composed term is the composed stage `val_main_v112` of the nineteen argument arrays. The
  launch contents are one such starting point, which gives the equation for the result the run module names.
-/
import proofs.«408511_j55722905699140_1_alg».proof.Proof.Ref.ReadCopy
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 54400000 in
/-- From any buffer contents, the operations leave the result buffer at the composed stage of what the argument
    buffers held. -/
theorem after_ops (V : Valuation τ sig (Elt F)) :
    StableHlo.after Cert.ReferenceIdeal.Value.ops V (Proc.devRef .tc main_v112)
      = val_main_v112 (F := F) (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) := by
  after_results_simp <;> rfl

/-- On every device the reference's result, run from the launch contents, is the composed stage of the launch's
    argument arrays. -/
theorem res_eq (m : (ℓ : Loc nD τ sig) → Buf (Elt F) ℓ) (c : Dev nD) :
    Cert.ReferenceIdeal.Value.res_main_v112 m c
      = val_main_v112 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  unfold Cert.ReferenceIdeal.Value.res_main_v112
  exact after_ops (launchContents m c)

end Cert.ReferenceIdeal.RefValue

end
-- ==== Proof.Ref.RefStages.lean ====
/-
  The reference program's stages that are not index arithmetic, and its dense layers, each as a function the
  closed form is written in.
  * The five dense layers (node features against the h, q, k, v weights; edge features against the edge weights):
    entry (r, c) is the sum over the inner axis of x[r, l] · W[l, c] plus the bias's entry c (`Spec.proj`, the bias
    as a 1×d row).
  * The two rows of the edge index as index vectors (`idxRow`), and each of the four wrapped index columns
    (`normIdx`: a negative entry i stands for i + 16384).
  * The three row gathers (source rows of q, target rows of k and of v) are `gatherRows` of those.
  * The head mean, the shifted exponentials and their normalisation are `softWeights` of the scores.
  * The scatter-add of weight × target row of v into the source rows of a zero array is `aggregate`.
  The last three groups are the same operations in the same order on both sides: the equations hold by unfolding.
-/
import proofs.«408511_j55722905699140_1_alg».proof.Proof.Ref.ReadCopy
import proofs.«408511_j55722905699140_1_alg».proof.Proof.Bridge.Form
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.KernelIdeal.Hand Cert.Bridge Cert.Spec
open Idealize.ShloMosaic Idealize.ShloMosaic.ValueIdx

variable (x0 : (⟨S16384x256, .f32⟩ : BufTy).Contents (Elt Ideal)) (x1 : (⟨S2x262144, .i32⟩ : BufTy).Contents (Elt Ideal)) (x2 : (⟨S262144x64, .f32⟩ : BufTy).Contents (Elt Ideal))
  (x3 : (⟨S256x256, .f32⟩ : BufTy).Contents (Elt Ideal)) (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal)) (x8 : (⟨S256, .f32⟩ : BufTy).Contents (Elt Ideal))
  (x9 : (⟨S256x256, .f32⟩ : BufTy).Contents (Elt Ideal)) (x10 : (⟨S256, .f32⟩ : BufTy).Contents (Elt Ideal)) (x11 : (⟨S64x256, .f32⟩ : BufTy).Contents (Elt Ideal))
  (x12 : (⟨S256, .f32⟩ : BufTy).Contents (Elt Ideal)) (x13 : (⟨S768x256, .f32⟩ : BufTy).Contents (Elt Ideal)) (x14 : (⟨S256, .f32⟩ : BufTy).Contents (Elt Ideal))
  (x15 : (⟨S256x8, .f32⟩ : BufTy).Contents (Elt Ideal)) (x16 : (⟨S8, .f32⟩ : BufTy).Contents (Elt Ideal)) (x17 : (⟨S256, .f32⟩ : BufTy).Contents (Elt Ideal))
  (x18 : (⟨S256, .f32⟩ : BufTy).Contents (Elt Ideal))

/-! ## The dense layers -/

/-- The node layer `h`. -/
theorem v3_eq : val_main_v3 (F := Ideal) x0 x3 x4 = Cert.Spec.proj x0 x3 (Cert.Bridge.row1 x4) := by
  funext i
  have el : ∀ k : Fin 256, lidx_main_v0 i k = ix2 (i 0) k := fun k => funext fun a => by
    match a with
    | ⟨0, _⟩ => rfl
    | ⟨1, _⟩ => rfl
  have er : ∀ k : Fin 256, ridx_main_v0 i k = ix2 k (i 1) := fun k => funext fun a => by
    match a with
    | ⟨0, _⟩ => rfl
    | ⟨1, _⟩ => rfl
  have eb : idx_main_v1 (idx_main_v2 i) = ix1 (i 1) := funext fun a => by
    match a with
    | ⟨0, _⟩ => rfl
  rw [val_main_v3_apply, val_main_v0_apply, val_main_v2_apply, val_main_v1_apply]
  show (∑ k : Fin 256, x0 (lidx_main_v0 i k) * x3 (ridx_main_v0 i k)) + x4 (idx_main_v1 (idx_main_v2 i))
    = (∑ l : Fin 256, x0 (ix2 (i 0) l) * x3 (ix2 l (i 1))) + x4 (ix1 (i 1))
  exact congrArg₂ (· + ·)
    (Finset.sum_congr rfl fun k _ => congrArg₂ (· * ·) (congrArg x0 (el k)) (congrArg x3 (er k)))
    (congrArg x4 eb)

/-- The query layer `q`. -/
theorem v7_eq : val_main_v7 (F := Ideal) x0 x5 x6 = Cert.Spec.proj x0 x5 (Cert.Bridge.row1 x6) := by
  funext i
  have el : ∀ k : Fin 256, lidx_main_v4 i k = ix2 (i 0) k := fun k => funext fun a => by
    match a with
    | ⟨0, _⟩ => rfl
    | ⟨1, _⟩ => rfl
  have er : ∀ k : Fin 256, ridx_main_v4 i k = ix2 k (i 1) := fun k => funext fun a => by
    match a with
    | ⟨0, _⟩ => rfl
    | ⟨1, _⟩ => rfl
  have eb : idx_main_v5 (idx_main_v6 i) = ix1 (i 1) := funext fun a => by
    match a with
    | ⟨0, _⟩ => rfl
  rw [val_main_v7_apply, val_main_v4_apply, val_main_v6_apply, val_main_v5_apply]
  show (∑ k : Fin 256, x0 (lidx_main_v4 i k) * x5 (ridx_main_v4 i k)) + x6 (idx_main_v5 (idx_main_v6 i))
    = (∑ l : Fin 256, x0 (ix2 (i 0) l) * x5 (ix2 l (i 1))) + x6 (ix1 (i 1))
  exact congrArg₂ (· + ·)
    (Finset.sum_congr rfl fun k _ => congrArg₂ (· * ·) (congrArg x0 (el k)) (congrArg x5 (er k)))
    (congrArg x6 eb)

/-- The key layer `k`. -/
theorem v11_eq : val_main_v11 (F := Ideal) x0 x7 x8 = Cert.Spec.proj x0 x7 (Cert.Bridge.row1 x8) := by
  funext i
  have el : ∀ k : Fin 256, lidx_main_v8 i k = ix2 (i 0) k := fun k => funext fun a => by
    match a with
    | ⟨0, _⟩ => rfl
    | ⟨1, _⟩ => rfl
  have er : ∀ k : Fin 256, ridx_main_v8 i k = ix2 k (i 1) := fun k => funext fun a => by
    match a with
    | ⟨0, _⟩ => rfl
    | ⟨1, _⟩ => rfl
  have eb : idx_main_v9 (idx_main_v10 i) = ix1 (i 1) := funext fun a => by
    match a with
    | ⟨0, _⟩ => rfl
  rw [val_main_v11_apply, val_main_v8_apply, val_main_v10_apply, val_main_v9_apply]
  show (∑ k : Fin 256, x0 (lidx_main_v8 i k) * x7 (ridx_main_v8 i k)) + x8 (idx_main_v9 (idx_main_v10 i))
    = (∑ l : Fin 256, x0 (ix2 (i 0) l) * x7 (ix2 l (i 1))) + x8 (ix1 (i 1))
  exact congrArg₂ (· + ·)
    (Finset.sum_congr rfl fun k _ => congrArg₂ (· * ·) (congrArg x0 (el k)) (congrArg x7 (er k)))
    (congrArg x8 eb)

/-- The value layer `v`. -/
theorem v15_eq : val_main_v15 (F := Ideal) x0 x9 x10 = Cert.Spec.proj x0 x9 (Cert.Bridge.row1 x10) := by
  funext i
  have el : ∀ k : Fin 256, lidx_main_v12 i k = ix2 (i 0) k := fun k => funext fun a => by
    match a with
    | ⟨0, _⟩ => rfl
    | ⟨1, _⟩ => rfl
  have er : ∀ k : Fin 256, ridx_main_v12 i k = ix2 k (i 1) := fun k => funext fun a => by
    match a with
    | ⟨0, _⟩ => rfl
    | ⟨1, _⟩ => rfl
  have eb : idx_main_v13 (idx_main_v14 i) = ix1 (i 1) := funext fun a => by
    match a with
    | ⟨0, _⟩ => rfl
  rw [val_main_v15_apply, val_main_v12_apply, val_main_v14_apply, val_main_v13_apply]
  show (∑ k : Fin 256, x0 (lidx_main_v12 i k) * x9 (ridx_main_v12 i k)) + x10 (idx_main_v13 (idx_main_v14 i))
    = (∑ l : Fin 256, x0 (ix2 (i 0) l) * x9 (ix2 l (i 1))) + x10 (ix1 (i 1))
  exact congrArg₂ (· + ·)
    (Finset.sum_congr rfl fun k _ => congrArg₂ (· * ·) (congrArg x0 (el k)) (congrArg x9 (er k)))
    (congrArg x10 eb)

/-- The edge layer `eh`. -/
theorem v19_eq : val_main_v19 (F := Ideal) x2 x11 x12 = Cert.Spec.proj x2 x11 (Cert.Bridge.row1 x12) := by
  funext i
  have el : ∀ k : Fin 64, lidx_main_v16 i k = ix2 (i 0) k := fun k => funext fun a => by
    match a with
    | ⟨0, _⟩ => rfl
    | ⟨1, _⟩ => rfl
  have er : ∀ k : Fin 64, ridx_main_v16 i k = ix2 k (i 1) := fun k => funext fun a => by
    match a with
    | ⟨0, _⟩ => rfl
    | ⟨1, _⟩ => rfl
  have eb : idx_main_v17 (idx_main_v18 i) = ix1 (i 1) := funext fun a => by
    match a with
    | ⟨0, _⟩ => rfl
  rw [val_main_v19_apply, val_main_v16_apply, val_main_v18_apply, val_main_v17_apply]
  show (∑ k : Fin 64, x2 (lidx_main_v16 i k) * x11 (ridx_main_v16 i k)) + x12 (idx_main_v17 (idx_main_v18 i))
    = (∑ l : Fin 64, x2 (ix2 (i 0) l) * x11 (ix2 l (i 1))) + x12 (ix1 (i 1))
  exact congrArg₂ (· + ·)
    (Finset.sum_congr rfl fun k _ => congrArg₂ (· * ·) (congrArg x2 (el k)) (congrArg x11 (er k)))
    (congrArg x12 eb)

/-! ## The edge index's rows and the wrapped index columns -/

/-- Row 0 of the edge index: the sources. -/
theorem v21_eq : val_main_v21 (F := Ideal) x1 = Cert.Bridge.idxRow x1 0 := by
  funext e
  rw [val_main_v21_apply, val_main_v20_apply]
  show x1 (idx_main_v20 (idx_main_v21 e)) = x1 (ix2 (0 : Fin 2) (e 0))
  exact congrArg x1 (funext fun a => Fin.ext (by
    match a with
    | ⟨0, _⟩ => rfl
    | ⟨1, _⟩ => exact Nat.mod_eq_of_lt (e 0).isLt))

/-- Row 1 of the edge index: the targets. -/
theorem v23_eq : val_main_v23 (F := Ideal) x1 = Cert.Bridge.idxRow x1 1 := by
  funext e
  rw [val_main_v23_apply, val_main_v22_apply]
  show x1 (idx_main_v22 (idx_main_v23 e)) = x1 (ix2 (1 : Fin 2) (e 0))
  exact congrArg x1 (funext fun a => Fin.ext (by
    match a with
    | ⟨0, _⟩ => rfl
    | ⟨1, _⟩ => exact Nat.mod_eq_of_lt (e 0).isLt))

/-- The wrapped source index, as a column (for the gather of `q`). -/
theorem v29_eq : val_main_v29 (F := Ideal) x1 = normIdx (Cert.Bridge.idxRow x1 0) := by
  unfold val_main_v29 val_main_v28 val_main_v25 val_main_v27 val_main_v24 val_main_v26 val_main_c val_main_c_0
  rw [v21_eq]
  rfl

/-- The wrapped target index, as a column (for the gather of `k`). -/
theorem v36_eq : val_main_v36 (F := Ideal) x1 = normIdx (Cert.Bridge.idxRow x1 1) := by
  unfold val_main_v36 val_main_v35 val_main_v32 val_main_v34 val_main_v31 val_main_v33 val_main_c_1 val_main_c_2
  rw [v23_eq]
  rfl

/-- The wrapped target index again (for the gather of `v`). -/
theorem v77_eq : val_main_v77 (F := Ideal) x1 = normIdx (Cert.Bridge.idxRow x1 1) := by
  unfold val_main_v77 val_main_v76 val_main_v73 val_main_v75 val_main_v72 val_main_v74 val_main_c_12 val_main_c_13
  rw [v23_eq]
  rfl

/-- The wrapped source index again (for the scatter). -/
theorem v86_eq : val_main_v86 (F := Ideal) x1 = normIdx (Cert.Bridge.idxRow x1 0) := by
  unfold val_main_v86 val_main_v85 val_main_v82 val_main_v84 val_main_v81 val_main_v83 val_main_c_14 val_main_c_15
  rw [v21_eq]
  rfl

/-! ## The row gathers -/

/-- Source rows of `q`. -/
theorem v30_eq : val_main_v30 (F := Ideal) x0 x1 x5 x6
    = gatherRows (F := Ideal) (val_main_v7 (F := Ideal) x0 x5 x6) (val_main_v29 (F := Ideal) x1) := rfl

/-- Target rows of `k`. -/
theorem v37_eq : val_main_v37 (F := Ideal) x0 x1 x7 x8
    = gatherRows (F := Ideal) (val_main_v11 (F := Ideal) x0 x7 x8) (val_main_v36 (F := Ideal) x1) := rfl

/-- Target rows of `v`. -/
theorem v78_eq : val_main_v78 (F := Ideal) x0 x1 x9 x10
    = gatherRows (F := Ideal) (val_main_v15 (F := Ideal) x0 x9 x10) (val_main_v77 (F := Ideal) x1) := rfl

/-! ## The softmax weights -/

/-- The mean of each edge's eight scores. -/
theorem v59_eq : val_main_v59 (F := Ideal) x0 x1 x2 x5 x6 x7 x8 x11 x12 x13 x14 x15 x16 = headMean (F := Ideal) (val_main_v56 (F := Ideal) x0 x1 x2 x5 x6 x7 x8 x11 x12 x13 x14 x15 x16) := by
  unfold val_main_v59 val_main_v57 val_main_v58 val_main_cst_6 val_main_cst_7
  rfl

/-- The exponentials of the means shifted by their maximum. -/
theorem v65_eq : val_main_v65 (F := Ideal) x0 x1 x2 x5 x6 x7 x8 x11 x12 x13 x14 x15 x16 = shiftedExp (F := Ideal) (val_main_v59 (F := Ideal) x0 x1 x2 x5 x6 x7 x8 x11 x12 x13 x14 x15 x16) := by
  unfold val_main_v65 val_main_v64 val_main_v63 val_main_v62 val_main_v61 val_main_v60 val_main_cst_8 val_main_cst_9
  rfl

/-- Their division by the total. -/
theorem v69_norm : val_main_v69 (F := Ideal) x0 x1 x2 x5 x6 x7 x8 x11 x12 x13 x14 x15 x16 = normalise (F := Ideal) (val_main_v65 (F := Ideal) x0 x1 x2 x5 x6 x7 x8 x11 x12 x13 x14 x15 x16) := by
  unfold val_main_v69 val_main_v68 val_main_v67 val_main_v66 val_main_cst_10
  rfl

/-- The softmax weights of the scores. -/
theorem v69_eq : val_main_v69 (F := Ideal) x0 x1 x2 x5 x6 x7 x8 x11 x12 x13 x14 x15 x16 = softWeights (F := Ideal) (val_main_v56 (F := Ideal) x0 x1 x2 x5 x6 x7 x8 x11 x12 x13 x14 x15 x16) := by
  rw [v69_norm, v65_eq, v59_eq]
  rfl

/-! ## The aggregate -/

/-- Every edge adds its weight times its target's `v` row into its source's row of a zero array. -/
theorem v87_eq : val_main_v87 (F := Ideal) x0 x1 x2 x5 x6 x7 x8 x9 x10 x11 x12 x13 x14 x15 x16
    = aggregate (F := Ideal) (val_main_v69 (F := Ideal) x0 x1 x2 x5 x6 x7 x8 x11 x12 x13 x14 x15 x16) (val_main_v78 (F := Ideal) x0 x1 x9 x10) (Cert.Bridge.idxRow x1 0) := by
  unfold val_main_v87 val_main_v70 val_main_cst_11 val_main_v80 val_main_v79 val_main_v71
  rw [v86_eq]
  rfl

/-! ## The assembly

Given the two attention layers as `Spec.attn` of the gathered rows (`hS`) and the normalisation stages as `Spec.lnDiv`
of the residual sum (`hL`), the reference's result is the closed form of its nineteen arguments. -/

/-- The aggregated messages are the closed form's. -/
theorem v87_mid
    (hS : val_main_v56 (F := Ideal) x0 x1 x2 x5 x6 x7 x8 x11 x12 x13 x14 x15 x16
      = Cert.Spec.attn (val_main_v30 (F := Ideal) x0 x1 x5 x6) (val_main_v37 (F := Ideal) x0 x1 x7 x8) (val_main_v19 (F := Ideal) x2 x11 x12)
          (Cert.Bridge.rowsFrom x13 0 (by omega)) (Cert.Bridge.rowsFrom x13 256 (by omega)) (Cert.Bridge.rowsFrom x13 512 (by omega))
          (Cert.Bridge.row1 x14) x15 (Cert.Bridge.row1 x16)) :
    val_main_v87 (F := Ideal) x0 x1 x2 x5 x6 x7 x8 x9 x10 x11 x12 x13 x14 x15 x16 = (Cert.Bridge.mid x0 x1 x2 x3 x4 x5 x6 x7 x8 x9 x10 x11 x12 x13 x14 x15 x16).agg := by
  rw [v87_eq, v69_eq, hS, v78_eq, v30_eq, v37_eq, v19_eq, v7_eq, v11_eq, v15_eq, v29_eq, v36_eq, v77_eq]
  rfl

/-- The residual sum `h + aggregate` is the closed form's. -/
theorem v88_eq
    (hS : val_main_v56 (F := Ideal) x0 x1 x2 x5 x6 x7 x8 x11 x12 x13 x14 x15 x16
      = Cert.Spec.attn (val_main_v30 (F := Ideal) x0 x1 x5 x6) (val_main_v37 (F := Ideal) x0 x1 x7 x8) (val_main_v19 (F := Ideal) x2 x11 x12)
          (Cert.Bridge.rowsFrom x13 0 (by omega)) (Cert.Bridge.rowsFrom x13 256 (by omega)) (Cert.Bridge.rowsFrom x13 512 (by omega))
          (Cert.Bridge.row1 x14) x15 (Cert.Bridge.row1 x16)) :
    val_main_v88 (F := Ideal) x0 x1 x2 x3 x4 x5 x6 x7 x8 x9 x10 x11 x12 x13 x14 x15 x16 = (Cert.Bridge.mid x0 x1 x2 x3 x4 x5 x6 x7 x8 x9 x10 x11 x12 x13 x14 x15 x16).sum := by
  unfold val_main_v88
  rw [v87_mid (hS := hS), v3_eq]
  rfl

/-- The reference's result as the closed form with the square root as a divisor. -/
theorem ref_closed
    (hS : val_main_v56 (F := Ideal) x0 x1 x2 x5 x6 x7 x8 x11 x12 x13 x14 x15 x16
      = Cert.Spec.attn (val_main_v30 (F := Ideal) x0 x1 x5 x6) (val_main_v37 (F := Ideal) x0 x1 x7 x8) (val_main_v19 (F := Ideal) x2 x11 x12)
          (Cert.Bridge.rowsFrom x13 0 (by omega)) (Cert.Bridge.rowsFrom x13 256 (by omega)) (Cert.Bridge.rowsFrom x13 512 (by omega))
          (Cert.Bridge.row1 x14) x15 (Cert.Bridge.row1 x16))
    (hL : val_main_v112 (F := Ideal) x0 x1 x2 x3 x4 x5 x6 x7 x8 x9 x10 x11 x12 x13 x14 x15 x16 x17 x18
      = Cert.Spec.lnDiv (val_main_v88 (F := Ideal) x0 x1 x2 x3 x4 x5 x6 x7 x8 x9 x10 x11 x12 x13 x14 x15 x16) (Cert.Bridge.row1 x17) (Cert.Bridge.row1 x18)) :
    val_main_v112 (F := Ideal) x0 x1 x2 x3 x4 x5 x6 x7 x8 x9 x10 x11 x12 x13 x14 x15 x16 x17 x18 = Cert.Bridge.closedDiv (Cert.Bridge.mid x0 x1 x2 x3 x4 x5 x6 x7 x8 x9 x10 x11 x12 x13 x14 x15 x16) x17 x18 := by
  rw [hL, v88_eq (hS := hS)]
  rfl

end Cert.ReferenceIdeal.RefValue

end
-- ==== Proof.Ref.RefScores.lean ====
/-
  The reference program's two attention layers, on the extended reals, as the two-layer attention unit of the
  specification.

  For edge `e` the reference lays three 256-entry rows side by side into one 768-entry row — the source's query
  row, the target's key row and the edge's own feature row —, multiplies it with the 768×256 first weight matrix,
  adds the first bias, applies the leaky rectifier; then multiplies the 256 hidden units with the 256×8 second
  weight matrix, adds the second bias, applies the leaky rectifier again: 8 scores per edge.

  * A sum over 768 positions is the sum over the first 256, plus the sum over the next 256, plus the sum over the
    last 256 (`sum768`): addition on the extended reals is commutative and associative, nothing else is used.
  * Column `256·k + c` of the side-by-side row is column `c` of the k-th block (`cat_col0`, `cat_col1`,
    `cat_col2`). So the 768-term product is the three 256-term products against the first matrix's three blocks
    of 256 rows, added in that order, then the bias (`pre_eq`): the specification's `attnPre`.
  * The rectifier is a select on `z > 0` between `z` and `0.2 · z`, the zero and the slope as the two float
    words the program prints, the product with the slope on the left (`leaky_eq`).
  * The stages in order: `v42_eq` (first layer before its rectifier), `v47_eq` (after it), `v51_eq` (second layer
    before its rectifier), `scores_eq` (the scores).
-/
import proofs.«408511_j55722905699140_1_alg».proof.Proof.Ref.ReadCopy
import proofs.«408511_j55722905699140_1_alg».proof.Proof.Bridge.Form
import Idealize.ShloMosaic.Lib.Pipeline.Value
import Idealize.ShloMosaic.Lib.ValueIdx
import Mathlib.Algebra.BigOperators.Fin

noncomputable section

namespace Cert.ReferenceIdeal.RefValue

open Cert.ReferenceIdeal Cert.ReferenceIdeal.Gen Cert.ReferenceIdeal.Read
open Idealize.ShloMosaic Idealize.ShloMosaic.ValueIdx
open Cert.Spec Cert.Bridge

/-! ## A sum over 768 positions as three sums over 256 -/

/-- Addition on the extended reals is commutative and associative, so a sum over `0 … 767` is the sum over
    `0 … 255`, plus the sum over `256 … 511`, plus the sum over `512 … 767`. -/
theorem sum768 (f : Fin 768 → EReal) :
    ∑ p : Fin 768, f p
      = ((∑ p : Fin 256, f ⟨0 + p.val, by have := p.isLt; omega⟩) + ∑ p : Fin 256, f ⟨256 + p.val, by have := p.isLt; omega⟩)
        + ∑ p : Fin 256, f ⟨512 + p.val, by have := p.isLt; omega⟩ := by
  show ∑ p : Fin (256 + 256 + 256), f p = _
  rw [Fin.sum_univ_add, Fin.sum_univ_add]
  refine congrArg₂ (· + ·) (congrArg₂ (· + ·) ?_ ?_) ?_ <;>
    exact Finset.sum_congr rfl fun p _ => congrArg f (Fin.ext (by simp <;> omega))

/-! ## The three row blocks laid side by side -/

section Cat

variable (qs kt eh : Arr2 262144 256)

/-- Column `0 + c` of the three blocks laid side by side is column `c` of the first. -/
theorem cat_col0 (e : Fin 262144) (c : Fin 256) (p : Fin 768) (hp : p.val = 0 + c.val) :
    (concatenate S262144x768 1 [⟨S262144x256, qs⟩, ⟨S262144x256, kt⟩, ⟨S262144x256, eh⟩] concatenates_S262144x256_S262144x256_S262144x256_S262144x768_d1 : S262144x768.Idx → EReal) (ix2 e p) = qs (ix2 e c) := by
  refine concatenate_apply_piece (t := S262144x768) (a := 1) (xs := [⟨S262144x256, qs⟩, ⟨S262144x256, kt⟩, ⟨S262144x256, eh⟩])
    (h := concatenates_S262144x256_S262144x256_S262144x256_S262144x768_d1) (j := ix2 e p) (k := 0) (hk := by show 0 < 3; omega)
    (s₁ := S262144x256) (x₁ := qs) (hxk := rfl) (hr := rfl) (pre := 0) (hpre := rfl)
    (i := ix2 e c) (hi := fun b hb => ?_) (ha := ?_)
  · match b with
    | ⟨0, _⟩ => rfl
    | ⟨1, _⟩ => exact absurd rfl hb
  · show 0 + c.val = p.val
    omega

/-- Column `256 + c` is column `c` of the second. -/
theorem cat_col1 (e : Fin 262144) (c : Fin 256) (p : Fin 768) (hp : p.val = 256 + c.val) :
    (concatenate S262144x768 1 [⟨S262144x256, qs⟩, ⟨S262144x256, kt⟩, ⟨S262144x256, eh⟩] concatenates_S262144x256_S262144x256_S262144x256_S262144x768_d1 : S262144x768.Idx → EReal) (ix2 e p) = kt (ix2 e c) := by
  refine concatenate_apply_piece (t := S262144x768) (a := 1) (xs := [⟨S262144x256, qs⟩, ⟨S262144x256, kt⟩, ⟨S262144x256, eh⟩])
    (h := concatenates_S262144x256_S262144x256_S262144x256_S262144x768_d1) (j := ix2 e p) (k := 1) (hk := by show 1 < 3; omega)
    (s₁ := S262144x256) (x₁ := kt) (hxk := rfl) (hr := rfl) (pre := 256) (hpre := rfl)
    (i := ix2 e c) (hi := fun b hb => ?_) (ha := ?_)
  · match b with
    | ⟨0, _⟩ => rfl
    | ⟨1, _⟩ => exact absurd rfl hb
  · show 256 + c.val = p.val
    omega

/-- Column `512 + c` is column `c` of the third. -/
theorem cat_col2 (e : Fin 262144) (c : Fin 256) (p : Fin 768) (hp : p.val = 512 + c.val) :
    (concatenate S262144x768 1 [⟨S262144x256, qs⟩, ⟨S262144x256, kt⟩, ⟨S262144x256, eh⟩] concatenates_S262144x256_S262144x256_S262144x256_S262144x768_d1 : S262144x768.Idx → EReal) (ix2 e p) = eh (ix2 e c) := by
  refine concatenate_apply_piece (t := S262144x768) (a := 1) (xs := [⟨S262144x256, qs⟩, ⟨S262144x256, kt⟩, ⟨S262144x256, eh⟩])
    (h := concatenates_S262144x256_S262144x256_S262144x256_S262144x768_d1) (j := ix2 e p) (k := 2) (hk := by show 2 < 3; omega)
    (s₁ := S262144x256) (x₁ := eh) (hxk := rfl) (hr := rfl) (pre := 512) (hpre := rfl)
    (i := ix2 e c) (hi := fun b hb => ?_) (ha := ?_)
  · match b with
    | ⟨0, _⟩ => rfl
    | ⟨1, _⟩ => exact absurd rfl hb
  · show 512 + c.val = p.val
    omega

/-- The first layer before its rectifier: the 768-column row against the 768-row matrix is the three 256-column
    rows against the matrix's three blocks of 256 rows, added; then the bias. -/
theorem pre_eq (A1 : Arr2 768 256) (a1 : S256.Idx → EReal) (e : Fin 262144) (l : Fin 256) :
    (∑ k : Fin 768, (concatenate S262144x768 1 [⟨S262144x256, qs⟩, ⟨S262144x256, kt⟩, ⟨S262144x256, eh⟩] concatenates_S262144x256_S262144x256_S262144x256_S262144x768_d1 : S262144x768.Idx → EReal) (ix2 e k) * A1 (ix2 k l)) + a1 (ix1 l)
      = attnPre qs kt eh (rowsFrom A1 0 (by omega)) (rowsFrom A1 256 (by omega)) (rowsFrom A1 512 (by omega)) (row1 a1) e l := by
  unfold attnPre
  rw [sum768]
  refine congrArg₂ (· + ·) (congrArg₂ (· + ·) (congrArg₂ (· + ·) ?_ ?_) ?_) rfl
  · refine Finset.sum_congr rfl fun p _ => congrArg₂ (· * ·) ?_ rfl
    exact cat_col0 qs kt eh e p _ rfl
  · refine Finset.sum_congr rfl fun p _ => congrArg₂ (· * ·) ?_ rfl
    exact cat_col1 qs kt eh e p _ rfl
  · refine Finset.sum_congr rfl fun p _ => congrArg₂ (· * ·) ?_ rfl
    exact cat_col2 qs kt eh e p _ rfl

end Cat

/-! ## The leaky rectifier as the reference spells it -/

/-- A select on `z > 0` between `z` and `0.2 · z`, the two constants as the program prints them. -/
theorem leaky_eq (z : EReal) :
    Scalar.select (FloatOps.cmpf (F := Ideal) (φ := .f32) .ogt z (FloatOps.ofBits (F := Ideal) .f32 0x00000000#32)) z
        (FloatOps.mulf (F := Ideal) (φ := .f32) (FloatOps.ofBits (F := Ideal) .f32 0x3E4CCCCD#32) z)
      = leaky z := rfl

/-! ## The two attention layers of the reference -/

section Scores

variable (x0 : (⟨S16384x256, .f32⟩ : BufTy).Contents (Elt Ideal)) (x1 : (⟨S2x262144, .i32⟩ : BufTy).Contents (Elt Ideal)) (x2 : (⟨S262144x64, .f32⟩ : BufTy).Contents (Elt Ideal))
  (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
  (x11 : (⟨S64x256, .f32⟩ : BufTy).Contents (Elt Ideal)) (x12 : (⟨S256, .f32⟩ : BufTy).Contents (Elt Ideal)) (x13 : (⟨S768x256, .f32⟩ : BufTy).Contents (Elt Ideal)) (x14 : (⟨S256, .f32⟩ : BufTy).Contents (Elt Ideal))
  (x15 : (⟨S256x8, .f32⟩ : BufTy).Contents (Elt Ideal)) (x16 : (⟨S8, .f32⟩ : BufTy).Contents (Elt Ideal))

/-- The first layer before its rectifier, for edge `e` and hidden unit `l`. -/
theorem v42_eq (e : Fin 262144) (l : Fin 256) :
    val_main_v42 (F := Ideal) x0 x1 x2 x5 x6 x7 x8 x11 x12 x13 x14 (ix2 e l)
      = attnPre (val_main_v30 (F := Ideal) x0 x1 x5 x6) (val_main_v37 (F := Ideal) x0 x1 x7 x8) (val_main_v19 (F := Ideal) x2 x11 x12)
          (rowsFrom x13 0 (by omega)) (rowsFrom x13 256 (by omega)) (rowsFrom x13 512 (by omega)) (row1 x14) e l := by
  rw [val_main_v42_apply, val_main_v39_apply, val_main_v41_apply, val_main_v40_apply]
  unfold val_main_v38
  have el : ∀ k : Fin 768, lidx_main_v39 (ix2 e l) k = ix2 e k := fun k => funext fun a => by
    match a with | ⟨0, _⟩ => rfl | ⟨1, _⟩ => rfl
  have er : ∀ k : Fin 768, ridx_main_v39 (ix2 e l) k = ix2 k l := fun k => funext fun a => by
    match a with | ⟨0, _⟩ => rfl | ⟨1, _⟩ => rfl
  have eb : idx_main_v40 (idx_main_v41 (ix2 e l)) = ix1 l := funext fun a => by
    match a with | ⟨0, _⟩ => rfl
  simp only [el, er, eb]
  exact pre_eq _ _ _ x13 x14 e l

/-- The first layer's hidden unit `l` of edge `e`. -/
theorem v47_eq (e : Fin 262144) (l : Fin 256) :
    val_main_v47 (F := Ideal) x0 x1 x2 x5 x6 x7 x8 x11 x12 x13 x14 (ix2 e l)
      = leaky (attnPre (val_main_v30 (F := Ideal) x0 x1 x5 x6) (val_main_v37 (F := Ideal) x0 x1 x7 x8) (val_main_v19 (F := Ideal) x2 x11 x12)
          (rowsFrom x13 0 (by omega)) (rowsFrom x13 256 (by omega)) (rowsFrom x13 512 (by omega)) (row1 x14) e l) := by
  rw [val_main_v47_apply, val_main_v44_apply, val_main_v46_apply, val_main_v43_apply, val_main_v45_apply,
    val_main_cst_apply, val_main_cst_3_apply, v42_eq]
  exact leaky_eq _

/-- The second layer before its rectifier, for edge `e` and head `h`. -/
theorem v51_eq (e : Fin 262144) (h : Fin 8) :
    val_main_v51 (F := Ideal) x0 x1 x2 x5 x6 x7 x8 x11 x12 x13 x14 x15 x16 (ix2 e h)
      = (∑ l : Fin 256, leaky (attnPre (val_main_v30 (F := Ideal) x0 x1 x5 x6) (val_main_v37 (F := Ideal) x0 x1 x7 x8) (val_main_v19 (F := Ideal) x2 x11 x12)
          (rowsFrom x13 0 (by omega)) (rowsFrom x13 256 (by omega)) (rowsFrom x13 512 (by omega)) (row1 x14) e l) * x15 (ix2 l h)) + row1 x16 (ix2 (0 : Fin 1) h) := by
  rw [val_main_v51_apply, val_main_v48_apply, val_main_v50_apply, val_main_v49_apply]
  have el : ∀ k : Fin 256, lidx_main_v48 (ix2 e h) k = ix2 e k := fun k => funext fun a => by
    match a with | ⟨0, _⟩ => rfl | ⟨1, _⟩ => rfl
  have er : ∀ k : Fin 256, ridx_main_v48 (ix2 e h) k = ix2 k h := fun k => funext fun a => by
    match a with | ⟨0, _⟩ => rfl | ⟨1, _⟩ => rfl
  have eb : idx_main_v49 (idx_main_v50 (ix2 e h)) = ix1 h := funext fun a => by
    match a with | ⟨0, _⟩ => rfl
  simp only [el, er, eb, v47_eq]
  rfl

/-- The reference's edge scores are the two-layer attention unit of the source rows, the target rows and the
    edge rows: the first weight matrix cut into its three blocks of 256 rows, the biases as one-row matrices. -/
theorem scores_eq :
    val_main_v56 (F := Ideal) x0 x1 x2 x5 x6 x7 x8 x11 x12 x13 x14 x15 x16
      = attn (val_main_v30 (F := Ideal) x0 x1 x5 x6) (val_main_v37 (F := Ideal) x0 x1 x7 x8) (val_main_v19 (F := Ideal) x2 x11 x12)
          (rowsFrom x13 0 (by omega)) (rowsFrom x13 256 (by omega)) (rowsFrom x13 512 (by omega)) (row1 x14) x15 (row1 x16) := by
  funext i
  obtain ⟨e, h, rfl⟩ : ∃ (e : Fin 262144) (h : Fin 8), i = ix2 e h := ⟨i 0, i 1, eq_ix2 i⟩
  rw [val_main_v56_apply, val_main_v53_apply, val_main_v55_apply, val_main_v52_apply, val_main_v54_apply,
    val_main_cst_4_apply, val_main_cst_5_apply, v51_eq]
  exact leaky_eq _

end Scores

end Cert.ReferenceIdeal.RefValue

end
-- ==== Proof.Ref.RefNorm.lean ====
/-
  The reference's row-wise normalisation, read at an index.

  Stage 88 of the reference is the residual sum s = h + aggregate. Stages 89 to 112 normalise its rows: the row sum
  (a sum over the 256 columns from the initial value 0) divided by 256 is the row mean; the centred entry is the entry
  minus its row mean; the row sum of the squared centred entries divided by 256 is the row's mean squared deviation;
  the centred entry is divided by the square root of that deviation plus epsilon, multiplied by the gain at its column
  and shifted by the shift at its column (the gain and the shift are vectors, laid as one row and repeated down the
  rows). Every one of these stages reads, at (p, q), row p of s and column q of the two vectors only — the composed
  index functions of the stages are the coordinates (p, k), (p, 0), (0, q) and q — so the last stage is the
  normalisation `Spec.lnDiv` of s with the two vectors as rows.
-/
import proofs.«408511_j55722905699140_1_alg».proof.Proof.Ref.ReadCopy
import proofs.«408511_j55722905699140_1_alg».proof.Proof.Spec
import proofs.«408511_j55722905699140_1_alg».proof.Proof.Bridge.Form
import Idealize.ShloMosaic.Lib.ValueIdx
import Idealize.ShloMosaic.PureOps.Ideal
import Idealize.ShloMosaic.PureOps.Ideal.Laws

set_option maxRecDepth 16384

noncomputable section

namespace Cert.ReferenceIdeal.RefValue

open Cert.ReferenceIdeal Cert.ReferenceIdeal.Read
open Idealize.ShloMosaic Idealize.ShloMosaic.ValueIdx

/-- The normalisation with the square root as a divisor, at (p, q), with the gain and the shift given as vectors. -/
theorem lnDiv_row1_ix2 {n : Nat} (s : Cert.Spec.Arr2 n 256) (g b : (⟨1, ![256]⟩ : Shape).Idx → EReal) (p : Fin n) (q : Fin 256) :
    Cert.Spec.lnDiv s (Cert.Bridge.row1 g) (Cert.Bridge.row1 b) (ix2 p q)
      = Ideal.div (s (ix2 p q) - Ideal.div (∑ l : Fin 256, s (ix2 p l)) Cert.Spec.c256)
          (Ideal.sqrt (Ideal.div (∑ l : Fin 256, (s (ix2 p l) - Ideal.div (∑ l' : Fin 256, s (ix2 p l')) Cert.Spec.c256)
              * (s (ix2 p l) - Ideal.div (∑ l' : Fin 256, s (ix2 p l')) Cert.Spec.c256)) Cert.Spec.c256 + Cert.Spec.epsF))
          * g (ix1 q) + b (ix1 q) := rfl

/-! ## The stages' index functions, by coordinates -/

/-- The column of row means, of deviations, of square roots, spread over the columns: (p, q) reads (p, 0). -/
theorem idx93_ix2 (p : Fin 16384) (q : Fin 256) : idx_main_v93 (ix2 p q) = ix2 p (0 : Fin 1) :=
  funext fun a => Fin.ext (by match a with | ⟨0, _⟩ => rfl | ⟨1, _⟩ => rfl)
theorem idx100_ix2 (p : Fin 16384) (q : Fin 256) : idx_main_v100 (ix2 p q) = ix2 p (0 : Fin 1) :=
  funext fun a => Fin.ext (by match a with | ⟨0, _⟩ => rfl | ⟨1, _⟩ => rfl)
theorem idx105_ix2 (p : Fin 16384) (q : Fin 256) : idx_main_v105 (ix2 p q) = ix2 p (0 : Fin 1) :=
  funext fun a => Fin.ext (by match a with | ⟨0, _⟩ => rfl | ⟨1, _⟩ => rfl)
/-- A vector of row values kept as a column: (p, u) reads p. -/
theorem idx90_ix2 (p : Fin 16384) (u : Fin 1) : idx_main_v90 (ix2 p u) = ix1 p :=
  funext fun a => Fin.ext (by match a with | ⟨0, _⟩ => rfl)
theorem idx97_ix2 (p : Fin 16384) (u : Fin 1) : idx_main_v97 (ix2 p u) = ix1 p :=
  funext fun a => Fin.ext (by match a with | ⟨0, _⟩ => rfl)
/-- A row sum: row p with summation coordinate k reads (p, k). -/
theorem idx89_ix1 (p : Fin 16384) (k : Fin 256) : idx_main_v89 (ix1 p) k = ix2 p k :=
  funext fun a => Fin.ext (by match a with | ⟨0, _⟩ => rfl | ⟨1, _⟩ => rfl)
theorem idx96_ix1 (p : Fin 16384) (k : Fin 256) : idx_main_v96 (ix1 p) k = ix2 p k :=
  funext fun a => Fin.ext (by match a with | ⟨0, _⟩ => rfl | ⟨1, _⟩ => rfl)
/-- A one-row array repeated down the rows: (p, q) reads (0, q); a vector laid as one row: (u, q) reads q. -/
theorem idx108_ix2 (p : Fin 16384) (q : Fin 256) : idx_main_v108 (ix2 p q) = ix2 (0 : Fin 1) q :=
  funext fun a => Fin.ext (by match a with | ⟨0, _⟩ => rfl | ⟨1, _⟩ => rfl)
theorem idx111_ix2 (p : Fin 16384) (q : Fin 256) : idx_main_v111 (ix2 p q) = ix2 (0 : Fin 1) q :=
  funext fun a => Fin.ext (by match a with | ⟨0, _⟩ => rfl | ⟨1, _⟩ => rfl)
theorem idx107_ix2 (u : Fin 1) (q : Fin 256) : idx_main_v107 (ix2 u q) = ix1 q :=
  funext fun a => Fin.ext (by match a with | ⟨0, _⟩ => rfl)
theorem idx110_ix2 (u : Fin 1) (q : Fin 256) : idx_main_v110 (ix2 u q) = ix1 q :=
  funext fun a => Fin.ext (by match a with | ⟨0, _⟩ => rfl)

/-! ## The last stage is the normalisation of stage 88 -/

variable (x0 : (⟨S16384x256, .f32⟩ : BufTy).Contents (Elt Ideal)) (x1 : (⟨S2x262144, .i32⟩ : BufTy).Contents (Elt Ideal))
  (x2 : (⟨S262144x64, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S256x256, .f32⟩ : BufTy).Contents (Elt Ideal))
  (x10 : (⟨S256, .f32⟩ : BufTy).Contents (Elt Ideal)) (x11 : (⟨S64x256, .f32⟩ : BufTy).Contents (Elt Ideal))
  (x12 : (⟨S256, .f32⟩ : BufTy).Contents (Elt Ideal)) (x13 : (⟨S768x256, .f32⟩ : BufTy).Contents (Elt Ideal))
  (x14 : (⟨S256, .f32⟩ : BufTy).Contents (Elt Ideal)) (x15 : (⟨S256x8, .f32⟩ : BufTy).Contents (Elt Ideal))
  (x16 : (⟨S8, .f32⟩ : BufTy).Contents (Elt Ideal)) (x17 x18 : (⟨S256, .f32⟩ : BufTy).Contents (Elt Ideal))

/-- Stage 112 is the row normalisation (square root as a divisor) of stage 88, with gain x17 and shift x18. -/
theorem v112_eq :
    val_main_v112 (F := Ideal) x0 x1 x2 x3 x4 x5 x6 x7 x8 x9 x10 x11 x12 x13 x14 x15 x16 x17 x18
      = Cert.Spec.lnDiv (val_main_v88 (F := Ideal) x0 x1 x2 x3 x4 x5 x6 x7 x8 x9 x10 x11 x12 x13 x14 x15 x16) (Cert.Bridge.row1 x17) (Cert.Bridge.row1 x18) := by
  funext i
  obtain ⟨p, q, rfl⟩ : ∃ (p : Fin 16384) (q : Fin 256), i = ix2 p q := ⟨i 0, i 1, eq_ix2 i⟩
  rw [lnDiv_row1_ix2]
  simp only [val_main_v112_apply, val_main_v111_apply, val_main_v110_apply, val_main_v109_apply, val_main_v108_apply,
    val_main_v107_apply, val_main_v106_apply, val_main_v105_apply, val_main_v104_apply, val_main_v103_apply,
    val_main_v102_apply, val_main_cst_20_apply, val_main_v101_apply, val_main_v100_apply, val_main_v99_apply,
    val_main_v98_apply, val_main_cst_19_apply, val_main_v97_apply, val_main_v96_apply, val_main_cst_18_apply,
    val_main_v95_apply, val_main_v94_apply, val_main_v93_apply, val_main_v92_apply, val_main_v91_apply,
    val_main_cst_17_apply, val_main_v90_apply, val_main_v89_apply, val_main_cst_16_apply,
    idx93_ix2, idx100_ix2, idx105_ix2, idx90_ix2, idx97_ix2, idx89_ix1, idx96_ix1, idx108_ix2, idx111_ix2, idx107_ix2, idx110_ix2]
  generalize val_main_v88 (F := Ideal) x0 x1 x2 x3 x4 x5 x6 x7 x8 x9 x10 x11 x12 x13 x14 x15 x16 = s
  simp only [Ideal.addf_def, Ideal.subf_def, Ideal.mulf_def, Ideal.hostDivf_def, Ideal.hostUnary_sqrt_def, Ideal.ofBits_def,
    Ideal.ofBits_zero_f32, zero_add]

end Cert.ReferenceIdeal.RefValue

end
-- ==== Proof.Ref.RefClosed.lean ====
/-
  The reference program's run with its result as the closed form: every weakly fair execution terminates, the result
  buffer ends at the closed form (with the square root as a divisor) of the argument arrays, and the argument arrays
  end as launched. The result is the fold of @main's operations, which is the last stage of the stage-by-stage reading;
  the stages are the dense layers, the gathered rows, the attention scores, the softmax weights, the aggregate and the
  normalisation of the closed form.
-/
import proofs.«408511_j55722905699140_1_alg».proof.Proof.Ref.ResEq
import proofs.«408511_j55722905699140_1_alg».proof.Proof.Ref.RefStages
import proofs.«408511_j55722905699140_1_alg».proof.Proof.Ref.RefScores
import proofs.«408511_j55722905699140_1_alg».proof.Proof.Ref.RefNorm

noncomputable section

namespace Cert.ReferenceIdeal.RefValue

open Cert.ReferenceIdeal Cert.ReferenceIdeal.Gen Cert.ReferenceIdeal.Read Cert.Bridge
open Idealize.ShloMosaic Idealize.ShloMosaic.TcCoe Idealize.SL.Sem

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v112)
        = closedDiv (mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨(h c).1.trans ((res_eq m c).trans
      (ref_closed _ _ _ _ _ _ _ _ _ _ _ _ _ _ _ _ _ _ _ (scores_eq _ _ _ _ _ _ _ _ _ _ _ _ _) (v112_eq _ _ _ _ _ _ _ _ _ _ _ _ _ _ _ _ _ _ _))), (h c).2⟩)
    (Cert.ReferenceIdeal.Value.run (F := Ideal) m ρ)

end Cert.ReferenceIdeal.RefValue

end
-- ==== Proof.LnLaw.lean ====
/-
  The two spellings of the row-wise normalisation agree at every extended real.

  One spelling scales the centred entry by the reciprocal square root of `s = var + eps`, the other divides it by
  the square root of `s`. For `s > 0` the two are the same function of the entry `a`, whatever `a` is: at `s = ⊤`
  the reciprocal square root is `0` and the square root is `⊤`, whose inverse is `0`, so both sides are `a · 0`; at a
  positive real `s` the square root is a nonzero real, division by it is the product with its inverse, and the
  reciprocal square root is that inverse. And `s` is positive at every row: a product of an extended real with itself is
  not negative (both factors are on the same side of zero), so neither is a finite sum of such products, nor that sum
  divided by the positive real 256; and eps is a positive real.
-/
import proofs.«408511_j55722905699140_1_alg».proof.Proof.Spec
import Idealize.ShloMosaic.PureOps.Ideal
import Mathlib.Data.EReal.Basic
import Mathlib.Data.EReal.Operations
import Mathlib.Data.EReal.Inv
import Mathlib.Analysis.Real.Sqrt
import Mathlib.Algebra.Order.BigOperators.Group.Finset
import Mathlib.Tactic.NormNum

noncomputable section

namespace Cert.Spec

open Idealize.ShloMosaic Idealize.ShloMosaic.ValueIdx

/-- A product of an extended real with itself is not negative: both factors lie on the same side of zero. -/
theorem mul_self_nonneg_ereal (y : EReal) : 0 ≤ y * y :=
  EReal.mul_nonneg_iff.mpr ((le_total 0 y).elim (fun h => .inl ⟨h, h⟩) (fun h => .inr ⟨h, h⟩))

/-- The printed divisor is the real 256. -/
theorem c256_eq : c256 = ((256 : ℝ) : EReal) := by
  simp [Ideal.ofBits, Ideal.ieee]
  rw [← EReal.coe_mul]
  exact congrArg _ (by norm_num)

/-- The printed epsilon is a positive real. -/
theorem epsF_pos : (0 : EReal) < epsF := by
  simp [Ideal.ofBits, Ideal.ieee]
  rw [← EReal.coe_mul]
  exact EReal.coe_pos.mpr (by norm_num)

/-- The mean squared deviation of a row is not negative. -/
theorem rowVar_nonneg {n : Nat} (x : Arr2 n 256) (r : Fin n) : 0 ≤ rowVar x r := by
  unfold rowVar
  rw [c256_eq, Ideal.div_coe (by norm_num)]
  exact EReal.mul_nonneg (Finset.sum_nonneg fun l _ => mul_self_nonneg_ereal _) (EReal.coe_nonneg.mpr (by norm_num))

/-- So the quantity under the square root is positive. -/
theorem rowVar_add_eps_pos {n : Nat} (x : Arr2 n 256) (r : Fin n) : 0 < rowVar x r + epsF :=
  lt_of_lt_of_le epsF_pos (le_add_of_nonneg_left (rowVar_nonneg x r))

/-- For positive `s`, scaling by the reciprocal square root of `s` is dividing by the square root of `s`, at every
    extended real `a`. -/
theorem mul_rsqrt_eq_div_sqrt (a : EReal) {s : EReal} (hs : 0 < s) : a * Ideal.rsqrt s = Ideal.div a (Ideal.sqrt s) := by
  induction s using EReal.rec with
  | bot => exact absurd hs (not_lt.mpr bot_le)
  | top => rw [Ideal.rsqrt_top, Ideal.sqrt_top, Ideal.div, if_neg EReal.top_ne_zero, EReal.inv_top]
  | coe r =>
    have hr : 0 < r := EReal.coe_pos.mp hs
    have hq : Real.sqrt r ≠ 0 := Real.sqrt_ne_zero'.mpr hr
    rw [Ideal.rsqrt_coe, Ideal.sqrt_coe, if_neg (not_lt.mpr hr.le), if_neg hr.ne', if_neg (not_lt.mpr hr.le), Ideal.div,
      if_neg (EReal.coe_ne_zero.mpr hq), EReal.coe_inv]

/-- The normalisation with the reciprocal square root as a factor is the one with the square root as a divisor. -/
theorem lnMul_eq_lnDiv {n : Nat} (x : Arr2 n 256) (g b : Arr2 1 256) : lnMul x g b = lnDiv x g b := by
  funext j
  unfold lnMul lnDiv
  rw [mul_rsqrt_eq_div_sqrt _ (rowVar_add_eps_pos x (j 0))]

end Cert.Spec

end
-- ==== Proof.lean ====
/-
  The certificate of the graph-attention layer: the Pallas kernel program against its jnp reference.

  Frames. The kernel program, at the word level and at the ideal instance, is four pipelines among host stretches; each
  pipeline's grid point reads its input blocks whole and overwrites its output block whole, so the run goes through item
  by item and no item writes an argument array (Proof/K/Run.lean and Proof/KI/Run.lean: one text, generic in the float
  instance). The reference is a straight line of host operations.

  Values, at the ideal instance (floats are extended reals, operations exact). Both programs compute one closed form of
  the nineteen argument arrays (Proof/Bridge/Form.lean): four dense layers of the node features, a dense layer of the
  edge features, per edge a two-layer attention unit on its source's and target's rows, a softmax over all edges of the
  mean score, a weighted scatter-add of the targets' rows into the sources' rows, and a row normalisation of the
  residual sum. The kernel fuses the four node layers into one product with the concatenated weights, splits the 768-wide
  first attention layer into three 256-wide products, and multiplies by the reciprocal square root where the reference
  divides by the square root: the two agree because the variance plus epsilon is positive (Proof/LnLaw.lean). The
  kernel's gathers are guarded (a row of a fill pattern where the wrapped index is out of range), the reference's are
  not; the precondition says every edge endpoint is a valid row index (from -16384 up to 16383), so every guard
  passes (Proof/KI/Range.lean).
-/
import proofs.«408511_j55722905699140_1_alg».proof.Defs
import proofs.«408511_j55722905699140_1_alg».proof.Proof.K.Run
import proofs.«408511_j55722905699140_1_alg».proof.Proof.KI.RunVal
import proofs.«408511_j55722905699140_1_alg».proof.Proof.KI.KernelValue
import proofs.«408511_j55722905699140_1_alg».proof.Proof.Ref.RefClosed
import proofs.«408511_j55722905699140_1_alg».proof.Proof.LnLaw

noncomputable section

namespace Cert.Proof

open Idealize.ShloMosaic Idealize.SL.Sem Cert.Bridge

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- Both idealized programs end at the closed form of the argument arrays. -/
theorem algebraic : Cert.algebraic_KernelIdeal_ReferenceIdeal := by
  intro m ρ m' ρ' hpre hagree
  refine ⟨fun c => closedDiv (mid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans ((Cert.KernelIdeal.Val.kernel_value m c hpre).trans (Cert.Spec.lnMul_eq_lnDiv _ _ _)), (h c).2⟩)
      (Cert.KernelIdeal.Hand.run_val (F := Ideal) m ρ)
  · refine (θ_run Cert.ReferenceIdeal.defs _ _).mono (fun r h c => ⟨(h c).1.trans ?_, (h c).2⟩)
      (Cert.ReferenceIdeal.RefValue.ref_run m' ρ')
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
